-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S405504 : Shape := ⟨1, ![405504]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_arg7 : FVec F S32x16 .f32) (main_arg8 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S12288x512 .f32) (main_arg1 : IVec S405504 32) (main_arg2 : IVec S405504 32) (main_arg3 : FVec F S512x32 .f32) (main_arg4 : FVec F S32 .f32) (main_arg5 : FVec F S32x16 .f32) (main_arg6 : FVec F S16 .f32) (main_arg7 : FVec F S32x16 .f32) (main_arg8 : FVec F S16 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S512x32 .f32 := Host.absf main_arg3
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_arg7 main_arg8 main_v13 main_v16
-- ==== Kernel.lean ====
abbrev S12288x512 : Shape := ⟨2, ![12288, 512]⟩
abbrev S405504 : Shape := ⟨1, ![405504]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩
abbrev S12288 : Shape := ⟨1, ![12288]⟩
abbrev S405504x1 : Shape := ⟨2, ![405504, 1]⟩
abbrev S12288x1 : Shape := ⟨2, ![12288, 1]⟩
abbrev S405504x512 : Shape := ⟨2, ![405504, 512]⟩
abbrev S1x32 : Shape := ⟨2, ![1, 32]⟩
abbrev S12288x32 : Shape := ⟨2, ![12288, 32]⟩
abbrev S2048x512 : Shape := ⟨2, ![2048, 512]⟩
abbrev S2048x32 : Shape := ⟨2, ![2048, 32]⟩
abbrev S405504x32 : Shape := ⟨2, ![405504, 32]⟩
abbrev S1x16 : Shape := ⟨2, ![1, 16]⟩
abbrev S12288x16 : Shape := ⟨2, ![12288, 16]⟩
abbrev S2048x16 : Shape := ⟨2, ![2048, 16]⟩
abbrev S12288x12288 : Shape := ⟨2, ![12288, 12288]⟩
abbrev S1536x16 : Shape := ⟨2, ![1536, 16]⟩
abbrev S1536x1536 : Shape := ⟨2, ![1536, 1536]⟩

abbrev nBuf : Space → Nat
  | .hbm => 86
  | .vmem => 24
  | .smem => 0
  | _ => 0

abbrev bufTy : (tb : Table) → Fin (tcTables nBuf tb) → BufTy
  | .hbm, ⟨0, _⟩ => ⟨S12288x512, .f32⟩
  | .hbm, ⟨1, _⟩ => ⟨S405504, .i32⟩
  | .hbm, ⟨2, _⟩ => ⟨S405504, .i32⟩
  | .hbm, ⟨3, _⟩ => ⟨S512x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S32x16, .f32⟩
  | .hbm, ⟨8, _⟩ => ⟨S16, .f32⟩
  | .hbm, ⟨9, _⟩ => ⟨S_, .f32⟩
  | .hbm, ⟨10, _⟩ => ⟨S405504, .f32⟩
  | .hbm, ⟨11, _⟩ => ⟨S_, .f32⟩
  | .hbm, ⟨12, _⟩ => ⟨S12288, .f32⟩
  | .hbm, ⟨13, _⟩ => ⟨S405504x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S405504x1, .i32⟩
  | .hbm, ⟨18, _⟩ => ⟨S12288, .f32⟩
  | .hbm, ⟨19, _⟩ => ⟨S_, .f32⟩
  | .hbm, ⟨20, _⟩ => ⟨S12288, .f32⟩
  | .hbm, ⟨21, _⟩ => ⟨S12288, .i1⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S_, .f32⟩
  | .hbm, ⟨31, _⟩ => ⟨S12288, .f32⟩
  | .hbm, ⟨32, _⟩ => ⟨S12288, .i1⟩
  | .hbm, ⟨33, _⟩ => ⟨S_, .f32⟩
  | .hbm, ⟨34, _⟩ => ⟨S12288, .f32⟩
  | .hbm, ⟨35, _⟩ => ⟨S12288, .f32⟩
  | .hbm, ⟨36, _⟩ => ⟨S12288, .f32⟩
  | .hbm, ⟨37, _⟩ => ⟨S_, .f32⟩
  | .hbm, ⟨38, _⟩ => ⟨S_, .f32⟩
  | .hbm, ⟨39, _⟩ => ⟨S12288, .f32⟩
  | .hbm, ⟨40, _⟩ => ⟨S12288, .f32⟩
  | .hbm, ⟨41, _⟩ => ⟨S12288x1, .f32⟩
  | .hbm, ⟨42, _⟩ => ⟨S12288x512, .f32⟩
  | .hbm, ⟨43, _⟩ => ⟨S12288x512, .f32⟩
  | .hbm, ⟨44, _⟩ => ⟨S_, .i32⟩
  | .hbm, ⟨45, _⟩ => ⟨S405504, .i32⟩
  | .hbm, ⟨46, _⟩ => ⟨S405504, .i1⟩
  | .hbm, ⟨47, _⟩ => ⟨S_, .i32⟩
  | .hbm, ⟨48, _⟩ => ⟨S405504, .i32⟩
  | .hbm, ⟨49, _⟩ => ⟨S405504, .i32⟩
  | .hbm, ⟨50, _⟩ => ⟨S405504, .i32⟩
  | .hbm, ⟨51, _⟩ => ⟨S405504x1, .i32⟩
  | .hbm, ⟨52, _⟩ => ⟨S405504x512, .f32⟩
  | .hbm, ⟨53, _⟩ => ⟨S_, .f32⟩
  | .hbm, ⟨54, _⟩ => ⟨S12288x512, .f32⟩
  | .hbm, ⟨55, _⟩ => ⟨S405504x1, .i32⟩
  | .hbm, ⟨56, _⟩ => ⟨S12288x512, .f32⟩
  | .hbm, ⟨57, _⟩ => ⟨S12288x1, .f32⟩
  | .hbm, ⟨58, _⟩ => ⟨S12288x512, .f32⟩
  | .hbm, ⟨59, _⟩ => ⟨S12288x512, .f32⟩
  | .hbm, ⟨60, _⟩ => ⟨S1x32, .f32⟩
  | .hbm, ⟨61, _⟩ => ⟨S12288x32, .f32⟩
  | .hbm, ⟨62, _⟩ => ⟨S12288x1, .f32⟩
  | .hbm, ⟨63, _⟩ => ⟨S12288x32, .f32⟩
  | .hbm, ⟨64, _⟩ => ⟨S12288x32, .f32⟩
  | .hbm, ⟨65, _⟩ => ⟨S_, .i32⟩
  | .hbm, ⟨66, _⟩ => ⟨S405504, .i32⟩
  | .hbm, ⟨67, _⟩ => ⟨S405504, .i1⟩
  | .hbm, ⟨68, _⟩ => ⟨S_, .i32⟩
  | .hbm, ⟨69, _⟩ => ⟨S405504, .i32⟩
  | .hbm, ⟨70, _⟩ => ⟨S405504, .i32⟩
  | .hbm, ⟨71, _⟩ => ⟨S405504, .i32⟩
  | .hbm, ⟨72, _⟩ => ⟨S405504x1, .i32⟩
  | .hbm, ⟨73, _⟩ => ⟨S405504x32, .f32⟩
  | .hbm, ⟨74, _⟩ => ⟨S_, .f32⟩
  | .hbm, ⟨75, _⟩ => ⟨S12288x32, .f32⟩
  | .hbm, ⟨76, _⟩ => ⟨S405504x1, .i32⟩
  | .hbm, ⟨77, _⟩ => ⟨S12288x32, .f32⟩
  | .hbm, ⟨78, _⟩ => ⟨S12288x1, .f32⟩
  | .hbm, ⟨79, _⟩ => ⟨S12288x32, .f32⟩
  | .hbm, ⟨80, _⟩ => ⟨S12288x32, .f32⟩
  | .hbm, ⟨81, _⟩ => ⟨S1x16, .f32⟩
  | .hbm, ⟨82, _⟩ => ⟨S12288x16, .f32⟩
  | .hbm, ⟨83, _⟩ => ⟨S1x16, .f32⟩
  | .hbm, ⟨84, _⟩ => ⟨S12288x16, .f32⟩
  | .hbm, ⟨85, _⟩ => ⟨S12288x12288, .f32⟩
  | .local _ .vmem, ⟨0, _⟩ => ⟨S2048x512, .f32⟩
  | .local _ .vmem, ⟨1, _⟩ => ⟨S2048x512, .f32⟩
  | .local _ .vmem, ⟨2, _⟩ => ⟨S512x32, .f32⟩
  | .local _ .vmem, ⟨3, _⟩ => ⟨S1x32, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S32x16, .f32⟩
  | .local _ .vmem, ⟨9, _⟩ => ⟨S1x16, .f32⟩
  | .local _ .vmem, ⟨10, _⟩ => ⟨S2048x16, .f32⟩
  | .local _ .vmem, ⟨11, _⟩ => ⟨S2048x16, .f32⟩
  | .local _ .vmem, ⟨12, _⟩ => ⟨S2048x32, .f32⟩
  | .local _ .vmem, ⟨13, _⟩ => ⟨S2048x32, .f32⟩
  | .local _ .vmem, ⟨14, _⟩ => ⟨S32x16, .f32⟩
  | .local _ .vmem, ⟨15, _⟩ => ⟨S1x16, .f32⟩
  | .local _ .vmem, ⟨16, _⟩ => ⟨S2048x16, .f32⟩
  | .local _ .vmem, ⟨17, _⟩ => ⟨S2048x16, .f32⟩
  | .local _ .vmem, ⟨18, _⟩ => ⟨S1536x16, .f32⟩
  | .local _ .vmem, ⟨19, _⟩ => ⟨S1536x16, .f32⟩
  | .local _ .vmem, ⟨20, _⟩ => ⟨S1536x16, .f32⟩
  | .local _ .vmem, ⟨21, _⟩ => ⟨S1536x16, .f32⟩
  | .local _ .vmem, ⟨22, _⟩ => ⟨S1536x1536, .f32⟩
  | .local _ .vmem, ⟨23, _⟩ => ⟨S1536x1536, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1536x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1536x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1536x1536 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S12288_S12288x1_0 : S12288.BroadcastsInDim S12288x1 (![0] : Fin 1 → Fin S12288x1.rank)
  bcast_S12288x1_S12288x512_0_1 : S12288x1.BroadcastsInDim S12288x512 (![0, 1] : Fin 2 → Fin S12288x512.rank)
  bcast_S_S12288x512 : S_.BroadcastsInDim S12288x512 (![] : Fin 0 → Fin S12288x512.rank)
  shapeCasts_S32_S1x32 : S32.ShapeCasts S1x32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  bcast_S12288x1_S12288x32_0_1 : S12288x1.BroadcastsInDim S12288x32 (![0, 1] : Fin 2 → Fin S12288x32.rank)
  bcast_S_S12288x32 : S_.BroadcastsInDim S12288x32 (![] : Fin 0 → Fin S12288x32.rank)
  shapeCasts_S16_S1x16 : S16.ShapeCasts S1x16
  shapeCasts_S2048x32_S2048x32 : S2048x32.ShapeCasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  inb_S1536x16_S1536x16_0_0 : ∀ a, (![0, 0] : Fin 2 → Nat) a + S1536x16.size a ≤ S1536x16.size a
  h_S1536x16 : 0 < S1536x16.numel
  shapeCasts_S1536x16_S1536x16 : S1536x16.ShapeCasts S1536x16
  inb_S1536x1536_S1536x1536_0_0 : ∀ a, (![0, 0] : Fin 2 → Nat) a + S1536x1536.size a ≤ S1536x1536.size a
  h_S1536x1536 : 0 < S1536x1536.numel
  scatter_S12288_S405504x1_S405504_n_0_0_1_wf : ScatterDims.WF S12288 S405504x1 S405504 [] [0] [0] 1
  gather_S12288x512_S405504x1_S405504x512_1_0_n_n_0_1_1512_wf : GatherDims.WF S12288x512 S405504x1 S405504x512 [1] [0] [] [0] [] 1 ![1, 512]
  scatter_S12288x512_S405504x1_S405504x512_1_0_0_1_wf : ScatterDims.WF S12288x512 S405504x1 S405504x512 [1] [0] [0] 1
  dot_S2048x512_S512x32_S2048x32_1_0_0_1_n_n_wf : DotDims.WF S2048x512 S512x32 S2048x32 [1] [0] [0] [1] [] []
  gather_S12288x32_S405504x1_S405504x32_1_0_n_n_0_1_132_wf : GatherDims.WF S12288x32 S405504x1 S405504x32 [1] [0] [] [0] [] 1 ![1, 32]
  scatter_S12288x32_S405504x1_S405504x32_1_0_0_1_wf : ScatterDims.WF S12288x32 S405504x1 S405504x32 [1] [0] [0] 1
  dot_S2048x32_S32x16_S2048x16_1_0_0_1_n_n_wf : DotDims.WF S2048x32 S32x16 S2048x16 [1] [0] [0] [1] [] []
  dot_S1536x16_S1536x16_S1536x1536_1_1_0_0_n_n_wf : DotDims.WF S1536x16 S1536x16 S1536x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S12288x512.size a
  hwx0_0 : ∀ i : grid0.Coords, EltTy.bits .f32 = 32 ∨ (Rect.block (s := S12288x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S12288x32.size a
  hwx0_3 : ∀ i : grid0.Coords, EltTy.bits .f32 = 32 ∨ (Rect.block (s := S12288x32) S2048x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S12288x32.size a
  hwx1_0 : ∀ i : grid1.Coords, EltTy.bits .f32 = 32 ∨ (Rect.block (s := S12288x32) S2048x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S12288x16.size a
  hwx1_3 : ∀ i : grid1.Coords, EltTy.bits .f32 = 32 ∨ (Rect.block (s := S12288x16) S2048x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S12288x32.size a
  hwx2_0 : ∀ i : grid2.Coords, EltTy.bits .f32 = 32 ∨ (Rect.block (s := S12288x32) S2048x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S12288x16.size a
  hwx2_3 : ∀ i : grid2.Coords, EltTy.bits .f32 = 32 ∨ (Rect.block (s := S12288x16) S2048x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1536x16.size a ≤ S12288x16.size a
  hwx3_0 : ∀ i : grid3.Coords, EltTy.bits .f32 = 32 ∨ (Rect.block (s := S12288x16) S1536x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1536x16.size a ≤ S12288x16.size a
  hwx3_1 : ∀ i : grid3.Coords, EltTy.bits .f32 = 32 ∨ (Rect.block (s := S12288x16) S1536x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1536x1536.size a ≤ S12288x12288.size a
  hwx3_2 : ∀ i : grid3.Coords, EltTy.bits .f32 = 32 ∨ (Rect.block (s := S12288x12288) S1536x1536.size (cc3_transform_2 i) (hinb3_2 i)).WholeWords (EltTy.packing .f32)

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288x512_S405504x1_S405504x512_1_0_n_n_0_1_1512 : GatherDims S12288x512 S405504x1 S405504x512 where
  offsetDims := [1]
  collapsedSliceDims := [0]
  operandBatchingDims := []
  startIndicesBatchingDims := []
  startIndexMap := [0]
  indexVectorDim := 1
  sliceSizes := ![1, 512]
  wf := gather_S12288x512_S405504x1_S405504x512_1_0_n_n_0_1_1512_wf
def scatter_S12288x512_S405504x1_S405504x512_1_0_0_1 : ScatterDims S12288x512 S405504x1 S405504x512 where
  updateWindowDims := [1]
  insertedWindowDims := [0]
  scatterDimsToOperandDims := [0]
  indexVectorDim := 1
  wf := scatter_S12288x512_S405504x1_S405504x512_1_0_0_1_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def gather_S12288x32_S405504x1_S405504x32_1_0_n_n_0_1_132 : GatherDims S12288x32 S405504x1 S405504x32 where
  offsetDims := [1]
  collapsedSliceDims := [0]
  operandBatchingDims := []
  startIndicesBatchingDims := []
  startIndexMap := [0]
  indexVectorDim := 1
  sliceSizes := ![1, 32]
  wf := gather_S12288x32_S405504x1_S405504x32_1_0_n_n_0_1_132_wf
def scatter_S12288x32_S405504x1_S405504x32_1_0_0_1 : ScatterDims S12288x32 S405504x1 S405504x32 where
  updateWindowDims := [1]
  insertedWindowDims := [0]
  scatterDimsToOperandDims := [0]
  indexVectorDim := 1
  wf := scatter_S12288x32_S405504x1_S405504x32_1_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S1536x16_S1536x16_S1536x1536_1_1_0_0_n_n : DotDims S1536x16 S1536x16 S1536x1536 where
  lhsContracting := [1]
  rhsContracting := [1]
  lhsNonContracting := [0]
  rhsNonContracting := [0]
  lhsBatch := []
  rhsBatch := []
  wf := dot_S1536x16_S1536x16_S1536x1536_1_1_0_0_n_n_wf

abbrev win0_0 : Pipeline.Window sig grid0 :=
  Pipeline.Window.ofSpec (Memref.whole main_v34) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2048x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S2048x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S1536x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1536x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1536x1536.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x512 : Shape := ⟨2, ![12288, 512]⟩
abbrev S405504 : Shape := ⟨1, ![405504]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩
abbrev S12288 : Shape := ⟨1, ![12288]⟩
abbrev S405504x1 : Shape := ⟨2, ![405504, 1]⟩
abbrev S12288x1 : Shape := ⟨2, ![12288, 1]⟩
abbrev S405504x512 : Shape := ⟨2, ![405504, 512]⟩
abbrev S12288x32 : Shape := ⟨2, ![12288, 32]⟩
abbrev S1x32 : Shape := ⟨2, ![1, 32]⟩
abbrev S405504x32 : Shape := ⟨2, ![405504, 32]⟩
abbrev S12288x16 : Shape := ⟨2, ![12288, 16]⟩
abbrev S1x16 : Shape := ⟨2, ![1, 16]⟩
abbrev S16x12288 : Shape := ⟨2, ![16, 12288]⟩
abbrev S12288x12288 : Shape := ⟨2, ![12288, 12288]⟩

abbrev nBuf : Space → Nat
  | .hbm => 115
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S405504, .i32⟩
  | .hbm, ⟨2, _⟩ => ⟨S405504, .i32⟩
  | .hbm, ⟨3, _⟩ => ⟨S512x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S32x16, .f32⟩
  | .hbm, ⟨8, _⟩ => ⟨S16, .f32⟩
  | .hbm, ⟨9, _⟩ => ⟨S_, .f32⟩
  | .hbm, ⟨10, _⟩ => ⟨S405504, .f32⟩
  | .hbm, ⟨11, _⟩ => ⟨S_, .f32⟩
  | .hbm, ⟨12, _⟩ => ⟨S12288, .f32⟩
  | .hbm, ⟨13, _⟩ => ⟨S405504x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S405504x1, .i32⟩
  | .hbm, ⟨18, _⟩ => ⟨S12288, .f32⟩
  | .hbm, ⟨19, _⟩ => ⟨S_, .f32⟩
  | .hbm, ⟨20, _⟩ => ⟨S12288, .f32⟩
  | .hbm, ⟨21, _⟩ => ⟨S12288, .i1⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S_, .f32⟩
  | .hbm, ⟨31, _⟩ => ⟨S12288, .f32⟩
  | .hbm, ⟨32, _⟩ => ⟨S12288, .i1⟩
  | .hbm, ⟨33, _⟩ => ⟨S_, .f32⟩
  | .hbm, ⟨34, _⟩ => ⟨S12288, .f32⟩
  | .hbm, ⟨35, _⟩ => ⟨S12288, .f32⟩
  | .hbm, ⟨36, _⟩ => ⟨S12288, .f32⟩
  | .hbm, ⟨37, _⟩ => ⟨S_, .f32⟩
  | .hbm, ⟨38, _⟩ => ⟨S_, .f32⟩
  | .hbm, ⟨39, _⟩ => ⟨S12288, .f32⟩
  | .hbm, ⟨40, _⟩ => ⟨S12288, .f32⟩
  | .hbm, ⟨41, _⟩ => ⟨S12288x1, .f32⟩
  | .hbm, ⟨42, _⟩ => ⟨S12288x512, .f32⟩
  | .hbm, ⟨43, _⟩ => ⟨S12288x512, .f32⟩
  | .hbm, ⟨44, _⟩ => ⟨S_, .i32⟩
  | .hbm, ⟨45, _⟩ => ⟨S405504, .i32⟩
  | .hbm, ⟨46, _⟩ => ⟨S405504, .i1⟩
  | .hbm, ⟨47, _⟩ => ⟨S_, .i32⟩
  | .hbm, ⟨48, _⟩ => ⟨S405504, .i32⟩
  | .hbm, ⟨49, _⟩ => ⟨S405504, .i32⟩
  | .hbm, ⟨50, _⟩ => ⟨S405504, .i32⟩
  | .hbm, ⟨51, _⟩ => ⟨S405504x1, .i32⟩
  | .hbm, ⟨52, _⟩ => ⟨S405504x512, .f32⟩
  | .hbm, ⟨53, _⟩ => ⟨S_, .f32⟩
  | .hbm, ⟨54, _⟩ => ⟨S12288x512, .f32⟩
  | .hbm, ⟨55, _⟩ => ⟨S405504x1, .i32⟩
  | .hbm, ⟨56, _⟩ => ⟨S12288x512, .f32⟩
  | .hbm, ⟨57, _⟩ => ⟨S12288x1, .f32⟩
  | .hbm, ⟨58, _⟩ => ⟨S12288x512, .f32⟩
  | .hbm, ⟨59, _⟩ => ⟨S12288x512, .f32⟩
  | .hbm, ⟨60, _⟩ => ⟨S12288x32, .f32⟩
  | .hbm, ⟨61, _⟩ => ⟨S1x32, .f32⟩
  | .hbm, ⟨62, _⟩ => ⟨S12288x32, .f32⟩
  | .hbm, ⟨63, _⟩ => ⟨S12288x32, .f32⟩
  | .hbm, ⟨64, _⟩ => ⟨S_, .f32⟩
  | .hbm, ⟨65, _⟩ => ⟨S12288x32, .f32⟩
  | .hbm, ⟨66, _⟩ => ⟨S12288x32, .f32⟩
  | .hbm, ⟨67, _⟩ => ⟨S12288x1, .f32⟩
  | .hbm, ⟨68, _⟩ => ⟨S12288x32, .f32⟩
  | .hbm, ⟨69, _⟩ => ⟨S12288x32, .f32⟩
  | .hbm, ⟨70, _⟩ => ⟨S_, .i32⟩
  | .hbm, ⟨71, _⟩ => ⟨S405504, .i32⟩
  | .hbm, ⟨72, _⟩ => ⟨S405504, .i1⟩
  | .hbm, ⟨73, _⟩ => ⟨S_, .i32⟩
  | .hbm, ⟨74, _⟩ => ⟨S405504, .i32⟩
  | .hbm, ⟨75, _⟩ => ⟨S405504, .i32⟩
  | .hbm, ⟨76, _⟩ => ⟨S405504, .i32⟩
  | .hbm, ⟨77, _⟩ => ⟨S405504x1, .i32⟩
  | .hbm, ⟨78, _⟩ => ⟨S405504x32, .f32⟩
  | .hbm, ⟨79, _⟩ => ⟨S_, .f32⟩
  | .hbm, ⟨80, _⟩ => ⟨S12288x32, .f32⟩
  | .hbm, ⟨81, _⟩ => ⟨S405504x1, .i32⟩
  | .hbm, ⟨82, _⟩ => ⟨S12288x32, .f32⟩
  | .hbm, ⟨83, _⟩ => ⟨S12288x1, .f32⟩
  | .hbm, ⟨84, _⟩ => ⟨S12288x32, .f32⟩
  | .hbm, ⟨85, _⟩ => ⟨S12288x32, .f32⟩
  | .hbm, ⟨86, _⟩ => ⟨S12288x16, .f32⟩
  | .hbm, ⟨87, _⟩ => ⟨S1x16, .f32⟩
  | .hbm, ⟨88, _⟩ => ⟨S12288x16, .f32⟩
  | .hbm, ⟨89, _⟩ => ⟨S12288x16, .f32⟩
  | .hbm, ⟨90, _⟩ => ⟨S12288x1, .f32⟩
  | .hbm, ⟨91, _⟩ => ⟨S12288x32, .f32⟩
  | .hbm, ⟨92, _⟩ => ⟨S12288x32, .f32⟩
  | .hbm, ⟨93, _⟩ => ⟨S_, .i32⟩
  | .hbm, ⟨94, _⟩ => ⟨S405504, .i32⟩
  | .hbm, ⟨95, _⟩ => ⟨S405504, .i1⟩
  | .hbm, ⟨96, _⟩ => ⟨S_, .i32⟩
  | .hbm, ⟨97, _⟩ => ⟨S405504, .i32⟩
  | .hbm, ⟨98, _⟩ => ⟨S405504, .i32⟩
  | .hbm, ⟨99, _⟩ => ⟨S405504, .i32⟩
  | .hbm, ⟨100, _⟩ => ⟨S405504x1, .i32⟩
  | .hbm, ⟨101, _⟩ => ⟨S405504x32, .f32⟩
  | .hbm, ⟨102, _⟩ => ⟨S_, .f32⟩
  | .hbm, ⟨103, _⟩ => ⟨S12288x32, .f32⟩
  | .hbm, ⟨104, _⟩ => ⟨S405504x1, .i32⟩
  | .hbm, ⟨105, _⟩ => ⟨S12288x32, .f32⟩
  | .hbm, ⟨106, _⟩ => ⟨S12288x1, .f32⟩
  | .hbm, ⟨107, _⟩ => ⟨S12288x32, .f32⟩
  | .hbm, ⟨108, _⟩ => ⟨S12288x32, .f32⟩
  | .hbm, ⟨109, _⟩ => ⟨S12288x16, .f32⟩
  | .hbm, ⟨110, _⟩ => ⟨S1x16, .f32⟩
  | .hbm, ⟨111, _⟩ => ⟨S12288x16, .f32⟩
  | .hbm, ⟨112, _⟩ => ⟨S12288x16, .f32⟩
  | .hbm, ⟨113, _⟩ => ⟨S16x12288, .f32⟩
  | .hbm, ⟨114, _⟩ => ⟨S12288x12288, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S12288_S12288x1_0 : S12288.BroadcastsInDim S12288x1 (![0] : Fin 1 → Fin S12288x1.rank)
  bcast_S12288x1_S12288x512_0_1 : S12288x1.BroadcastsInDim S12288x512 (![0, 1] : Fin 2 → Fin S12288x512.rank)
  bcast_S_S12288x512 : S_.BroadcastsInDim S12288x512 (![] : Fin 0 → Fin S12288x512.rank)
  bcast_S32_S1x32_1 : S32.BroadcastsInDim S1x32 (![1] : Fin 1 → Fin S1x32.rank)
  bcast_S1x32_S12288x32_0_1 : S1x32.BroadcastsInDim S12288x32 (![0, 1] : Fin 2 → Fin S12288x32.rank)
  bcast_S_S12288x32 : S_.BroadcastsInDim S12288x32 (![] : Fin 0 → Fin S12288x32.rank)
  bcast_S12288x1_S12288x32_0_1 : S12288x1.BroadcastsInDim S12288x32 (![0, 1] : Fin 2 → Fin S12288x32.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  transposes_S12288x16_S16x12288_1_0 : S12288x16.Transposes [1, 0] S16x12288
  scatter_S12288_S405504x1_S405504_n_0_0_1_wf : ScatterDims.WF S12288 S405504x1 S405504 [] [0] [0] 1
  gather_S12288x512_S405504x1_S405504x512_1_0_n_n_0_1_1512_wf : GatherDims.WF S12288x512 S405504x1 S405504x512 [1] [0] [] [0] [] 1 ![1, 512]
  scatter_S12288x512_S405504x1_S405504x512_1_0_0_1_wf : ScatterDims.WF S12288x512 S405504x1 S405504x512 [1] [0] [0] 1
  dot_S12288x512_S512x32_S12288x32_1_0_0_1_n_n_wf : DotDims.WF S12288x512 S512x32 S12288x32 [1] [0] [0] [1] [] []
  gather_S12288x32_S405504x1_S405504x32_1_0_n_n_0_1_132_wf : GatherDims.WF S12288x32 S405504x1 S405504x32 [1] [0] [] [0] [] 1 ![1, 32]
  scatter_S12288x32_S405504x1_S405504x32_1_0_0_1_wf : ScatterDims.WF S12288x32 S405504x1 S405504x32 [1] [0] [0] 1
  dot_S12288x32_S32x16_S12288x16_1_0_0_1_n_n_wf : DotDims.WF S12288x32 S32x16 S12288x16 [1] [0] [0] [1] [] []
  dot_S12288x16_S16x12288_S12288x12288_1_0_0_1_n_n_wf : DotDims.WF S12288x16 S16x12288 S12288x12288 [1] [0] [0] [1] [] []

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288x512_S405504x1_S405504x512_1_0_n_n_0_1_1512 : GatherDims S12288x512 S405504x1 S405504x512 where
  offsetDims := [1]
  collapsedSliceDims := [0]
  operandBatchingDims := []
  startIndicesBatchingDims := []
  startIndexMap := [0]
  indexVectorDim := 1
  sliceSizes := ![1, 512]
  wf := gather_S12288x512_S405504x1_S405504x512_1_0_n_n_0_1_1512_wf
def scatter_S12288x512_S405504x1_S405504x512_1_0_0_1 : ScatterDims S12288x512 S405504x1 S405504x512 where
  updateWindowDims := [1]
  insertedWindowDims := [0]
  scatterDimsToOperandDims := [0]
  indexVectorDim := 1
  wf := scatter_S12288x512_S405504x1_S405504x512_1_0_0_1_wf
def dot_S12288x512_S512x32_S12288x32_1_0_0_1_n_n : DotDims S12288x512 S512x32 S12288x32 where
  lhsContracting := [1]
  rhsContracting := [0]
  lhsNonContracting := [0]
  rhsNonContracting := [1]
  lhsBatch := []
  rhsBatch := []
  wf := dot_S12288x512_S512x32_S12288x32_1_0_0_1_n_n_wf
def gather_S12288x32_S405504x1_S405504x32_1_0_n_n_0_1_132 : GatherDims S12288x32 S405504x1 S405504x32 where
  offsetDims := [1]
  collapsedSliceDims := [0]
  operandBatchingDims := []
  startIndicesBatchingDims := []
  startIndexMap := [0]
  indexVectorDim := 1
  sliceSizes := ![1, 32]
  wf := gather_S12288x32_S405504x1_S405504x32_1_0_n_n_0_1_132_wf
def scatter_S12288x32_S405504x1_S405504x32_1_0_0_1 : ScatterDims S12288x32 S405504x1 S405504x32 where
  updateWindowDims := [1]
  insertedWindowDims := [0]
  scatterDimsToOperandDims := [0]
  indexVectorDim := 1
  wf := scatter_S12288x32_S405504x1_S405504x32_1_0_0_1_wf
def dot_S12288x32_S32x16_S12288x16_1_0_0_1_n_n : DotDims S12288x32 S32x16 S12288x16 where
  lhsContracting := [1]
  rhsContracting := [0]
  lhsNonContracting := [0]
  rhsNonContracting := [1]
  lhsBatch := []
  rhsBatch := []
  wf := dot_S12288x32_S32x16_S12288x16_1_0_0_1_n_n_wf
def dot_S12288x16_S16x12288_S12288x12288_1_0_0_1_n_n : DotDims S12288x16 S16x12288 S12288x12288 where
  lhsContracting := [1]
  rhsContracting := [0]
  lhsNonContracting := [0]
  rhsNonContracting := [1]
  lhsBatch := []
  rhsBatch := []
  wf := dot_S12288x16_S16x12288_S12288x12288_1_0_0_1_n_n_wf

class Facts : Prop extends Facts₀ where

variable [Facts]
-- ==== Proof.K.Layer0.lean ====
/-
  The first dense layer, h = max (a · W₁ + b₁) 0, one tile of 2048 rows at a time (six tiles).
  The region is entered with the core's buffers at contents `V`. Row tile `t` of the output is computed from row
  tile `t` of the left operand and the whole of the weight and bias, which stay in place from tile to tile: the
  staging buffer of each of the three inputs holds, at every tile, the block of its array the tile's index map
  names, whether or not it was fetched anew; the body overwrites the whole output tile by one store.
-/
import proofs.«110736_j70712341561937_1_alg».proof.Proof.Gen.Kernel.Launch
import proofs.«110736_j70712341561937_1_alg».proof.Proof.Gen.Kernel.Skeleton
import proofs.«110736_j70712341561937_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The tiles the inputs' staging buffers hold -/

/-- Block `t` of window `w`'s array, as the region finds the array. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows tile: whatever proof data has the region-entry array and a body that leaves the tile where it found it,
    the buffer holds the tile when the body starts. -/
theorem rows_found {c : Dev nD} (dat : Dat τ (Elt F) Unit ℕ (Pipeline.UD sig nD τ) ℕ cfg0 c) (hA : dat.A 0 = V c (Pipeline.arrRef spec0 0))
    (hkeep : ∀ t, dat.after 0 t = tile V c 0 t) (t : Fin cfg0.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The weight: fetched once, found at every tile. -/
theorem weight_found {c : Dev nD} (dat : Dat τ (Elt F) Unit ℕ (Pipeline.UD sig nD τ) ℕ cfg0 c) (hA : dat.A 1 = V c (Pipeline.arrRef spec0 1))
    (hkeep : ∀ t, dat.after 1 t = tile V c 1 t) (t : Fin cfg0.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-- The bias row: fetched once, found at every tile. -/
theorem bias_found {c : Dev nD} (dat : Dat τ (Elt F) Unit ℕ (Pipeline.UD sig nD τ) ℕ cfg0 c) (hA : dat.A 2 = V c (Pipeline.arrRef spec0 2))
    (hkeep : ∀ t, dat.after 2 t = tile V c 2 t) (t : Fin cfg0.N) (d) : dat.before 2 t d = tile V c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxX : Rect S2048x512 := Rect.unit (s := S2048x512) ![0, 0] S2048x512.size inb_S2048x512_S2048x512_0_0
abbrev boxW : Rect S512x32 := Rect.unit (s := S512x32) ![0, 0] S512x32.size inb_S512x32_S512x32_0_0
abbrev boxB : Rect S1x32 := Rect.unit (s := S1x32) ![0, 0] S1x32.size inb_S1x32_S1x32_0_0
abbrev boxO : Rect S2048x32 := Rect.unit (s := S2048x32) ![0, 0] S2048x32.size inb_S2048x32_S2048x32_0_0

/-- The output tile after the body: its one store, over the whole tile, of the body's arithmetic on the three loads. -/
def outTile (x : Vec F S2048x512 .f32) (w : Vec F S512x32 .f32) (b : Vec F S1x32 .f32) : Vec F S2048x32 .f32 :=
  View.canon [⟨boxO, k0_pay1 (View.ld x boxX) (View.ld w boxW) (View.ld b boxB)⟩]

/-- That store covers the tile. -/
theorem store_covers (p : Vec F S2048x32 .f32) (y : S2048x32.Idx) :
    ∃ pc ∈ ([⟨boxO, p⟩] : List (View.Piece (Elt F) S2048x32 .f32)), y ∈ pc.1.set :=
  View.cover_of_tiled [⟨boxO, p⟩] S2048x32.size (by rfl) y

/-! ## The body on any staging memrefs -/

set_option maxHeartbeats 1000000 in
/-- From the three inputs' memrefs at read contents `x`, `w`, `b` and the output's at anything, the body runs to the
    inputs untouched and the output at `outTile x w b`. -/
theorem body_runs (c : Dev nD) (E : Set ℕ) (i : grid0.Coords)
    (arg1 : Memref sig .tc .vmem S2048x512 .f32) (harg1 : arg1.IsWhole) (arg2 : Memref sig .tc .vmem S512x32 .f32) (harg2 : arg2.IsWhole)
    (arg3 : Memref sig .tc .vmem S1x32 .f32) (harg3 : arg3.IsWhole) (arg4 : Memref sig .tc .vmem S2048x32 .f32) (harg4 : arg4.IsWhole)
    (x : Vec F S2048x512 .f32) (w : Vec F S512x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outTile x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- The arrays as the region finds them; after the body at tile `t` each input's buffer still at its block and the
    output's at `outTile` of the three; the invariant the scoped rest and the generator register, untouched; nothing
    owed; every array held whole. -/
def dat (c : Dev nD) : Dat τ (Elt F) Unit ℕ (Pipeline.UD sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = tile V c 0 t := by dsimp only [dat]
theorem after_weight (c : Dev nD) (t : Fin cfg0.N) : (dat V c).after 1 t = tile V c 1 t := by dsimp only [dat]
theorem after_bias (c : Dev nD) (t : Fin cfg0.N) : (dat V c).after 2 t = tile V c 2 t := by dsimp only [dat]
theorem after_out (c : Dev nD) (t : Fin cfg0.N) :
    (dat V c).after 3 t = outTile (tile V c 0 t) (tile V c 1 t) (tile V c 2 t) := by dsimp only [dat]

theorem before_rows (c : Dev nD) (t : Fin cfg0.N) (d) : (dat V c).before 0 t d = tile V c 0 t :=
  rows_found V (dat V c) (dat_A V c 0) (after_rows V c) t d
theorem before_weight (c : Dev nD) (t : Fin cfg0.N) (d) : (dat V c).before 1 t d = tile V c 1 t :=
  weight_found V (dat V c) (dat_A V c 1) (after_weight V c) t d
theorem before_bias (c : Dev nD) (t : Fin cfg0.N) (d) : (dat V c).before 2 t d = tile V c 2 t :=
  bias_found V (dat V c) (dat_A V c 2) (after_bias V c) t d

/-! ## The body obligation -/

/-- What the body is called with at tile `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (body_runs c Set.univ (grid0.coords t) _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation (c : Dev nD) : BodyObligation (dat (F := F) V c) (defs₀ (F := F)) Variants.none () Set.univ := fun t => by
  rw [bigSep_W0, bigSep_W0]
  exact body_at V c t

end Cert.Kernel.Layer0

end
-- ==== Proof.K.Layer1.lean ====
/-
  The mean head of the second layer, mu = a · W₂ + b₂, one tile of 2048 rows at a time (six tiles).
  The region is entered with the core's buffers at contents `V`. Row tile `t` of the output is computed from row
  tile `t` of the left operand and the whole of the weight and bias, which stay in place from tile to tile: the
  staging buffer of each of the three inputs holds, at every tile, the block of its array the tile's index map
  names, whether or not it was fetched anew; the body overwrites the whole output tile by one store.
-/
import proofs.«110736_j70712341561937_1_alg».proof.Proof.Gen.Kernel.Launch
import proofs.«110736_j70712341561937_1_alg».proof.Proof.Gen.Kernel.Skeleton
import proofs.«110736_j70712341561937_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The tiles the inputs' staging buffers hold -/

/-- Block `t` of window `w`'s array, as the region finds the array. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows tile: whatever proof data has the region-entry array and a body that leaves the tile where it found it,
    the buffer holds the tile when the body starts. -/
theorem rows_found {c : Dev nD} (dat : Dat τ (Elt F) Unit ℕ (Pipeline.UD sig nD τ) ℕ cfg1 c) (hA : dat.A 0 = V c (Pipeline.arrRef spec1 0))
    (hkeep : ∀ t, dat.after 0 t = tile V c 0 t) (t : Fin cfg1.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The weight: fetched once, found at every tile. -/
theorem weight_found {c : Dev nD} (dat : Dat τ (Elt F) Unit ℕ (Pipeline.UD sig nD τ) ℕ cfg1 c) (hA : dat.A 1 = V c (Pipeline.arrRef spec1 1))
    (hkeep : ∀ t, dat.after 1 t = tile V c 1 t) (t : Fin cfg1.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-- The bias row: fetched once, found at every tile. -/
theorem bias_found {c : Dev nD} (dat : Dat τ (Elt F) Unit ℕ (Pipeline.UD sig nD τ) ℕ cfg1 c) (hA : dat.A 2 = V c (Pipeline.arrRef spec1 2))
    (hkeep : ∀ t, dat.after 2 t = tile V c 2 t) (t : Fin cfg1.N) (d) : dat.before 2 t d = tile V c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxX : Rect S2048x32 := Rect.unit (s := S2048x32) ![0, 0] S2048x32.size inb_S2048x32_S2048x32_0_0
abbrev boxW : Rect S32x16 := Rect.unit (s := S32x16) ![0, 0] S32x16.size inb_S32x16_S32x16_0_0
abbrev boxB : Rect S1x16 := Rect.unit (s := S1x16) ![0, 0] S1x16.size inb_S1x16_S1x16_0_0
abbrev boxO : Rect S2048x16 := Rect.unit (s := S2048x16) ![0, 0] S2048x16.size inb_S2048x16_S2048x16_0_0

/-- The output tile after the body: its one store, over the whole tile, of the body's arithmetic on the three loads. -/
def outTile (x : Vec F S2048x32 .f32) (w : Vec F S32x16 .f32) (b : Vec F S1x16 .f32) : Vec F S2048x16 .f32 :=
  View.canon [⟨boxO, k1_pay1 (View.ld x boxX) (View.ld w boxW) (View.ld b boxB)⟩]

/-- That store covers the tile. -/
theorem store_covers (p : Vec F S2048x16 .f32) (y : S2048x16.Idx) :
    ∃ pc ∈ ([⟨boxO, p⟩] : List (View.Piece (Elt F) S2048x16 .f32)), y ∈ pc.1.set :=
  View.cover_of_tiled [⟨boxO, p⟩] S2048x16.size (by rfl) y

/-! ## The body on any staging memrefs -/

set_option maxHeartbeats 1000000 in
/-- From the three inputs' memrefs at read contents `x`, `w`, `b` and the output's at anything, the body runs to the
    inputs untouched and the output at `outTile x w b`. -/
theorem body_runs (c : Dev nD) (E : Set ℕ) (i : grid1.Coords)
    (arg1 : Memref sig .tc .vmem S2048x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S2048x16 .f32) (harg4 : arg4.IsWhole)
    (x : Vec F S2048x32 .f32) (w : Vec F S32x16 .f32) (b : Vec F S1x16 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outTile x w b)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- The arrays as the region finds them; after the body at tile `t` each input's buffer still at its block and the
    output's at `outTile` of the three; the invariant the scoped rest and the generator register, untouched; nothing
    owed; every array held whole. -/
def dat (c : Dev nD) : Dat τ (Elt F) Unit ℕ (Pipeline.UD sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_rows (c : Dev nD) (t : Fin cfg1.N) : (dat V c).after 0 t = tile V c 0 t := by dsimp only [dat]
theorem after_weight (c : Dev nD) (t : Fin cfg1.N) : (dat V c).after 1 t = tile V c 1 t := by dsimp only [dat]
theorem after_bias (c : Dev nD) (t : Fin cfg1.N) : (dat V c).after 2 t = tile V c 2 t := by dsimp only [dat]
theorem after_out (c : Dev nD) (t : Fin cfg1.N) :
    (dat V c).after 3 t = outTile (tile V c 0 t) (tile V c 1 t) (tile V c 2 t) := by dsimp only [dat]

theorem before_rows (c : Dev nD) (t : Fin cfg1.N) (d) : (dat V c).before 0 t d = tile V c 0 t :=
  rows_found V (dat V c) (dat_A V c 0) (after_rows V c) t d
theorem before_weight (c : Dev nD) (t : Fin cfg1.N) (d) : (dat V c).before 1 t d = tile V c 1 t :=
  weight_found V (dat V c) (dat_A V c 1) (after_weight V c) t d
theorem before_bias (c : Dev nD) (t : Fin cfg1.N) (d) : (dat V c).before 2 t d = tile V c 2 t :=
  bias_found V (dat V c) (dat_A V c 2) (after_bias V c) t d

/-! ## The body obligation -/

/-- What the body is called with at tile `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (body_runs c Set.univ (grid1.coords t) _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation (c : Dev nD) : BodyObligation (dat (F := F) V c) (defs₀ (F := F)) Variants.none () Set.univ := fun t => by
  rw [bigSep_W1, bigSep_W1]
  exact body_at V c t

end Cert.Kernel.Layer1

end
-- ==== Proof.K.Layer2.lean ====
/-
  The log-variance head of the second layer, a · W₃ + b₃, one tile of 2048 rows at a time (six tiles).
  The region is entered with the core's buffers at contents `V`. Row tile `t` of the output is computed from row
  tile `t` of the left operand and the whole of the weight and bias, which stay in place from tile to tile: the
  staging buffer of each of the three inputs holds, at every tile, the block of its array the tile's index map
  names, whether or not it was fetched anew; the body overwrites the whole output tile by one store.
-/
import proofs.«110736_j70712341561937_1_alg».proof.Proof.Gen.Kernel.Launch
import proofs.«110736_j70712341561937_1_alg».proof.Proof.Gen.Kernel.Skeleton
import proofs.«110736_j70712341561937_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The tiles the inputs' staging buffers hold -/

/-- Block `t` of window `w`'s array, as the region finds the array. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows tile: whatever proof data has the region-entry array and a body that leaves the tile where it found it,
    the buffer holds the tile when the body starts. -/
theorem rows_found {c : Dev nD} (dat : Dat τ (Elt F) Unit ℕ (Pipeline.UD sig nD τ) ℕ cfg2 c) (hA : dat.A 0 = V c (Pipeline.arrRef spec2 0))
    (hkeep : ∀ t, dat.after 0 t = tile V c 0 t) (t : Fin cfg2.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The weight: fetched once, found at every tile. -/
theorem weight_found {c : Dev nD} (dat : Dat τ (Elt F) Unit ℕ (Pipeline.UD sig nD τ) ℕ cfg2 c) (hA : dat.A 1 = V c (Pipeline.arrRef spec2 1))
    (hkeep : ∀ t, dat.after 1 t = tile V c 1 t) (t : Fin cfg2.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-- The bias row: fetched once, found at every tile. -/
theorem bias_found {c : Dev nD} (dat : Dat τ (Elt F) Unit ℕ (Pipeline.UD sig nD τ) ℕ cfg2 c) (hA : dat.A 2 = V c (Pipeline.arrRef spec2 2))
    (hkeep : ∀ t, dat.after 2 t = tile V c 2 t) (t : Fin cfg2.N) (d) : dat.before 2 t d = tile V c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxX : Rect S2048x32 := Rect.unit (s := S2048x32) ![0, 0] S2048x32.size inb_S2048x32_S2048x32_0_0
abbrev boxW : Rect S32x16 := Rect.unit (s := S32x16) ![0, 0] S32x16.size inb_S32x16_S32x16_0_0
abbrev boxB : Rect S1x16 := Rect.unit (s := S1x16) ![0, 0] S1x16.size inb_S1x16_S1x16_0_0
abbrev boxO : Rect S2048x16 := Rect.unit (s := S2048x16) ![0, 0] S2048x16.size inb_S2048x16_S2048x16_0_0

/-- The output tile after the body: its one store, over the whole tile, of the body's arithmetic on the three loads. -/
def outTile (x : Vec F S2048x32 .f32) (w : Vec F S32x16 .f32) (b : Vec F S1x16 .f32) : Vec F S2048x16 .f32 :=
  View.canon [⟨boxO, k2_pay1 (View.ld x boxX) (View.ld w boxW) (View.ld b boxB)⟩]

/-- That store covers the tile. -/
theorem store_covers (p : Vec F S2048x16 .f32) (y : S2048x16.Idx) :
    ∃ pc ∈ ([⟨boxO, p⟩] : List (View.Piece (Elt F) S2048x16 .f32)), y ∈ pc.1.set :=
  View.cover_of_tiled [⟨boxO, p⟩] S2048x16.size (by rfl) y

/-! ## The body on any staging memrefs -/

set_option maxHeartbeats 1000000 in
/-- From the three inputs' memrefs at read contents `x`, `w`, `b` and the output's at anything, the body runs to the
    inputs untouched and the output at `outTile x w b`. -/
theorem body_runs (c : Dev nD) (E : Set ℕ) (i : grid2.Coords)
    (arg1 : Memref sig .tc .vmem S2048x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S2048x16 .f32) (harg4 : arg4.IsWhole)
    (x : Vec F S2048x32 .f32) (w : Vec F S32x16 .f32) (b : Vec F S1x16 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outTile x w b)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- The arrays as the region finds them; after the body at tile `t` each input's buffer still at its block and the
    output's at `outTile` of the three; the invariant the scoped rest and the generator register, untouched; nothing
    owed; every array held whole. -/
def dat (c : Dev nD) : Dat τ (Elt F) Unit ℕ (Pipeline.UD sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = tile V c 0 t := by dsimp only [dat]
theorem after_weight (c : Dev nD) (t : Fin cfg2.N) : (dat V c).after 1 t = tile V c 1 t := by dsimp only [dat]
theorem after_bias (c : Dev nD) (t : Fin cfg2.N) : (dat V c).after 2 t = tile V c 2 t := by dsimp only [dat]
theorem after_out (c : Dev nD) (t : Fin cfg2.N) :
    (dat V c).after 3 t = outTile (tile V c 0 t) (tile V c 1 t) (tile V c 2 t) := by dsimp only [dat]

theorem before_rows (c : Dev nD) (t : Fin cfg2.N) (d) : (dat V c).before 0 t d = tile V c 0 t :=
  rows_found V (dat V c) (dat_A V c 0) (after_rows V c) t d
theorem before_weight (c : Dev nD) (t : Fin cfg2.N) (d) : (dat V c).before 1 t d = tile V c 1 t :=
  weight_found V (dat V c) (dat_A V c 1) (after_weight V c) t d
theorem before_bias (c : Dev nD) (t : Fin cfg2.N) (d) : (dat V c).before 2 t d = tile V c 2 t :=
  bias_found V (dat V c) (dat_A V c 2) (after_bias V c) t d

/-! ## The body obligation -/

/-- What the body is called with at tile `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (body_runs c Set.univ (grid2.coords t) _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation (c : Dev nD) : BodyObligation (dat (F := F) V c) (defs₀ (F := F)) Variants.none () Set.univ := fun t => by
  rw [bigSep_W2, bigSep_W2]
  exact body_at V c t

end Cert.Kernel.Layer2

end
-- ==== Proof.K.Decoder.lean ====
/-
  The decoder, z · zᵀ, one 1536 × 1536 tile of the result at a time (an 8 × 8 grid of tiles).
  The region is entered with the core's buffers at contents `V`. Tile `(i, j)` is computed from row block `i` and row
  block `j` of the SAME array `z`: the pipeline reads that array through two input windows, so each window holds
  it at one half of the share (the left half for the row blocks, the right half for the column blocks), and the
  output array is held whole. Each input's staging buffer holds, at every tile, the block its index map names,
  fetched anew or not; the body overwrites the whole output tile by one store.
-/
import proofs.«110736_j70712341561937_1_alg».proof.Proof.Gen.Kernel.Launch
import proofs.«110736_j70712341561937_1_alg».proof.Proof.Gen.Kernel.Skeleton
import proofs.«110736_j70712341561937_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Decoder

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the inputs' staging buffers hold -/

/-- Block `t` of window `w`'s array, as the region finds the array. -/
def tile (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block (refetched only when the tile's row changes): found at every tile. -/
theorem rows_found {c : Dev nD} (dat : Dat τ (Elt F) Unit ℕ (Pipeline.UD sig nD τ) ℕ cfg3 c) (hA : dat.A 0 = V c (Pipeline.arrRef spec3 0))
    (hkeep : ∀ t, dat.after 0 t = tile V c 0 t) (t : Fin cfg3.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The column block (refetched at every tile): found at every tile. -/
theorem cols_found {c : Dev nD} (dat : Dat τ (Elt F) Unit ℕ (Pipeline.UD sig nD τ) ℕ cfg3 c) (hA : dat.A 1 = V c (Pipeline.arrRef spec3 1))
    (hkeep : ∀ t, dat.after 1 t = tile V c 1 t) (t : Fin cfg3.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxZ : Rect S1536x16 := Rect.unit (s := S1536x16) ![0, 0] S1536x16.size inb_S1536x16_S1536x16_0_0
abbrev boxO : Rect S1536x1536 := Rect.unit (s := S1536x1536) ![0, 0] S1536x1536.size inb_S1536x1536_S1536x1536_0_0

/-- The output tile after the body: its one store, over the whole tile, of the body's product of the two loads. -/
def outTile (a : Vec F S1536x16 .f32) (b : Vec F S1536x16 .f32) : Vec F S1536x1536 .f32 :=
  View.canon [⟨boxO, k3_pay1 (View.ld a boxZ) (View.ld b boxZ)⟩]

/-- That store covers the tile. -/
theorem store_covers (p : Vec F S1536x1536 .f32) (y : S1536x1536.Idx) :
    ∃ pc ∈ ([⟨boxO, p⟩] : List (View.Piece (Elt F) S1536x1536 .f32)), y ∈ pc.1.set :=
  View.cover_of_tiled [⟨boxO, p⟩] S1536x1536.size (by rfl) y

/-! ## The body on any staging memrefs -/

set_option maxHeartbeats 1000000 in
/-- From the two inputs' memrefs at read contents `a`, `b` and the output's at anything, the body runs to the inputs
    untouched and the output at `outTile a b`. -/
theorem body_runs (c : Dev nD) (E : Set ℕ) (i : grid3.Coords)
    (arg2 : Memref sig .tc .vmem S1536x16 .f32) (harg2 : arg2.IsWhole) (arg3 : Memref sig .tc .vmem S1536x16 .f32) (harg3 : arg3.IsWhole)
    (arg4 : Memref sig .tc .vmem S1536x1536 .f32) (harg4 : arg4.IsWhole)
    (a : Vec F S1536x16 .f32) (b : Vec F S1536x16 .f32) (K : PUnit → sProp 𝕄) :
    iprop(owns (c : Thread nD τ) arg2 fullShare a ∗ owns (c : Thread nD τ) arg3 fullShare b
        ∗ (∃ d, owns (c : Thread nD τ) arg4 fullShare d)
        ∗ (iprop(owns (c : Thread nD τ) arg2 fullShare a ∗ owns (c : Thread nD τ) arg3 fullShare b
            ∗ owns (c : Thread nD τ) arg4 fullShare (outTile a b)) -∗ K ⟨⟩))
      ⊢ wp frame (wpE (defs₀ (F := F)) Variants.none c none) E (cc3__zzt_kernel i arg2 harg2 arg3 harg3 arg4 harg4) K := by
  simp only [cc3__zzt_kernel_eq_skeleton]; unfold cc3__zzt_kernel_skel
  unfold owns
  iintro ⟨⟨%f1, %hf1, H1⟩, ⟨%f2, %hf2, H2⟩, ⟨%d4, %f4, -, H4⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (store_covers _)

/-! ## The pipeline's proof data -/

/-- The arrays as the region finds them; after the body at tile `t` each input's buffer still at its block and the
    output's at `outTile` of the two; the invariant the scoped rest and the generator register, untouched; nothing
    owed; the one input array split between its two windows, half the share each. -/
def dat (c : Dev nD) : Dat τ (Elt F) Unit ℕ (Pipeline.UD sig nD τ) ℕ cfg3 c where
  A w := V c (Pipeline.arrRef spec3 w)
  after w t := match w with
    | ⟨0, _⟩ => tile V c 0 t
    | ⟨1, _⟩ => tile V c 1 t
    | ⟨2, _⟩ => outTile (tile V c 0 t) (tile V c 1 t)
  Φ _ := Pipeline.ΦA spec3 c
  q w := match w with
    | ⟨0, _⟩ => fullShare.left
    | ⟨1, _⟩ => fullShare.right
    | ⟨2, _⟩ => fullShare
  owed _ := 0

theorem dat_A (c : Dev nD) (w : Fin cfg3.W) : (dat V c).A w = V c (Pipeline.arrRef spec3 w) := by
  dsimp only [dat]

theorem after_rows (c : Dev nD) (t : Fin cfg3.N) : (dat V c).after 0 t = tile V c 0 t := by dsimp only [dat]
theorem after_cols (c : Dev nD) (t : Fin cfg3.N) : (dat V c).after 1 t = tile V c 1 t := by dsimp only [dat]
theorem after_out (c : Dev nD) (t : Fin cfg3.N) :
    (dat V c).after 2 t = outTile (tile V c 0 t) (tile V c 1 t) := by dsimp only [dat]

theorem before_rows (c : Dev nD) (t : Fin cfg3.N) (d) : (dat V c).before 0 t d = tile V c 0 t :=
  rows_found V (dat V c) (dat_A V c 0) (after_rows V c) t d
theorem before_cols (c : Dev nD) (t : Fin cfg3.N) (d) : (dat V c).before 1 t d = tile V c 1 t :=
  cols_found V (dat V c) (dat_A V c 1) (after_cols V c) t d

/-- The shares: the two readers of `z` hold a half each, the output is held whole. -/
theorem share_rows (c : Dev nD) : (dat V c).share 0 = fullShare.left := rfl
theorem share_cols (c : Dev nD) : (dat V c).share 1 = fullShare.right := rfl
theorem share_out (c : Dev nD) : (dat V c).share 2 = fullShare := rfl

/-! ## The body obligation -/

/-- What the body is called with at tile `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_rows, before_cols]
  rw [show (dat V c).Φ t.succ = (dat V c).Φ t.castSucc from rfl,
    show (dat V c).owesAt () t.succ = (dat V c).owesAt () t.castSucc from rfl,
    after_rows, after_cols, after_out]
  iintro ⟨HΦ, Ho, ⟨%d0, H0⟩, ⟨%d1, H1⟩, ⟨%d2, H2⟩⟩
  iapply (body_runs c Set.univ (grid3.coords t) _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every tile. -/
theorem body_obligation (c : Dev nD) : BodyObligation (dat (F := F) V c) (defs₀ (F := F)) Variants.none () Set.univ := fun t => by
  rw [bigSep_W3, bigSep_W3]
  exact body_at V c t

end Cert.Kernel.Decoder

end
-- ==== Proof.K.Segs.lean ====
/-
  The four kernel regions as segments of @main.

  Between two items of @main the core holds every unscoped buffer whole at a valuation. Reading @main from the top:
  five stretches of host operations (the degree norms, the first aggregation), the first dense layer, a stretch (the
  second aggregation), the mean head, one reshape, the log-variance head, the decoder. A region changes only its
  output array; what it leaves there is the pipeline's fold of its tiles' write-backs. The valuations below name
  those contents one region after the other, and each region's record says: entered from the valuation before it,
  left at the valuation after it; its arrays are split out of the unscoped buffers at entry and put back at exit;
  the generator register passes through the body's invariant; nothing is owed; the kernels have no semaphores of
  their own.
-/
import proofs.«110736_j70712341561937_1_alg».proof.Proof.K.Layer0
import proofs.«110736_j70712341561937_1_alg».proof.Proof.K.Layer1
import proofs.«110736_j70712341561937_1_alg».proof.Proof.K.Layer2
import proofs.«110736_j70712341561937_1_alg».proof.Proof.K.Decoder
import proofs.«110736_j70712341561937_1_alg».proof.Proof.Gen.Kernel.Regions

set_option maxRecDepth 16384

noncomputable section

namespace Cert.Kernel.Segs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents between items -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- What the first dense layer leaves in its output array. -/
def hidden (c : Dev nD) : Buf (Elt F) ((c : Thread nD τ).loc main_v36) := (Layer0.dat (atTc (V5 m)) c).arrAt 3 cfg0.N
/-- After the first dense layer. -/
def W6 (c : Dev nD) : Valuation τ sig (Elt F) := Function.update (V5 m c) main_v36 (hidden m c)
/-- After the second aggregation. -/
def X7 (c : Dev nD) : Valuation τ sig (Elt F) := StableHlo.after hostOps1 (W6 m c)
/-- What the mean head leaves in its output array. -/
def mean (c : Dev nD) : Buf (Elt F) ((c : Thread nD τ).loc main_v54) := (Layer1.dat (atTc (X7 m)) c).arrAt 3 cfg1.N
/-- After the mean head. -/
def W8 (c : Dev nD) : Valuation τ sig (Elt F) := Function.update (X7 m c) main_v54 (mean m c)
/-- After the reshape of the last bias. -/
def X9 (c : Dev nD) : Valuation τ sig (Elt F) := StableHlo.after hostOps2 (W8 m c)
/-- What the log-variance head leaves in its output array. -/
def logvar (c : Dev nD) : Buf (Elt F) ((c : Thread nD τ).loc main_v56) := (Layer2.dat (atTc (X9 m)) c).arrAt 3 cfg2.N
/-- After the log-variance head. -/
def W10 (c : Dev nD) : Valuation τ sig (Elt F) := Function.update (X9 m c) main_v56 (logvar m c)
/-- What the decoder leaves in its output array. -/
def logits (c : Dev nD) : Buf (Elt F) ((c : Thread nD τ).loc main_v57) := (Decoder.dat (atTc (W10 m)) c).arrAt 2 cfg3.N
/-- After the decoder: the end of @main. -/
def W11 (c : Dev nD) : Valuation τ sig (Elt F) := Function.update (W10 m c) main_v57 (logits m c)

/-- What each region leaves, as the family of unknowns the conditional frame is stated over. -/
def outs : Outs (F := F) := fun J r c =>
  match J with
  | 6 => W6 m c r
  | 8 => W8 m c r
  | 10 => W10 m c r
  | 11 => W11 m c r
  | _ => V0 m c r

theorem V6_eq (c : Dev nD) : V6 m (outs m) c = W6 m c := by
  show Function.update (V5 m c) main_v36 (W6 m c main_v36) = W6 m c
  unfold W6; rw [Function.update_self]
theorem V7_eq (c : Dev nD) : V7 m (outs m) c = X7 m c := by
  show StableHlo.after hostOps1 (V6 m (outs m) c) = X7 m c
  rw [V6_eq]; rfl
theorem V8_eq (c : Dev nD) : V8 m (outs m) c = W8 m c := by
  show Function.update (V7 m (outs m) c) main_v54 (W8 m c main_v54) = W8 m c
  rw [V7_eq]; unfold W8; rw [Function.update_self]
theorem V9_eq (c : Dev nD) : V9 m (outs m) c = X9 m c := by
  show StableHlo.after hostOps2 (V8 m (outs m) c) = X9 m c
  rw [V8_eq]; rfl
theorem V10_eq (c : Dev nD) : V10 m (outs m) c = W10 m c := by
  show Function.update (V9 m (outs m) c) main_v56 (W10 m c main_v56) = W10 m c
  rw [V9_eq]; unfold W10; rw [Function.update_self]
theorem V11_eq (c : Dev nD) : V11 m (outs m) c = W11 m c := by
  show Function.update (V10 m (outs m) c) main_v57 (W11 m c main_v57) = W11 m c
  rw [V10_eq]; unfold W11; rw [Function.update_self]

/-! ## The proof data family and what rides beside the buffers -/

/-- Every pipeline's proof data, each at its region's entry contents. -/
def pdats : (p : Fin 4) → (c : Dev nD) → Dat τ (Elt F) Unit ℕ (Pipeline.UD sig nD τ) ℕ (cfgs p) c
  | ⟨0, _⟩ => fun c => Layer0.dat (atTc (V5 m)) c
  | ⟨1, _⟩ => fun c => Layer1.dat (atTc (X7 m)) c
  | ⟨2, _⟩ => fun c => Layer2.dat (atTc (X9 m)) c
  | ⟨3, _⟩ => fun c => Decoder.dat (atTc (W10 m)) c

abbrev noVariants : Variants := Variants.none
/-- No core owes another anything: no level is assigned. -/
abbrev L : GSem nD τ sig → Finset Unit := fun _ => ∅
abbrev lv : GSem nD τ sig → Unit → ℕ := fun _ _ => 0
/-- Beside the buffers: the generator register at some state and the core owing nothing. -/
abbrev rest (c : Dev nD) : sProp 𝕄 := iprop((∃ r, prngReg c r) ∗ ∃ W, owes (c : Thread nD τ) (0 : CellTallies nD τ sig Unit) W)

/-- `main_v36` apart, nothing changes across region 0. -/
theorem W6_of (c : Dev nD) (r : Ref sig .tc) (h : r ≠ main_v36) : W6 m c r = V5 m c r := by
  unfold W6; exact Function.update_of_ne (StableHlo.devRef_ne_of_ne h) _ _

/-- At region 0's exit each of its arrays holds what the pipeline leaves: an input what it held at entry, the output
    the fold of the tiles' write-backs. -/
theorem exit0_arrays (c : Dev nD) : ∀ w : Fin cfg0.W, (pdats m 0 c).arrAt w cfg0.N = atTc (W6 m) c (Pipeline.arrRef spec0 w)
  | ⟨0, _⟩ => by
    show (Layer0.dat (atTc (V5 m)) c).arrAt 0 cfg0.N = W6 m c main_v34
    rw [(Layer0.dat (atTc (V5 m)) c).arrAt_in 0 rfl cfg0.N, W6_of m c main_v34 (by decide)]
    exact Layer0.dat_A (atTc (V5 m)) c 0
  | ⟨1, _⟩ => by
    show (Layer0.dat (atTc (V5 m)) c).arrAt 1 cfg0.N = W6 m c main_arg3
    rw [(Layer0.dat (atTc (V5 m)) c).arrAt_in 1 rfl cfg0.N, W6_of m c main_arg3 (by decide)]
    exact Layer0.dat_A (atTc (V5 m)) c 1
  | ⟨2, _⟩ => by
    show (Layer0.dat (atTc (V5 m)) c).arrAt 2 cfg0.N = W6 m c main_v35
    rw [(Layer0.dat (atTc (V5 m)) c).arrAt_in 2 rfl cfg0.N, W6_of m c main_v35 (by decide)]
    exact Layer0.dat_A (atTc (V5 m)) c 2
  | ⟨3, _⟩ => by
    show (Layer0.dat (atTc (V5 m)) c).arrAt 3 cfg0.N = Function.update (V5 m c) main_v36 _ main_v36
    rw [Function.update_self]; rfl

/-- and every other buffer what it held at entry. -/
theorem exit0_rest (c : Dev nD) (b : Ref sig .tc) (hb : b ∉ Finset.univ.image (Pipeline.arrRef spec0)) :
    atTc (W6 m) c b = atTc (V5 m) c b :=
  W6_of m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- The first dense layer: entered with the buffers as the fifth host stretch leaves them, left with the hidden activations in its output array. -/
def reg0 : Pipeline.RegionSeg (pcfgs (F := F)) adm (pdats m) () defs₀ noVariants L lv 0 where
  win := launch0.win.to₀
  block_pos := launch0.block_pos
  stage_whole := launch0.stage_whole
  K := PEmpty
  osem k := k.elim
  ho := Pipeline.OwnSemFacts.none _
  hbody c := (Layer0.body_obligation (atTc (V5 m)) c).loose
  hwaits := Pipeline.hwaits_of_owed_zero _ _ _ _ L lv 0 fun _ _ => rfl
  pre c := iprop(StableHlo.held (c : Thread nD τ) (Pipeline.ucRefs τ sig) (V5 m c) ∗ rest c)
  post c := iprop(StableHlo.held (c : Thread nD τ) (Pipeline.ucRefs τ sig) (W6 m c) ∗ rest c)
  X c := iprop(∃ r, prngReg c r)
  Y c := iprop(∃ r, prngReg c r)
  Z c := Pipeline.unscopedRest (Ix := Unit) (Name := ℕ) (U := Pipeline.UD sig nD τ) (Lvl := ℕ) spec0 c (atTc (V5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (atTc (V5 m) c) (atTc (W6 m) c) ((pdats m 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- `main_v54` apart, nothing changes across region 1. -/
theorem W8_of (c : Dev nD) (r : Ref sig .tc) (h : r ≠ main_v54) : W8 m c r = X7 m c r := by
  unfold W8; exact Function.update_of_ne (StableHlo.devRef_ne_of_ne h) _ _

/-- At region 1's exit each of its arrays holds what the pipeline leaves: an input what it held at entry, the output
    the fold of the tiles' write-backs. -/
theorem exit1_arrays (c : Dev nD) : ∀ w : Fin cfg1.W, (pdats m 1 c).arrAt w cfg1.N = atTc (W8 m) c (Pipeline.arrRef spec1 w)
  | ⟨0, _⟩ => by
    show (Layer1.dat (atTc (X7 m)) c).arrAt 0 cfg1.N = W8 m c main_v52
    rw [(Layer1.dat (atTc (X7 m)) c).arrAt_in 0 rfl cfg1.N, W8_of m c main_v52 (by decide)]
    exact Layer1.dat_A (atTc (X7 m)) c 0
  | ⟨1, _⟩ => by
    show (Layer1.dat (atTc (X7 m)) c).arrAt 1 cfg1.N = W8 m c main_arg5
    rw [(Layer1.dat (atTc (X7 m)) c).arrAt_in 1 rfl cfg1.N, W8_of m c main_arg5 (by decide)]
    exact Layer1.dat_A (atTc (X7 m)) c 1
  | ⟨2, _⟩ => by
    show (Layer1.dat (atTc (X7 m)) c).arrAt 2 cfg1.N = W8 m c main_v53
    rw [(Layer1.dat (atTc (X7 m)) c).arrAt_in 2 rfl cfg1.N, W8_of m c main_v53 (by decide)]
    exact Layer1.dat_A (atTc (X7 m)) c 2
  | ⟨3, _⟩ => by
    show (Layer1.dat (atTc (X7 m)) c).arrAt 3 cfg1.N = Function.update (X7 m c) main_v54 _ main_v54
    rw [Function.update_self]; rfl

/-- and every other buffer what it held at entry. -/
theorem exit1_rest (c : Dev nD) (b : Ref sig .tc) (hb : b ∉ Finset.univ.image (Pipeline.arrRef spec1)) :
    atTc (W8 m) c b = atTc (X7 m) c b :=
  W8_of m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- The mean head: entered after the second aggregation, left with the mean in its output array. -/
def reg1 : Pipeline.RegionSeg (pcfgs (F := F)) adm (pdats m) () defs₀ noVariants L lv 1 where
  win := launch1.win.to₀
  block_pos := launch1.block_pos
  stage_whole := launch1.stage_whole
  K := PEmpty
  osem k := k.elim
  ho := Pipeline.OwnSemFacts.none _
  hbody c := (Layer1.body_obligation (atTc (X7 m)) c).loose
  hwaits := Pipeline.hwaits_of_owed_zero _ _ _ _ L lv 1 fun _ _ => rfl
  pre c := iprop(StableHlo.held (c : Thread nD τ) (Pipeline.ucRefs τ sig) (X7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := Pipeline.UD sig nD τ) (Lvl := ℕ) spec1 c (atTc (X7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (atTc (X7 m) c) (atTc (W8 m) c) ((pdats m 1 c).arrAt · cfg1.N) (exit1_arrays m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- `main_v56` apart, nothing changes across region 2. -/
theorem W10_of (c : Dev nD) (r : Ref sig .tc) (h : r ≠ main_v56) : W10 m c r = X9 m c r := by
  unfold W10; exact Function.update_of_ne (StableHlo.devRef_ne_of_ne h) _ _

/-- At region 2's exit each of its arrays holds what the pipeline leaves: an input what it held at entry, the output
    the fold of the tiles' write-backs. -/
theorem exit2_arrays (c : Dev nD) : ∀ w : Fin cfg2.W, (pdats m 2 c).arrAt w cfg2.N = atTc (W10 m) c (Pipeline.arrRef spec2 w)
  | ⟨0, _⟩ => by
    show (Layer2.dat (atTc (X9 m)) c).arrAt 0 cfg2.N = W10 m c main_v52
    rw [(Layer2.dat (atTc (X9 m)) c).arrAt_in 0 rfl cfg2.N, W10_of m c main_v52 (by decide)]
    exact Layer2.dat_A (atTc (X9 m)) c 0
  | ⟨1, _⟩ => by
    show (Layer2.dat (atTc (X9 m)) c).arrAt 1 cfg2.N = W10 m c main_arg7
    rw [(Layer2.dat (atTc (X9 m)) c).arrAt_in 1 rfl cfg2.N, W10_of m c main_arg7 (by decide)]
    exact Layer2.dat_A (atTc (X9 m)) c 1
  | ⟨2, _⟩ => by
    show (Layer2.dat (atTc (X9 m)) c).arrAt 2 cfg2.N = W10 m c main_v55
    rw [(Layer2.dat (atTc (X9 m)) c).arrAt_in 2 rfl cfg2.N, W10_of m c main_v55 (by decide)]
    exact Layer2.dat_A (atTc (X9 m)) c 2
  | ⟨3, _⟩ => by
    show (Layer2.dat (atTc (X9 m)) c).arrAt 3 cfg2.N = Function.update (X9 m c) main_v56 _ main_v56
    rw [Function.update_self]; rfl

/-- and every other buffer what it held at entry. -/
theorem exit2_rest (c : Dev nD) (b : Ref sig .tc) (hb : b ∉ Finset.univ.image (Pipeline.arrRef spec2)) :
    atTc (W10 m) c b = atTc (X9 m) c b :=
  W10_of m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- The log-variance head: entered after the last bias is reshaped, left with the log-variance in its output array. -/
def reg2 : Pipeline.RegionSeg (pcfgs (F := F)) adm (pdats m) () defs₀ noVariants L lv 2 where
  win := launch2.win.to₀
  block_pos := launch2.block_pos
  stage_whole := launch2.stage_whole
  K := PEmpty
  osem k := k.elim
  ho := Pipeline.OwnSemFacts.none _
  hbody c := (Layer2.body_obligation (atTc (X9 m)) c).loose
  hwaits := Pipeline.hwaits_of_owed_zero _ _ _ _ L lv 2 fun _ _ => rfl
  pre c := iprop(StableHlo.held (c : Thread nD τ) (Pipeline.ucRefs τ sig) (X9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := Pipeline.UD sig nD τ) (Lvl := ℕ) spec2 c (atTc (X9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (atTc (X9 m) c) (atTc (W10 m) c) ((pdats m 2 c).arrAt · cfg2.N) (exit2_arrays m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- `main_v57` apart, nothing changes across the decoder. -/
theorem W11_of (c : Dev nD) (r : Ref sig .tc) (h : r ≠ main_v57) : W11 m c r = W10 m c r := by
  unfold W11; exact Function.update_of_ne (StableHlo.devRef_ne_of_ne h) _ _

/-- The decoder's three windows stand on two arrays: the mean (read through two windows) and the logits. -/
theorem decoder_refs : Finset.univ.image (Pipeline.arrRef spec3) = {main_v54, main_v57} := by decide

/-- What the decoder's arrays hold before the first tile and after the last: the mean as entered, under both of its
    windows; the logits as entered, then as the tiles' write-backs leave them. -/
theorem dec_rows_at (c : Dev nD) (n : Nat) : (Decoder.dat (atTc (W10 m)) c).arrAt 0 n = W10 m c main_v54 :=
  ((Decoder.dat (atTc (W10 m)) c).arrAt_in 0 rfl n).trans (Decoder.dat_A (atTc (W10 m)) c 0)
theorem dec_cols_at (c : Dev nD) (n : Nat) : (Decoder.dat (atTc (W10 m)) c).arrAt 1 n = W10 m c main_v54 :=
  ((Decoder.dat (atTc (W10 m)) c).arrAt_in 1 rfl n).trans (Decoder.dat_A (atTc (W10 m)) c 1)
theorem dec_out_at0 (c : Dev nD) : (Decoder.dat (atTc (W10 m)) c).arrAt 2 0 = W10 m c main_v57 :=
  Decoder.dat_A (atTc (W10 m)) c 2

/-- ENTRY, the arrays' part: the mean's buffer, whole at the full share, is split between its two windows, the left
    half of the share to the row blocks' and the right half to the column blocks'; the logits' buffer goes whole to
    the output window. -/
theorem decoder_arrays_in (c : Dev nD) :
    (Pipeline.arrBufs spec3 c (atTc (W10 m) c) : sProp 𝕄) ⊢ (pdats m 3 c).arrays ((pdats m 3 c).arrAt · 0) := by
  show (Pipeline.arrBufs spec3 c (atTc (W10 m) c) : sProp 𝕄)
    ⊢ (Decoder.dat (atTc (W10 m)) c).arrays ((Decoder.dat (atTc (W10 m)) c).arrAt · 0)
  unfold Pipeline.arrBufs Pipeline.Dat.arrays
  rw [decoder_refs, BI.bigSep_insert (by decide), BI.bigSep_singleton, bigSep_W3]
  rw [(arr_whole3 0).set_eq_univ, (arr_whole3 2).set_eq_univ, Decoder.share_rows, Decoder.share_cols, Decoder.share_out]
  beta_reduce
  rw [dec_rows_at, dec_cols_at, dec_out_at0]
  exact (sep_mono (pointsTo_share (PosShare.mem_left_op_right fullShare)).1 .rfl).trans sep_assoc.1

/-- EXIT, the arrays' part: the two halves of the mean's buffer, still at the contents entered with, rejoin to the
    whole; the logits' buffer holds the fold of the tiles. -/
theorem decoder_arrays_out (c : Dev nD) :
    (pdats m 3 c).arrays ((pdats m 3 c).arrAt · cfg3.N) ⊢ (Pipeline.arrBufs spec3 c (atTc (W11 m) c) : sProp 𝕄) := by
  show (Decoder.dat (atTc (W10 m)) c).arrays ((Decoder.dat (atTc (W10 m)) c).arrAt · cfg3.N)
    ⊢ (Pipeline.arrBufs spec3 c (atTc (W11 m) c) : sProp 𝕄)
  unfold Pipeline.arrBufs Pipeline.Dat.arrays
  rw [decoder_refs, BI.bigSep_insert (by decide), BI.bigSep_singleton, bigSep_W3]
  rw [(arr_whole3 0).set_eq_univ, (arr_whole3 2).set_eq_univ, Decoder.share_rows, Decoder.share_cols, Decoder.share_out]
  beta_reduce
  rw [dec_rows_at, dec_cols_at]
  rw [show atTc (W11 m) c main_v54 = W10 m c main_v54 from W11_of m c main_v54 (by decide),
    show atTc (W11 m) c main_v57 = (Decoder.dat (atTc (W10 m)) c).arrAt 2 cfg3.N from by
      show Function.update (W10 m c) main_v57 _ main_v57 = _
      rw [Function.update_self]; rfl]
  exact sep_assoc.2.trans (sep_mono (pointsTo_share (PosShare.mem_left_op_right fullShare)).2 .rfl)

/-- Off the decoder's two arrays the buffers are as entered. -/
theorem decoder_rest (c : Dev nD) :
    (Pipeline.unscopedRest (Ix := Unit) (Name := ℕ) (U := Pipeline.UD sig nD τ) (Lvl := ℕ) spec3 c (atTc (W10 m) c) : sProp 𝕄)
      = Pipeline.unscopedRest spec3 c (atTc (W11 m) c) := by
  unfold Pipeline.unscopedRest
  exact bigSep_congr fun b hb => by
    rw [show atTc (W11 m) c b = atTc (W10 m) c b from
      W11_of m c b fun e => (Finset.mem_sdiff.mp hb).2 (e ▸ Finset.mem_image.mpr ⟨2, Finset.mem_univ _, rfl⟩)]

-- a library lemma stated over the pinned configuration unifies with the printed one only when unification may unfold
-- plain definitions in a metavariable's type
set_option backward.isDefEq.respectTransparency.types false in
/-- The decoder: entered after the log-variance head, left with the logits in its output array. The mean's array is
    read through two windows, so it is not among "distinct arrays": its buffer is split by share at entry and
    rejoined at exit. -/
def reg3 : Pipeline.RegionSeg (pcfgs (F := F)) adm (pdats m) () defs₀ noVariants L lv 3 where
  win := winFacts₀3
  block_pos := block_pos3
  stage_whole := stage_whole3
  K := PEmpty
  osem k := k.elim
  ho := Pipeline.OwnSemFacts.none _
  hbody c := (Decoder.body_obligation (atTc (W10 m)) c).loose
  hwaits := Pipeline.hwaits_of_owed_zero _ _ _ _ L lv 3 fun _ _ => rfl
  pre c := iprop(StableHlo.held (c : Thread nD τ) (Pipeline.ucRefs τ sig) (W10 m c) ∗ rest c)
  post c := iprop(StableHlo.held (c : Thread nD τ) (Pipeline.ucRefs τ sig) (W11 m c) ∗ rest c)
  X c := iprop(∃ r, prngReg c r)
  Y c := iprop(∃ r, prngReg c r)
  Z c := Pipeline.unscopedRest (Ix := Unit) (Name := ℕ) (U := Pipeline.UD sig nD τ) (Lvl := ℕ) spec3 c (atTc (W10 m) c)
  hentry c := by
    rw [Pipeline.ownSems0_none]
    have hsplit := Pipeline.unscopedBufs_split₀ (Ix := Unit) (Name := ℕ) (U := Pipeline.UD sig nD τ) (Lvl := ℕ)
      (Pipeline.pin (pcfgs (F := F)) adm) 3 winFacts₀3.arr_unscoped c (atTc (W10 m) c)
    rw [Pipeline.unscopedBufs_held] at hsplit
    iintro ⟨⟨Hub, Hp, HO⟩, -, -⟩
    ihave H := (Entails.of_eq hsplit) $$ Hub
    icases H with ⟨Ha, Hrest⟩
    ihave Ha := (decoder_arrays_in m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_split₀ (Ix := Unit) (Name := ℕ) (U := Pipeline.UD sig nD τ) (Lvl := ℕ)
      (Pipeline.pin (pcfgs (F := F)) adm) 3 winFacts₀3.arr_unscoped c (atTc (W11 m) c)
    rw [Pipeline.unscopedBufs_held] at hjoin
    rw [decoder_rest m c]
    iintro ⟨Ha, HO, HY, Hrest⟩
    ihave Ha := (decoder_arrays_out m c) $$ Ha
    imodintro
    isplitl [Ha Hrest]
    · iapply (Entails.of_eq hjoin.symm); isplitl [Ha] <;> iassumption
    isplitl [HY]; · iexact HY
    unfold Pipeline.Dat.owesAt Pipeline.owesWithin
    icases HO with ⟨%W, -, HO⟩; iexists W; iexact HO

end Cert.Kernel.Segs

end
-- ==== Proof.K.Frame.lean ====
/-
  The frame: every weakly fair execution of @main terminates, nothing faults, and the nine argument arrays end as
  launched. The host side (the stretches of host operations, their chaining, the launch's first state, the
  read-back of the arguments) is the generated conditional frame; what is supplied here is what that leaves open:
  the four regions' records, entered and left at its valuations; the launch element of the staging cells alone; the
  rest state beside the buffers (the generator register at some state, nothing owed), the same between any two items.
-/
import proofs.«110736_j70712341561937_1_alg».proof.Proof.K.Segs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The launch's ghost element: the staging cells' alone, no resource of the certificate's own beside it. -/
abbrev launchElt : Pipeline.UD sig nD τ :=
  (initOf (Pipeline.cells cfgs cellOf_inj) (Pipeline.launchToks cfgs cellOf_inj), 1)

theorem launch_elt : (ownU (launchElt) : sProp 𝕄)
    ⊢ |={Set.univ}=> iprop(BI.own (embL (initOf (Pipeline.cells cfgs cellOf_inj) (Pipeline.launchToks cfgs cellOf_inj))) ∗ bigSep Finset.univ fun _ : Dev nD => (iprop(emp) : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals one core, less its buffers, makes its rest state: the generator register as seeded, the
    core owing nothing. -/
theorem rest_of_launch (ρ : Dev nD → PrngReg) (c : Dev nD) :
    iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))
      ⊢ (Segs.rest (F := F) c : sProp 𝕄) := by
  iintro ⟨-, HO, -, Hp, -⟩
  isplitl [Hp]; · iexists _; iexact Hp
  iexists ∅; iexact HO

/-- On every core at once. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Segs.L Segs.lv)
      ⊢ (|={Set.univ}=> bigSep Finset.univ (fun c : Dev nD => Segs.rest (F := F) c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => Segs.rest (F := F) c) : sProp 𝕄) := bigSep_mono fun c _ => rest_of_launch ρ c
  iintro ⟨H, -⟩
  imodintro
  iapply h1; iexact H

/-- The rest state ends owing nothing. -/
theorem rest_end (c : Dev nD) : Segs.rest (F := F) c ⊢ (iprop(∃ W, owes (c : Thread nD τ) (0 : CellTallies nD τ sig Unit) W) : sProp 𝕄) := by
  iintro ⟨-, HO⟩; iexact HO

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond (m := m) (EP := embL) (ι := ()) (𝒱₀ := Segs.noVariants) (L := Segs.L) (lv := Segs.lv) (hL := fun _ _ => rfl)
    (ρ := ρ) (outs := Segs.outs m) (pdats := Segs.pdats m) (O₀ := 0) (G := fun _ => iprop(emp))
    (u₀ := launchElt) (hu₀ := launch_elt) (E := fun _ c => Segs.rest c) (hE0 := rest_init ρ) (hE4 := rest_end)
    (R0 := Segs.reg0 m) (hpre0 := fun c => .rfl) (hpost0 := fun c => by rw [Segs.V6_eq]; exact .rfl)
    (R1 := Segs.reg1 m) (hpre1 := fun c => by rw [Segs.V7_eq]; exact .rfl) (hpost1 := fun c => by rw [Segs.V8_eq]; exact .rfl)
    (R2 := Segs.reg2 m) (hpre2 := fun c => by rw [Segs.V9_eq]; exact .rfl) (hpost2 := fun c => by rw [Segs.V10_eq]; exact .rfl)
    (R3 := Segs.reg3 m) (hpre3 := fun c => by rw [Segs.V10_eq]; exact .rfl) (hpost3 := fun c => by rw [Segs.V11_eq]; exact .rfl)

end Cert.Kernel.Frame

end
-- ==== Proof.KI.Layer0.lean ====
/-
  The first dense layer, h = max (a · W₁ + b₁) 0, one tile of 2048 rows at a time (six tiles).
  The region is entered with the core's buffers at contents `V`. Row tile `t` of the output is computed from row
  tile `t` of the left operand and the whole of the weight and bias, which stay in place from tile to tile: the
  staging buffer of each of the three inputs holds, at every tile, the block of its array the tile's index map
  names, whether or not it was fetched anew; the body overwrites the whole output tile by one store.
-/
import proofs.«110736_j70712341561937_1_alg».proof.Proof.Gen.KernelIdeal.Launch
import proofs.«110736_j70712341561937_1_alg».proof.Proof.Gen.KernelIdeal.Skeleton
import proofs.«110736_j70712341561937_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The tiles the inputs' staging buffers hold -/

/-- Block `t` of window `w`'s array, as the region finds the array. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows tile: whatever proof data has the region-entry array and a body that leaves the tile where it found it,
    the buffer holds the tile when the body starts. -/
theorem rows_found {c : Dev nD} (dat : Dat τ (Elt F) Unit ℕ (Pipeline.UD sig nD τ) ℕ cfg0 c) (hA : dat.A 0 = V c (Pipeline.arrRef spec0 0))
    (hkeep : ∀ t, dat.after 0 t = tile V c 0 t) (t : Fin cfg0.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The weight: fetched once, found at every tile. -/
theorem weight_found {c : Dev nD} (dat : Dat τ (Elt F) Unit ℕ (Pipeline.UD sig nD τ) ℕ cfg0 c) (hA : dat.A 1 = V c (Pipeline.arrRef spec0 1))
    (hkeep : ∀ t, dat.after 1 t = tile V c 1 t) (t : Fin cfg0.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-- The bias row: fetched once, found at every tile. -/
theorem bias_found {c : Dev nD} (dat : Dat τ (Elt F) Unit ℕ (Pipeline.UD sig nD τ) ℕ cfg0 c) (hA : dat.A 2 = V c (Pipeline.arrRef spec0 2))
    (hkeep : ∀ t, dat.after 2 t = tile V c 2 t) (t : Fin cfg0.N) (d) : dat.before 2 t d = tile V c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxX : Rect S2048x512 := Rect.unit (s := S2048x512) ![0, 0] S2048x512.size inb_S2048x512_S2048x512_0_0
abbrev boxW : Rect S512x32 := Rect.unit (s := S512x32) ![0, 0] S512x32.size inb_S512x32_S512x32_0_0
abbrev boxB : Rect S1x32 := Rect.unit (s := S1x32) ![0, 0] S1x32.size inb_S1x32_S1x32_0_0
abbrev boxO : Rect S2048x32 := Rect.unit (s := S2048x32) ![0, 0] S2048x32.size inb_S2048x32_S2048x32_0_0

/-- The output tile after the body: its one store, over the whole tile, of the body's arithmetic on the three loads. -/
def outTile (x : Vec F S2048x512 .f32) (w : Vec F S512x32 .f32) (b : Vec F S1x32 .f32) : Vec F S2048x32 .f32 :=
  View.canon [⟨boxO, k0_pay1 (View.ld x boxX) (View.ld w boxW) (View.ld b boxB)⟩]

/-- That store covers the tile. -/
theorem store_covers (p : Vec F S2048x32 .f32) (y : S2048x32.Idx) :
    ∃ pc ∈ ([⟨boxO, p⟩] : List (View.Piece (Elt F) S2048x32 .f32)), y ∈ pc.1.set :=
  View.cover_of_tiled [⟨boxO, p⟩] S2048x32.size (by rfl) y

/-! ## The body on any staging memrefs -/

set_option maxHeartbeats 1000000 in
/-- From the three inputs' memrefs at read contents `x`, `w`, `b` and the output's at anything, the body runs to the
    inputs untouched and the output at `outTile x w b`. -/
theorem body_runs (c : Dev nD) (E : Set ℕ) (i : grid0.Coords)
    (arg1 : Memref sig .tc .vmem S2048x512 .f32) (harg1 : arg1.IsWhole) (arg2 : Memref sig .tc .vmem S512x32 .f32) (harg2 : arg2.IsWhole)
    (arg3 : Memref sig .tc .vmem S1x32 .f32) (harg3 : arg3.IsWhole) (arg4 : Memref sig .tc .vmem S2048x32 .f32) (harg4 : arg4.IsWhole)
    (x : Vec F S2048x512 .f32) (w : Vec F S512x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outTile x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- The arrays as the region finds them; after the body at tile `t` each input's buffer still at its block and the
    output's at `outTile` of the three; the invariant the scoped rest and the generator register, untouched; nothing
    owed; every array held whole. -/
def dat (c : Dev nD) : Dat τ (Elt F) Unit ℕ (Pipeline.UD sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = tile V c 0 t := by dsimp only [dat]
theorem after_weight (c : Dev nD) (t : Fin cfg0.N) : (dat V c).after 1 t = tile V c 1 t := by dsimp only [dat]
theorem after_bias (c : Dev nD) (t : Fin cfg0.N) : (dat V c).after 2 t = tile V c 2 t := by dsimp only [dat]
theorem after_out (c : Dev nD) (t : Fin cfg0.N) :
    (dat V c).after 3 t = outTile (tile V c 0 t) (tile V c 1 t) (tile V c 2 t) := by dsimp only [dat]

theorem before_rows (c : Dev nD) (t : Fin cfg0.N) (d) : (dat V c).before 0 t d = tile V c 0 t :=
  rows_found V (dat V c) (dat_A V c 0) (after_rows V c) t d
theorem before_weight (c : Dev nD) (t : Fin cfg0.N) (d) : (dat V c).before 1 t d = tile V c 1 t :=
  weight_found V (dat V c) (dat_A V c 1) (after_weight V c) t d
theorem before_bias (c : Dev nD) (t : Fin cfg0.N) (d) : (dat V c).before 2 t d = tile V c 2 t :=
  bias_found V (dat V c) (dat_A V c 2) (after_bias V c) t d

/-! ## The body obligation -/

/-- What the body is called with at tile `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (body_runs c Set.univ (grid0.coords t) _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation (c : Dev nD) : BodyObligation (dat (F := F) V c) (defs₀ (F := F)) Variants.none () Set.univ := fun t => by
  rw [bigSep_W0, bigSep_W0]
  exact body_at V c t

end Cert.KernelIdeal.Layer0

end
-- ==== Proof.KI.Layer1.lean ====
/-
  The mean head of the second layer, mu = a · W₂ + b₂, one tile of 2048 rows at a time (six tiles).
  The region is entered with the core's buffers at contents `V`. Row tile `t` of the output is computed from row
  tile `t` of the left operand and the whole of the weight and bias, which stay in place from tile to tile: the
  staging buffer of each of the three inputs holds, at every tile, the block of its array the tile's index map
  names, whether or not it was fetched anew; the body overwrites the whole output tile by one store.
-/
import proofs.«110736_j70712341561937_1_alg».proof.Proof.Gen.KernelIdeal.Launch
import proofs.«110736_j70712341561937_1_alg».proof.Proof.Gen.KernelIdeal.Skeleton
import proofs.«110736_j70712341561937_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The tiles the inputs' staging buffers hold -/

/-- Block `t` of window `w`'s array, as the region finds the array. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows tile: whatever proof data has the region-entry array and a body that leaves the tile where it found it,
    the buffer holds the tile when the body starts. -/
theorem rows_found {c : Dev nD} (dat : Dat τ (Elt F) Unit ℕ (Pipeline.UD sig nD τ) ℕ cfg1 c) (hA : dat.A 0 = V c (Pipeline.arrRef spec1 0))
    (hkeep : ∀ t, dat.after 0 t = tile V c 0 t) (t : Fin cfg1.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The weight: fetched once, found at every tile. -/
theorem weight_found {c : Dev nD} (dat : Dat τ (Elt F) Unit ℕ (Pipeline.UD sig nD τ) ℕ cfg1 c) (hA : dat.A 1 = V c (Pipeline.arrRef spec1 1))
    (hkeep : ∀ t, dat.after 1 t = tile V c 1 t) (t : Fin cfg1.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-- The bias row: fetched once, found at every tile. -/
theorem bias_found {c : Dev nD} (dat : Dat τ (Elt F) Unit ℕ (Pipeline.UD sig nD τ) ℕ cfg1 c) (hA : dat.A 2 = V c (Pipeline.arrRef spec1 2))
    (hkeep : ∀ t, dat.after 2 t = tile V c 2 t) (t : Fin cfg1.N) (d) : dat.before 2 t d = tile V c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxX : Rect S2048x32 := Rect.unit (s := S2048x32) ![0, 0] S2048x32.size inb_S2048x32_S2048x32_0_0
abbrev boxW : Rect S32x16 := Rect.unit (s := S32x16) ![0, 0] S32x16.size inb_S32x16_S32x16_0_0
abbrev boxB : Rect S1x16 := Rect.unit (s := S1x16) ![0, 0] S1x16.size inb_S1x16_S1x16_0_0
abbrev boxO : Rect S2048x16 := Rect.unit (s := S2048x16) ![0, 0] S2048x16.size inb_S2048x16_S2048x16_0_0

/-- The output tile after the body: its one store, over the whole tile, of the body's arithmetic on the three loads. -/
def outTile (x : Vec F S2048x32 .f32) (w : Vec F S32x16 .f32) (b : Vec F S1x16 .f32) : Vec F S2048x16 .f32 :=
  View.canon [⟨boxO, k1_pay1 (View.ld x boxX) (View.ld w boxW) (View.ld b boxB)⟩]

/-- That store covers the tile. -/
theorem store_covers (p : Vec F S2048x16 .f32) (y : S2048x16.Idx) :
    ∃ pc ∈ ([⟨boxO, p⟩] : List (View.Piece (Elt F) S2048x16 .f32)), y ∈ pc.1.set :=
  View.cover_of_tiled [⟨boxO, p⟩] S2048x16.size (by rfl) y

/-! ## The body on any staging memrefs -/

set_option maxHeartbeats 1000000 in
/-- From the three inputs' memrefs at read contents `x`, `w`, `b` and the output's at anything, the body runs to the
    inputs untouched and the output at `outTile x w b`. -/
theorem body_runs (c : Dev nD) (E : Set ℕ) (i : grid1.Coords)
    (arg1 : Memref sig .tc .vmem S2048x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S2048x16 .f32) (harg4 : arg4.IsWhole)
    (x : Vec F S2048x32 .f32) (w : Vec F S32x16 .f32) (b : Vec F S1x16 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outTile x w b)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- The arrays as the region finds them; after the body at tile `t` each input's buffer still at its block and the
    output's at `outTile` of the three; the invariant the scoped rest and the generator register, untouched; nothing
    owed; every array held whole. -/
def dat (c : Dev nD) : Dat τ (Elt F) Unit ℕ (Pipeline.UD sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec1 c
  q _ := fullShare
  owed _ := 0

theorem dat_A (c : Dev nD) (w : Fin cfg1.W) : (dat V c).A w = V c (Pipeline.arrRef spec1 w) := by
  dsimp only [dat]

theorem after_rows (c : Dev nD) (t : Fin cfg1.N) : (dat V c).after 0 t = tile V c 0 t := by dsimp only [dat]
theorem after_weight (c : Dev nD) (t : Fin cfg1.N) : (dat V c).after 1 t = tile V c 1 t := by dsimp only [dat]
theorem after_bias (c : Dev nD) (t : Fin cfg1.N) : (dat V c).after 2 t = tile V c 2 t := by dsimp only [dat]
theorem after_out (c : Dev nD) (t : Fin cfg1.N) :
    (dat V c).after 3 t = outTile (tile V c 0 t) (tile V c 1 t) (tile V c 2 t) := by dsimp only [dat]

theorem before_rows (c : Dev nD) (t : Fin cfg1.N) (d) : (dat V c).before 0 t d = tile V c 0 t :=
  rows_found V (dat V c) (dat_A V c 0) (after_rows V c) t d
theorem before_weight (c : Dev nD) (t : Fin cfg1.N) (d) : (dat V c).before 1 t d = tile V c 1 t :=
  weight_found V (dat V c) (dat_A V c 1) (after_weight V c) t d
theorem before_bias (c : Dev nD) (t : Fin cfg1.N) (d) : (dat V c).before 2 t d = tile V c 2 t :=
  bias_found V (dat V c) (dat_A V c 2) (after_bias V c) t d

/-! ## The body obligation -/

/-- What the body is called with at tile `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (body_runs c Set.univ (grid1.coords t) _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation (c : Dev nD) : BodyObligation (dat (F := F) V c) (defs₀ (F := F)) Variants.none () Set.univ := fun t => by
  rw [bigSep_W1, bigSep_W1]
  exact body_at V c t

end Cert.KernelIdeal.Layer1

end
-- ==== Proof.KI.Layer2.lean ====
/-
  The log-variance head of the second layer, a · W₃ + b₃, one tile of 2048 rows at a time (six tiles).
  The region is entered with the core's buffers at contents `V`. Row tile `t` of the output is computed from row
  tile `t` of the left operand and the whole of the weight and bias, which stay in place from tile to tile: the
  staging buffer of each of the three inputs holds, at every tile, the block of its array the tile's index map
  names, whether or not it was fetched anew; the body overwrites the whole output tile by one store.
-/
import proofs.«110736_j70712341561937_1_alg».proof.Proof.Gen.KernelIdeal.Launch
import proofs.«110736_j70712341561937_1_alg».proof.Proof.Gen.KernelIdeal.Skeleton
import proofs.«110736_j70712341561937_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The tiles the inputs' staging buffers hold -/

/-- Block `t` of window `w`'s array, as the region finds the array. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows tile: whatever proof data has the region-entry array and a body that leaves the tile where it found it,
    the buffer holds the tile when the body starts. -/
theorem rows_found {c : Dev nD} (dat : Dat τ (Elt F) Unit ℕ (Pipeline.UD sig nD τ) ℕ cfg2 c) (hA : dat.A 0 = V c (Pipeline.arrRef spec2 0))
    (hkeep : ∀ t, dat.after 0 t = tile V c 0 t) (t : Fin cfg2.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The weight: fetched once, found at every tile. -/
theorem weight_found {c : Dev nD} (dat : Dat τ (Elt F) Unit ℕ (Pipeline.UD sig nD τ) ℕ cfg2 c) (hA : dat.A 1 = V c (Pipeline.arrRef spec2 1))
    (hkeep : ∀ t, dat.after 1 t = tile V c 1 t) (t : Fin cfg2.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-- The bias row: fetched once, found at every tile. -/
theorem bias_found {c : Dev nD} (dat : Dat τ (Elt F) Unit ℕ (Pipeline.UD sig nD τ) ℕ cfg2 c) (hA : dat.A 2 = V c (Pipeline.arrRef spec2 2))
    (hkeep : ∀ t, dat.after 2 t = tile V c 2 t) (t : Fin cfg2.N) (d) : dat.before 2 t d = tile V c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxX : Rect S2048x32 := Rect.unit (s := S2048x32) ![0, 0] S2048x32.size inb_S2048x32_S2048x32_0_0
abbrev boxW : Rect S32x16 := Rect.unit (s := S32x16) ![0, 0] S32x16.size inb_S32x16_S32x16_0_0
abbrev boxB : Rect S1x16 := Rect.unit (s := S1x16) ![0, 0] S1x16.size inb_S1x16_S1x16_0_0
abbrev boxO : Rect S2048x16 := Rect.unit (s := S2048x16) ![0, 0] S2048x16.size inb_S2048x16_S2048x16_0_0

/-- The output tile after the body: its one store, over the whole tile, of the body's arithmetic on the three loads. -/
def outTile (x : Vec F S2048x32 .f32) (w : Vec F S32x16 .f32) (b : Vec F S1x16 .f32) : Vec F S2048x16 .f32 :=
  View.canon [⟨boxO, k2_pay1 (View.ld x boxX) (View.ld w boxW) (View.ld b boxB)⟩]

/-- That store covers the tile. -/
theorem store_covers (p : Vec F S2048x16 .f32) (y : S2048x16.Idx) :
    ∃ pc ∈ ([⟨boxO, p⟩] : List (View.Piece (Elt F) S2048x16 .f32)), y ∈ pc.1.set :=
  View.cover_of_tiled [⟨boxO, p⟩] S2048x16.size (by rfl) y

/-! ## The body on any staging memrefs -/

set_option maxHeartbeats 1000000 in
/-- From the three inputs' memrefs at read contents `x`, `w`, `b` and the output's at anything, the body runs to the
    inputs untouched and the output at `outTile x w b`. -/
theorem body_runs (c : Dev nD) (E : Set ℕ) (i : grid2.Coords)
    (arg1 : Memref sig .tc .vmem S2048x32 .f32) (harg1 : arg1.IsWhole) (arg2 : Memref sig .tc .vmem S32x16 .f32) (harg2 : arg2.IsWhole)
    (arg3 : Memref sig .tc .vmem S1x16 .f32) (harg3 : arg3.IsWhole) (arg4 : Memref sig .tc .vmem S2048x16 .f32) (harg4 : arg4.IsWhole)
    (x : Vec F S2048x32 .f32) (w : Vec F S32x16 .f32) (b : Vec F S1x16 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outTile x w b)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The pipeline's proof data -/

/-- The arrays as the region finds them; after the body at tile `t` each input's buffer still at its block and the
    output's at `outTile` of the three; the invariant the scoped rest and the generator register, untouched; nothing
    owed; every array held whole. -/
def dat (c : Dev nD) : Dat τ (Elt F) Unit ℕ (Pipeline.UD sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = tile V c 0 t := by dsimp only [dat]
theorem after_weight (c : Dev nD) (t : Fin cfg2.N) : (dat V c).after 1 t = tile V c 1 t := by dsimp only [dat]
theorem after_bias (c : Dev nD) (t : Fin cfg2.N) : (dat V c).after 2 t = tile V c 2 t := by dsimp only [dat]
theorem after_out (c : Dev nD) (t : Fin cfg2.N) :
    (dat V c).after 3 t = outTile (tile V c 0 t) (tile V c 1 t) (tile V c 2 t) := by dsimp only [dat]

theorem before_rows (c : Dev nD) (t : Fin cfg2.N) (d) : (dat V c).before 0 t d = tile V c 0 t :=
  rows_found V (dat V c) (dat_A V c 0) (after_rows V c) t d
theorem before_weight (c : Dev nD) (t : Fin cfg2.N) (d) : (dat V c).before 1 t d = tile V c 1 t :=
  weight_found V (dat V c) (dat_A V c 1) (after_weight V c) t d
theorem before_bias (c : Dev nD) (t : Fin cfg2.N) (d) : (dat V c).before 2 t d = tile V c 2 t :=
  bias_found V (dat V c) (dat_A V c 2) (after_bias V c) t d

/-! ## The body obligation -/

/-- What the body is called with at tile `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (body_runs c Set.univ (grid2.coords t) _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every tile. -/
theorem body_obligation (c : Dev nD) : BodyObligation (dat (F := F) V c) (defs₀ (F := F)) Variants.none () Set.univ := fun t => by
  rw [bigSep_W2, bigSep_W2]
  exact body_at V c t

end Cert.KernelIdeal.Layer2

end
-- ==== Proof.KI.Decoder.lean ====
/-
  The decoder, z · zᵀ, one 1536 × 1536 tile of the result at a time (an 8 × 8 grid of tiles).
  The region is entered with the core's buffers at contents `V`. Tile `(i, j)` is computed from row block `i` and row
  block `j` of the SAME array `z`: the pipeline reads that array through two input windows, so each window holds
  it at one half of the share (the left half for the row blocks, the right half for the column blocks), and the
  output array is held whole. Each input's staging buffer holds, at every tile, the block its index map names,
  fetched anew or not; the body overwrites the whole output tile by one store.
-/
import proofs.«110736_j70712341561937_1_alg».proof.Proof.Gen.KernelIdeal.Launch
import proofs.«110736_j70712341561937_1_alg».proof.Proof.Gen.KernelIdeal.Skeleton
import proofs.«110736_j70712341561937_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Decoder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks the inputs' staging buffers hold -/

/-- Block `t` of window `w`'s array, as the region finds the array. -/
def tile (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block (refetched only when the tile's row changes): found at every tile. -/
theorem rows_found {c : Dev nD} (dat : Dat τ (Elt F) Unit ℕ (Pipeline.UD sig nD τ) ℕ cfg3 c) (hA : dat.A 0 = V c (Pipeline.arrRef spec3 0))
    (hkeep : ∀ t, dat.after 0 t = tile V c 0 t) (t : Fin cfg3.N) (d) : dat.before 0 t d = tile V c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)

/-- The column block (refetched at every tile): found at every tile. -/
theorem cols_found {c : Dev nD} (dat : Dat τ (Elt F) Unit ℕ (Pipeline.UD sig nD τ) ℕ cfg3 c) (hA : dat.A 1 = V c (Pipeline.arrRef spec3 1))
    (hkeep : ∀ t, dat.after 1 t = tile V c 1 t) (t : Fin cfg3.N) (d) : dat.before 1 t d = tile V c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the output tile -/

abbrev boxZ : Rect S1536x16 := Rect.unit (s := S1536x16) ![0, 0] S1536x16.size inb_S1536x16_S1536x16_0_0
abbrev boxO : Rect S1536x1536 := Rect.unit (s := S1536x1536) ![0, 0] S1536x1536.size inb_S1536x1536_S1536x1536_0_0

/-- The output tile after the body: its one store, over the whole tile, of the body's product of the two loads. -/
def outTile (a : Vec F S1536x16 .f32) (b : Vec F S1536x16 .f32) : Vec F S1536x1536 .f32 :=
  View.canon [⟨boxO, k3_pay1 (View.ld a boxZ) (View.ld b boxZ)⟩]

/-- That store covers the tile. -/
theorem store_covers (p : Vec F S1536x1536 .f32) (y : S1536x1536.Idx) :
    ∃ pc ∈ ([⟨boxO, p⟩] : List (View.Piece (Elt F) S1536x1536 .f32)), y ∈ pc.1.set :=
  View.cover_of_tiled [⟨boxO, p⟩] S1536x1536.size (by rfl) y

/-! ## The body on any staging memrefs -/

set_option maxHeartbeats 1000000 in
/-- From the two inputs' memrefs at read contents `a`, `b` and the output's at anything, the body runs to the inputs
    untouched and the output at `outTile a b`. -/
theorem body_runs (c : Dev nD) (E : Set ℕ) (i : grid3.Coords)
    (arg2 : Memref sig .tc .vmem S1536x16 .f32) (harg2 : arg2.IsWhole) (arg3 : Memref sig .tc .vmem S1536x16 .f32) (harg3 : arg3.IsWhole)
    (arg4 : Memref sig .tc .vmem S1536x1536 .f32) (harg4 : arg4.IsWhole)
    (a : Vec F S1536x16 .f32) (b : Vec F S1536x16 .f32) (K : PUnit → sProp 𝕄) :
    iprop(owns (c : Thread nD τ) arg2 fullShare a ∗ owns (c : Thread nD τ) arg3 fullShare b
        ∗ (∃ d, owns (c : Thread nD τ) arg4 fullShare d)
        ∗ (iprop(owns (c : Thread nD τ) arg2 fullShare a ∗ owns (c : Thread nD τ) arg3 fullShare b
            ∗ owns (c : Thread nD τ) arg4 fullShare (outTile a b)) -∗ K ⟨⟩))
      ⊢ wp frame (wpE (defs₀ (F := F)) Variants.none c none) E (cc3__zzt_kernel i arg2 harg2 arg3 harg3 arg4 harg4) K := by
  simp only [cc3__zzt_kernel_eq_skeleton]; unfold cc3__zzt_kernel_skel
  unfold owns
  iintro ⟨⟨%f1, %hf1, H1⟩, ⟨%f2, %hf2, H2⟩, ⟨%d4, %f4, -, H4⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (store_covers _)

/-! ## The pipeline's proof data -/

/-- The arrays as the region finds them; after the body at tile `t` each input's buffer still at its block and the
    output's at `outTile` of the two; the invariant the scoped rest and the generator register, untouched; nothing
    owed; the one input array split between its two windows, half the share each. -/
def dat (c : Dev nD) : Dat τ (Elt F) Unit ℕ (Pipeline.UD sig nD τ) ℕ cfg3 c where
  A w := V c (Pipeline.arrRef spec3 w)
  after w t := match w with
    | ⟨0, _⟩ => tile V c 0 t
    | ⟨1, _⟩ => tile V c 1 t
    | ⟨2, _⟩ => outTile (tile V c 0 t) (tile V c 1 t)
  Φ _ := Pipeline.ΦA spec3 c
  q w := match w with
    | ⟨0, _⟩ => fullShare.left
    | ⟨1, _⟩ => fullShare.right
    | ⟨2, _⟩ => fullShare
  owed _ := 0

theorem dat_A (c : Dev nD) (w : Fin cfg3.W) : (dat V c).A w = V c (Pipeline.arrRef spec3 w) := by
  dsimp only [dat]

theorem after_rows (c : Dev nD) (t : Fin cfg3.N) : (dat V c).after 0 t = tile V c 0 t := by dsimp only [dat]
theorem after_cols (c : Dev nD) (t : Fin cfg3.N) : (dat V c).after 1 t = tile V c 1 t := by dsimp only [dat]
theorem after_out (c : Dev nD) (t : Fin cfg3.N) :
    (dat V c).after 2 t = outTile (tile V c 0 t) (tile V c 1 t) := by dsimp only [dat]

theorem before_rows (c : Dev nD) (t : Fin cfg3.N) (d) : (dat V c).before 0 t d = tile V c 0 t :=
  rows_found V (dat V c) (dat_A V c 0) (after_rows V c) t d
theorem before_cols (c : Dev nD) (t : Fin cfg3.N) (d) : (dat V c).before 1 t d = tile V c 1 t :=
  cols_found V (dat V c) (dat_A V c 1) (after_cols V c) t d

/-- The shares: the two readers of `z` hold a half each, the output is held whole. -/
theorem share_rows (c : Dev nD) : (dat V c).share 0 = fullShare.left := rfl
theorem share_cols (c : Dev nD) : (dat V c).share 1 = fullShare.right := rfl
theorem share_out (c : Dev nD) : (dat V c).share 2 = fullShare := rfl

/-! ## The body obligation -/

/-- What the body is called with at tile `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_rows, before_cols]
  rw [show (dat V c).Φ t.succ = (dat V c).Φ t.castSucc from rfl,
    show (dat V c).owesAt () t.succ = (dat V c).owesAt () t.castSucc from rfl,
    after_rows, after_cols, after_out]
  iintro ⟨HΦ, Ho, ⟨%d0, H0⟩, ⟨%d1, H1⟩, ⟨%d2, H2⟩⟩
  iapply (body_runs c Set.univ (grid3.coords t) _ _ _ _ _ _ (tile V c 0 t) (tile V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every tile. -/
theorem body_obligation (c : Dev nD) : BodyObligation (dat (F := F) V c) (defs₀ (F := F)) Variants.none () Set.univ := fun t => by
  rw [bigSep_W3, bigSep_W3]
  exact body_at V c t

end Cert.KernelIdeal.Decoder

end
-- ==== Proof.KI.Segs.lean ====
/-
  The four kernel regions as segments of @main.

  Between two items of @main the core holds every unscoped buffer whole at a valuation. Reading @main from the top:
  five stretches of host operations (the degree norms, the first aggregation), the first dense layer, a stretch (the
  second aggregation), the mean head, one reshape, the log-variance head, the decoder. A region changes only its
  output array; what it leaves there is the pipeline's fold of its tiles' write-backs. The valuations below name
  those contents one region after the other, and each region's record says: entered from the valuation before it,
  left at the valuation after it; its arrays are split out of the unscoped buffers at entry and put back at exit;
  the generator register passes through the body's invariant; nothing is owed; the kernels have no semaphores of
  their own.
-/
import proofs.«110736_j70712341561937_1_alg».proof.Proof.KI.Layer0
import proofs.«110736_j70712341561937_1_alg».proof.Proof.KI.Layer1
import proofs.«110736_j70712341561937_1_alg».proof.Proof.KI.Layer2
import proofs.«110736_j70712341561937_1_alg».proof.Proof.KI.Decoder
import proofs.«110736_j70712341561937_1_alg».proof.Proof.Gen.KernelIdeal.Regions

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents between items -/

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- What the first dense layer leaves in its output array. -/
def hidden (c : Dev nD) : Buf (Elt F) ((c : Thread nD τ).loc main_v36) := (Layer0.dat (atTc (V5 m)) c).arrAt 3 cfg0.N
/-- After the first dense layer. -/
def W6 (c : Dev nD) : Valuation τ sig (Elt F) := Function.update (V5 m c) main_v36 (hidden m c)
/-- After the second aggregation. -/
def X7 (c : Dev nD) : Valuation τ sig (Elt F) := StableHlo.after hostOps1 (W6 m c)
/-- What the mean head leaves in its output array. -/
def mean (c : Dev nD) : Buf (Elt F) ((c : Thread nD τ).loc main_v54) := (Layer1.dat (atTc (X7 m)) c).arrAt 3 cfg1.N
/-- After the mean head. -/
def W8 (c : Dev nD) : Valuation τ sig (Elt F) := Function.update (X7 m c) main_v54 (mean m c)
/-- After the reshape of the last bias. -/
def X9 (c : Dev nD) : Valuation τ sig (Elt F) := StableHlo.after hostOps2 (W8 m c)
/-- What the log-variance head leaves in its output array. -/
def logvar (c : Dev nD) : Buf (Elt F) ((c : Thread nD τ).loc main_v56) := (Layer2.dat (atTc (X9 m)) c).arrAt 3 cfg2.N
/-- After the log-variance head. -/
def W10 (c : Dev nD) : Valuation τ sig (Elt F) := Function.update (X9 m c) main_v56 (logvar m c)
/-- What the decoder leaves in its output array. -/
def logits (c : Dev nD) : Buf (Elt F) ((c : Thread nD τ).loc main_v57) := (Decoder.dat (atTc (W10 m)) c).arrAt 2 cfg3.N
/-- After the decoder: the end of @main. -/
def W11 (c : Dev nD) : Valuation τ sig (Elt F) := Function.update (W10 m c) main_v57 (logits m c)

/-- What each region leaves, as the family of unknowns the conditional frame is stated over. -/
def outs : Outs (F := F) := fun J r c =>
  match J with
  | 6 => W6 m c r
  | 8 => W8 m c r
  | 10 => W10 m c r
  | 11 => W11 m c r
  | _ => V0 m c r

theorem V6_eq (c : Dev nD) : V6 m (outs m) c = W6 m c := by
  show Function.update (V5 m c) main_v36 (W6 m c main_v36) = W6 m c
  unfold W6; rw [Function.update_self]
theorem V7_eq (c : Dev nD) : V7 m (outs m) c = X7 m c := by
  show StableHlo.after hostOps1 (V6 m (outs m) c) = X7 m c
  rw [V6_eq]; rfl
theorem V8_eq (c : Dev nD) : V8 m (outs m) c = W8 m c := by
  show Function.update (V7 m (outs m) c) main_v54 (W8 m c main_v54) = W8 m c
  rw [V7_eq]; unfold W8; rw [Function.update_self]
theorem V9_eq (c : Dev nD) : V9 m (outs m) c = X9 m c := by
  show StableHlo.after hostOps2 (V8 m (outs m) c) = X9 m c
  rw [V8_eq]; rfl
theorem V10_eq (c : Dev nD) : V10 m (outs m) c = W10 m c := by
  show Function.update (V9 m (outs m) c) main_v56 (W10 m c main_v56) = W10 m c
  rw [V9_eq]; unfold W10; rw [Function.update_self]
theorem V11_eq (c : Dev nD) : V11 m (outs m) c = W11 m c := by
  show Function.update (V10 m (outs m) c) main_v57 (W11 m c main_v57) = W11 m c
  rw [V10_eq]; unfold W11; rw [Function.update_self]

/-! ## The proof data family and what rides beside the buffers -/

/-- Every pipeline's proof data, each at its region's entry contents. -/
def pdats : (p : Fin 4) → (c : Dev nD) → Dat τ (Elt F) Unit ℕ (Pipeline.UD sig nD τ) ℕ (cfgs p) c
  | ⟨0, _⟩ => fun c => Layer0.dat (atTc (V5 m)) c
  | ⟨1, _⟩ => fun c => Layer1.dat (atTc (X7 m)) c
  | ⟨2, _⟩ => fun c => Layer2.dat (atTc (X9 m)) c
  | ⟨3, _⟩ => fun c => Decoder.dat (atTc (W10 m)) c

abbrev noVariants : Variants := Variants.none
/-- No core owes another anything: no level is assigned. -/
abbrev L : GSem nD τ sig → Finset Unit := fun _ => ∅
abbrev lv : GSem nD τ sig → Unit → ℕ := fun _ _ => 0
/-- Beside the buffers: the generator register at some state and the core owing nothing. -/
abbrev rest (c : Dev nD) : sProp 𝕄 := iprop((∃ r, prngReg c r) ∗ ∃ W, owes (c : Thread nD τ) (0 : CellTallies nD τ sig Unit) W)

/-- `main_v36` apart, nothing changes across region 0. -/
theorem W6_of (c : Dev nD) (r : Ref sig .tc) (h : r ≠ main_v36) : W6 m c r = V5 m c r := by
  unfold W6; exact Function.update_of_ne (StableHlo.devRef_ne_of_ne h) _ _

/-- At region 0's exit each of its arrays holds what the pipeline leaves: an input what it held at entry, the output
    the fold of the tiles' write-backs. -/
theorem exit0_arrays (c : Dev nD) : ∀ w : Fin cfg0.W, (pdats m 0 c).arrAt w cfg0.N = atTc (W6 m) c (Pipeline.arrRef spec0 w)
  | ⟨0, _⟩ => by
    show (Layer0.dat (atTc (V5 m)) c).arrAt 0 cfg0.N = W6 m c main_v34
    rw [(Layer0.dat (atTc (V5 m)) c).arrAt_in 0 rfl cfg0.N, W6_of m c main_v34 (by decide)]
    exact Layer0.dat_A (atTc (V5 m)) c 0
  | ⟨1, _⟩ => by
    show (Layer0.dat (atTc (V5 m)) c).arrAt 1 cfg0.N = W6 m c main_arg3
    rw [(Layer0.dat (atTc (V5 m)) c).arrAt_in 1 rfl cfg0.N, W6_of m c main_arg3 (by decide)]
    exact Layer0.dat_A (atTc (V5 m)) c 1
  | ⟨2, _⟩ => by
    show (Layer0.dat (atTc (V5 m)) c).arrAt 2 cfg0.N = W6 m c main_v35
    rw [(Layer0.dat (atTc (V5 m)) c).arrAt_in 2 rfl cfg0.N, W6_of m c main_v35 (by decide)]
    exact Layer0.dat_A (atTc (V5 m)) c 2
  | ⟨3, _⟩ => by
    show (Layer0.dat (atTc (V5 m)) c).arrAt 3 cfg0.N = Function.update (V5 m c) main_v36 _ main_v36
    rw [Function.update_self]; rfl

/-- and every other buffer what it held at entry. -/
theorem exit0_rest (c : Dev nD) (b : Ref sig .tc) (hb : b ∉ Finset.univ.image (Pipeline.arrRef spec0)) :
    atTc (W6 m) c b = atTc (V5 m) c b :=
  W6_of m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- The first dense layer: entered with the buffers as the fifth host stretch leaves them, left with the hidden activations in its output array. -/
def reg0 : Pipeline.RegionSeg (pcfgs (F := F)) adm (pdats m) () defs₀ noVariants L lv 0 where
  win := launch0.win.to₀
  block_pos := launch0.block_pos
  stage_whole := launch0.stage_whole
  K := PEmpty
  osem k := k.elim
  ho := Pipeline.OwnSemFacts.none _
  hbody c := (Layer0.body_obligation (atTc (V5 m)) c).loose
  hwaits := Pipeline.hwaits_of_owed_zero _ _ _ _ L lv 0 fun _ _ => rfl
  pre c := iprop(StableHlo.held (c : Thread nD τ) (Pipeline.ucRefs τ sig) (V5 m c) ∗ rest c)
  post c := iprop(StableHlo.held (c : Thread nD τ) (Pipeline.ucRefs τ sig) (W6 m c) ∗ rest c)
  X c := iprop(∃ r, prngReg c r)
  Y c := iprop(∃ r, prngReg c r)
  Z c := Pipeline.unscopedRest (Ix := Unit) (Name := ℕ) (U := Pipeline.UD sig nD τ) (Lvl := ℕ) spec0 c (atTc (V5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (atTc (V5 m) c) (atTc (W6 m) c) ((pdats m 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- `main_v54` apart, nothing changes across region 1. -/
theorem W8_of (c : Dev nD) (r : Ref sig .tc) (h : r ≠ main_v54) : W8 m c r = X7 m c r := by
  unfold W8; exact Function.update_of_ne (StableHlo.devRef_ne_of_ne h) _ _

/-- At region 1's exit each of its arrays holds what the pipeline leaves: an input what it held at entry, the output
    the fold of the tiles' write-backs. -/
theorem exit1_arrays (c : Dev nD) : ∀ w : Fin cfg1.W, (pdats m 1 c).arrAt w cfg1.N = atTc (W8 m) c (Pipeline.arrRef spec1 w)
  | ⟨0, _⟩ => by
    show (Layer1.dat (atTc (X7 m)) c).arrAt 0 cfg1.N = W8 m c main_v52
    rw [(Layer1.dat (atTc (X7 m)) c).arrAt_in 0 rfl cfg1.N, W8_of m c main_v52 (by decide)]
    exact Layer1.dat_A (atTc (X7 m)) c 0
  | ⟨1, _⟩ => by
    show (Layer1.dat (atTc (X7 m)) c).arrAt 1 cfg1.N = W8 m c main_arg5
    rw [(Layer1.dat (atTc (X7 m)) c).arrAt_in 1 rfl cfg1.N, W8_of m c main_arg5 (by decide)]
    exact Layer1.dat_A (atTc (X7 m)) c 1
  | ⟨2, _⟩ => by
    show (Layer1.dat (atTc (X7 m)) c).arrAt 2 cfg1.N = W8 m c main_v53
    rw [(Layer1.dat (atTc (X7 m)) c).arrAt_in 2 rfl cfg1.N, W8_of m c main_v53 (by decide)]
    exact Layer1.dat_A (atTc (X7 m)) c 2
  | ⟨3, _⟩ => by
    show (Layer1.dat (atTc (X7 m)) c).arrAt 3 cfg1.N = Function.update (X7 m c) main_v54 _ main_v54
    rw [Function.update_self]; rfl

/-- and every other buffer what it held at entry. -/
theorem exit1_rest (c : Dev nD) (b : Ref sig .tc) (hb : b ∉ Finset.univ.image (Pipeline.arrRef spec1)) :
    atTc (W8 m) c b = atTc (X7 m) c b :=
  W8_of m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- The mean head: entered after the second aggregation, left with the mean in its output array. -/
def reg1 : Pipeline.RegionSeg (pcfgs (F := F)) adm (pdats m) () defs₀ noVariants L lv 1 where
  win := launch1.win.to₀
  block_pos := launch1.block_pos
  stage_whole := launch1.stage_whole
  K := PEmpty
  osem k := k.elim
  ho := Pipeline.OwnSemFacts.none _
  hbody c := (Layer1.body_obligation (atTc (X7 m)) c).loose
  hwaits := Pipeline.hwaits_of_owed_zero _ _ _ _ L lv 1 fun _ _ => rfl
  pre c := iprop(StableHlo.held (c : Thread nD τ) (Pipeline.ucRefs τ sig) (X7 m c) ∗ rest c)
  post c := iprop(StableHlo.held (c : Thread nD τ) (Pipeline.ucRefs τ sig) (W8 m c) ∗ rest c)
  X c := iprop(∃ r, prngReg c r)
  Y c := iprop(∃ r, prngReg c r)
  Z c := Pipeline.unscopedRest (Ix := Unit) (Name := ℕ) (U := Pipeline.UD sig nD τ) (Lvl := ℕ) spec1 c (atTc (X7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (atTc (X7 m) c) (atTc (W8 m) c) ((pdats m 1 c).arrAt · cfg1.N) (exit1_arrays m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- `main_v56` apart, nothing changes across region 2. -/
theorem W10_of (c : Dev nD) (r : Ref sig .tc) (h : r ≠ main_v56) : W10 m c r = X9 m c r := by
  unfold W10; exact Function.update_of_ne (StableHlo.devRef_ne_of_ne h) _ _

/-- At region 2's exit each of its arrays holds what the pipeline leaves: an input what it held at entry, the output
    the fold of the tiles' write-backs. -/
theorem exit2_arrays (c : Dev nD) : ∀ w : Fin cfg2.W, (pdats m 2 c).arrAt w cfg2.N = atTc (W10 m) c (Pipeline.arrRef spec2 w)
  | ⟨0, _⟩ => by
    show (Layer2.dat (atTc (X9 m)) c).arrAt 0 cfg2.N = W10 m c main_v52
    rw [(Layer2.dat (atTc (X9 m)) c).arrAt_in 0 rfl cfg2.N, W10_of m c main_v52 (by decide)]
    exact Layer2.dat_A (atTc (X9 m)) c 0
  | ⟨1, _⟩ => by
    show (Layer2.dat (atTc (X9 m)) c).arrAt 1 cfg2.N = W10 m c main_arg7
    rw [(Layer2.dat (atTc (X9 m)) c).arrAt_in 1 rfl cfg2.N, W10_of m c main_arg7 (by decide)]
    exact Layer2.dat_A (atTc (X9 m)) c 1
  | ⟨2, _⟩ => by
    show (Layer2.dat (atTc (X9 m)) c).arrAt 2 cfg2.N = W10 m c main_v55
    rw [(Layer2.dat (atTc (X9 m)) c).arrAt_in 2 rfl cfg2.N, W10_of m c main_v55 (by decide)]
    exact Layer2.dat_A (atTc (X9 m)) c 2
  | ⟨3, _⟩ => by
    show (Layer2.dat (atTc (X9 m)) c).arrAt 3 cfg2.N = Function.update (X9 m c) main_v56 _ main_v56
    rw [Function.update_self]; rfl

/-- and every other buffer what it held at entry. -/
theorem exit2_rest (c : Dev nD) (b : Ref sig .tc) (hb : b ∉ Finset.univ.image (Pipeline.arrRef spec2)) :
    atTc (W10 m) c b = atTc (X9 m) c b :=
  W10_of m c b fun e => hb (e ▸ Finset.mem_image.mpr ⟨3, Finset.mem_univ _, rfl⟩)

-- a library lemma stated over the pinned configuration unifies with the printed one only when unification may unfold
-- plain definitions in a metavariable's type
set_option backward.isDefEq.respectTransparency.types false in
/-- The log-variance head: entered after the last bias is reshaped, left with the log-variance in its output array. -/
def reg2 : Pipeline.RegionSeg (pcfgs (F := F)) adm (pdats m) () defs₀ noVariants L lv 2 where
  win := launch2.win.to₀
  block_pos := launch2.block_pos
  stage_whole := launch2.stage_whole
  K := PEmpty
  osem k := k.elim
  ho := Pipeline.OwnSemFacts.none _
  hbody c := (Layer2.body_obligation (atTc (X9 m)) c).loose
  hwaits := Pipeline.hwaits_of_owed_zero _ _ _ _ L lv 2 fun _ _ => rfl
  pre c := iprop(StableHlo.held (c : Thread nD τ) (Pipeline.ucRefs τ sig) (X9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := Pipeline.UD sig nD τ) (Lvl := ℕ) spec2 c (atTc (X9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (atTc (X9 m) c) (atTc (W10 m) c) ((pdats m 2 c).arrAt · cfg2.N) (exit2_arrays m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- `main_v57` apart, nothing changes across the decoder. -/
theorem W11_of (c : Dev nD) (r : Ref sig .tc) (h : r ≠ main_v57) : W11 m c r = W10 m c r := by
  unfold W11; exact Function.update_of_ne (StableHlo.devRef_ne_of_ne h) _ _

/-- The decoder's three windows stand on two arrays: the mean (read through two windows) and the logits. -/
theorem decoder_refs : Finset.univ.image (Pipeline.arrRef spec3) = {main_v54, main_v57} := by decide

/-- What the decoder's arrays hold before the first tile and after the last: the mean as entered, under both of its
    windows; the logits as entered, then as the tiles' write-backs leave them. -/
theorem dec_rows_at (c : Dev nD) (n : Nat) : (Decoder.dat (atTc (W10 m)) c).arrAt 0 n = W10 m c main_v54 :=
  ((Decoder.dat (atTc (W10 m)) c).arrAt_in 0 rfl n).trans (Decoder.dat_A (atTc (W10 m)) c 0)
theorem dec_cols_at (c : Dev nD) (n : Nat) : (Decoder.dat (atTc (W10 m)) c).arrAt 1 n = W10 m c main_v54 :=
  ((Decoder.dat (atTc (W10 m)) c).arrAt_in 1 rfl n).trans (Decoder.dat_A (atTc (W10 m)) c 1)
theorem dec_out_at0 (c : Dev nD) : (Decoder.dat (atTc (W10 m)) c).arrAt 2 0 = W10 m c main_v57 :=
  Decoder.dat_A (atTc (W10 m)) c 2

/-- ENTRY, the arrays' part: the mean's buffer, whole at the full share, is split between its two windows, the left
    half of the share to the row blocks' and the right half to the column blocks'; the logits' buffer goes whole to
    the output window. -/
theorem decoder_arrays_in (c : Dev nD) :
    (Pipeline.arrBufs spec3 c (atTc (W10 m) c) : sProp 𝕄) ⊢ (pdats m 3 c).arrays ((pdats m 3 c).arrAt · 0) := by
  show (Pipeline.arrBufs spec3 c (atTc (W10 m) c) : sProp 𝕄)
    ⊢ (Decoder.dat (atTc (W10 m)) c).arrays ((Decoder.dat (atTc (W10 m)) c).arrAt · 0)
  unfold Pipeline.arrBufs Pipeline.Dat.arrays
  rw [decoder_refs, BI.bigSep_insert (by decide), BI.bigSep_singleton, bigSep_W3]
  rw [(arr_whole3 0).set_eq_univ, (arr_whole3 2).set_eq_univ, Decoder.share_rows, Decoder.share_cols, Decoder.share_out]
  beta_reduce
  rw [dec_rows_at, dec_cols_at, dec_out_at0]
  exact (sep_mono (pointsTo_share (PosShare.mem_left_op_right fullShare)).1 .rfl).trans sep_assoc.1

/-- EXIT, the arrays' part: the two halves of the mean's buffer, still at the contents entered with, rejoin to the
    whole; the logits' buffer holds the fold of the tiles. -/
theorem decoder_arrays_out (c : Dev nD) :
    (pdats m 3 c).arrays ((pdats m 3 c).arrAt · cfg3.N) ⊢ (Pipeline.arrBufs spec3 c (atTc (W11 m) c) : sProp 𝕄) := by
  show (Decoder.dat (atTc (W10 m)) c).arrays ((Decoder.dat (atTc (W10 m)) c).arrAt · cfg3.N)
    ⊢ (Pipeline.arrBufs spec3 c (atTc (W11 m) c) : sProp 𝕄)
  unfold Pipeline.arrBufs Pipeline.Dat.arrays
  rw [decoder_refs, BI.bigSep_insert (by decide), BI.bigSep_singleton, bigSep_W3]
  rw [(arr_whole3 0).set_eq_univ, (arr_whole3 2).set_eq_univ, Decoder.share_rows, Decoder.share_cols, Decoder.share_out]
  beta_reduce
  rw [dec_rows_at, dec_cols_at]
  rw [show atTc (W11 m) c main_v54 = W10 m c main_v54 from W11_of m c main_v54 (by decide),
    show atTc (W11 m) c main_v57 = (Decoder.dat (atTc (W10 m)) c).arrAt 2 cfg3.N from by
      show Function.update (W10 m c) main_v57 _ main_v57 = _
      rw [Function.update_self]; rfl]
  exact sep_assoc.2.trans (sep_mono (pointsTo_share (PosShare.mem_left_op_right fullShare)).2 .rfl)

/-- Off the decoder's two arrays the buffers are as entered. -/
theorem decoder_rest (c : Dev nD) :
    (Pipeline.unscopedRest (Ix := Unit) (Name := ℕ) (U := Pipeline.UD sig nD τ) (Lvl := ℕ) spec3 c (atTc (W10 m) c) : sProp 𝕄)
      = Pipeline.unscopedRest spec3 c (atTc (W11 m) c) := by
  unfold Pipeline.unscopedRest
  exact bigSep_congr fun b hb => by
    rw [show atTc (W11 m) c b = atTc (W10 m) c b from
      W11_of m c b fun e => (Finset.mem_sdiff.mp hb).2 (e ▸ Finset.mem_image.mpr ⟨2, Finset.mem_univ _, rfl⟩)]

-- a library lemma stated over the pinned configuration unifies with the printed one only when unification may unfold
-- plain definitions in a metavariable's type
set_option backward.isDefEq.respectTransparency.types false in
/-- The decoder: entered after the log-variance head, left with the logits in its output array. The mean's array is
    read through two windows, so it is not among "distinct arrays": its buffer is split by share at entry and
    rejoined at exit. -/
def reg3 : Pipeline.RegionSeg (pcfgs (F := F)) adm (pdats m) () defs₀ noVariants L lv 3 where
  win := winFacts₀3
  block_pos := block_pos3
  stage_whole := stage_whole3
  K := PEmpty
  osem k := k.elim
  ho := Pipeline.OwnSemFacts.none _
  hbody c := (Decoder.body_obligation (atTc (W10 m)) c).loose
  hwaits := Pipeline.hwaits_of_owed_zero _ _ _ _ L lv 3 fun _ _ => rfl
  pre c := iprop(StableHlo.held (c : Thread nD τ) (Pipeline.ucRefs τ sig) (W10 m c) ∗ rest c)
  post c := iprop(StableHlo.held (c : Thread nD τ) (Pipeline.ucRefs τ sig) (W11 m c) ∗ rest c)
  X c := iprop(∃ r, prngReg c r)
  Y c := iprop(∃ r, prngReg c r)
  Z c := Pipeline.unscopedRest (Ix := Unit) (Name := ℕ) (U := Pipeline.UD sig nD τ) (Lvl := ℕ) spec3 c (atTc (W10 m) c)
  hentry c := by
    rw [Pipeline.ownSems0_none]
    have hsplit := Pipeline.unscopedBufs_split₀ (Ix := Unit) (Name := ℕ) (U := Pipeline.UD sig nD τ) (Lvl := ℕ)
      (Pipeline.pin (pcfgs (F := F)) adm) 3 winFacts₀3.arr_unscoped c (atTc (W10 m) c)
    rw [Pipeline.unscopedBufs_held] at hsplit
    iintro ⟨⟨Hub, Hp, HO⟩, -, -⟩
    ihave H := (Entails.of_eq hsplit) $$ Hub
    icases H with ⟨Ha, Hrest⟩
    ihave Ha := (decoder_arrays_in m c) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_split₀ (Ix := Unit) (Name := ℕ) (U := Pipeline.UD sig nD τ) (Lvl := ℕ)
      (Pipeline.pin (pcfgs (F := F)) adm) 3 winFacts₀3.arr_unscoped c (atTc (W11 m) c)
    rw [Pipeline.unscopedBufs_held] at hjoin
    rw [decoder_rest m c]
    iintro ⟨Ha, HO, HY, Hrest⟩
    ihave Ha := (decoder_arrays_out m c) $$ Ha
    imodintro
    isplitl [Ha Hrest]
    · iapply (Entails.of_eq hjoin.symm); isplitl [Ha] <;> iassumption
    isplitl [HY]; · iexact HY
    unfold Pipeline.Dat.owesAt Pipeline.owesWithin
    icases HO with ⟨%W, -, HO⟩; iexists W; iexact HO

end Cert.KernelIdeal.Segs

end
-- ==== Proof.KI.Frame.lean ====
/-
  The frame: every weakly fair execution of @main terminates, nothing faults, and the nine argument arrays end as
  launched. The host side (the stretches of host operations, their chaining, the launch's first state, the
  read-back of the arguments) is the generated conditional frame; what is supplied here is what that leaves open:
  the four regions' records, entered and left at its valuations; the launch element of the staging cells alone; the
  rest state beside the buffers (the generator register at some state, nothing owed), the same between any two items.
-/
import proofs.«110736_j70712341561937_1_alg».proof.Proof.KI.Segs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The launch's ghost element: the staging cells' alone, no resource of the certificate's own beside it. -/
abbrev launchElt : Pipeline.UD sig nD τ :=
  (initOf (Pipeline.cells cfgs cellOf_inj) (Pipeline.launchToks cfgs cellOf_inj), 1)

theorem launch_elt : (ownU (launchElt) : sProp 𝕄)
    ⊢ |={Set.univ}=> iprop(BI.own (embL (initOf (Pipeline.cells cfgs cellOf_inj) (Pipeline.launchToks cfgs cellOf_inj))) ∗ bigSep Finset.univ fun _ : Dev nD => (iprop(emp) : sProp 𝕄)) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What the launch deals one core, less its buffers, makes its rest state: the generator register as seeded, the
    core owing nothing. -/
theorem rest_of_launch (ρ : Dev nD → PrngReg) (c : Dev nD) :
    iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))
      ⊢ (Segs.rest (F := F) c : sProp 𝕄) := by
  iintro ⟨-, HO, -, Hp, -⟩
  isplitl [Hp]; · iexists _; iexact Hp
  iexists ∅; iexact HO

/-- On every core at once. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Segs.L Segs.lv)
      ⊢ (|={Set.univ}=> bigSep Finset.univ (fun c : Dev nD => Segs.rest (F := F) c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => Segs.rest (F := F) c) : sProp 𝕄) := bigSep_mono fun c _ => rest_of_launch ρ c
  iintro ⟨H, -⟩
  imodintro
  iapply h1; iexact H

/-- The rest state ends owing nothing. -/
theorem rest_end (c : Dev nD) : Segs.rest (F := F) c ⊢ (iprop(∃ W, owes (c : Thread nD τ) (0 : CellTallies nD τ sig Unit) W) : sProp 𝕄) := by
  iintro ⟨-, HO⟩; iexact HO

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond (m := m) (EP := embL) (ι := ()) (𝒱₀ := Segs.noVariants) (L := Segs.L) (lv := Segs.lv) (hL := fun _ _ => rfl)
    (ρ := ρ) (outs := Segs.outs m) (pdats := Segs.pdats m) (O₀ := 0) (G := fun _ => iprop(emp))
    (u₀ := launchElt) (hu₀ := launch_elt) (E := fun _ c => Segs.rest c) (hE0 := rest_init ρ) (hE4 := rest_end)
    (R0 := Segs.reg0 m) (hpre0 := fun c => .rfl) (hpost0 := fun c => by rw [Segs.V6_eq]; exact .rfl)
    (R1 := Segs.reg1 m) (hpre1 := fun c => by rw [Segs.V7_eq]; exact .rfl) (hpost1 := fun c => by rw [Segs.V8_eq]; exact .rfl)
    (R2 := Segs.reg2 m) (hpre2 := fun c => by rw [Segs.V9_eq]; exact .rfl) (hpost2 := fun c => by rw [Segs.V10_eq]; exact .rfl)
    (R3 := Segs.reg3 m) (hpre3 := fun c => by rw [Segs.V10_eq]; exact .rfl) (hpost3 := fun c => by rw [Segs.V11_eq]; exact .rfl)

end Cert.KernelIdeal.Frame

end
-- ==== Proof.KI.Run.lean ====
/-
  The same launch with the three result buffers named at the end: besides the nine arguments unchanged, every final
  memory holds, in the logits', the mean's and the log-variance's buffers, what the last valuation says.
-/
import proofs.«110736_j70712341561937_1_alg».proof.Proof.KI.Frame
import proofs.«110736_j70712341561937_1_alg».proof.Proof.KI.RunNamed

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.KernelIdeal.Frame

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v57) = V11 m (Segs.outs m) c main_v57
      ∧ r.2.mem ((c.tc : Thread nD τ).loc main_v54) = V11 m (Segs.outs m) c main_v54
      ∧ r.2.mem ((c.tc : Thread nD τ).loc main_v56) = V11 m (Segs.outs m) c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_cond (m := m) (EP := embL) (ι := ()) (𝒱₀ := Segs.noVariants) (L := Segs.L) (lv := Segs.lv) (hL := fun _ _ => rfl)
    (ρ := ρ) (outs := Segs.outs m) (pdats := Segs.pdats m) (O₀ := 0) (G := fun _ => iprop(emp))
    (u₀ := launchElt) (hu₀ := launch_elt) (E := fun _ c => Segs.rest c) (hE0 := rest_init ρ) (hE4 := rest_end)
    (R0 := Segs.reg0 m) (hpre0 := fun c => .rfl) (hpost0 := fun c => by rw [Segs.V6_eq]; exact .rfl)
    (R1 := Segs.reg1 m) (hpre1 := fun c => by rw [Segs.V7_eq]; exact .rfl) (hpost1 := fun c => by rw [Segs.V8_eq]; exact .rfl)
    (R2 := Segs.reg2 m) (hpre2 := fun c => by rw [Segs.V9_eq]; exact .rfl) (hpost2 := fun c => by rw [Segs.V10_eq]; exact .rfl)
    (R3 := Segs.reg3 m) (hpre3 := fun c => by rw [Segs.V10_eq]; exact .rfl) (hpost3 := fun c => by rw [Segs.V11_eq]; exact .rfl)

end Cert.KernelIdeal.Run

end
-- ==== Proof.Spec.lean ====
/-
  What the three results are, as functions of whole arrays over the extended reals.

  A graph-convolution layer is (aggregate, then) an affine map of the rows: row `p` of the result is row `p` of the
  input times the weight matrix plus the bias row; the first layer clamps at zero from below. The decoder is the Gram
  matrix of the rows of the mean: entry `(p, q)` is the inner product of rows `p` and `q`.

  Both programs compute these entry by entry as finite sums in the extended reals, where addition is commutative and
  associative without any finiteness hypothesis, so no precondition is used anywhere below.
-/
import Idealize.ShloMosaic.PureOps.Ideal
import Idealize.ShloMosaic.Lib.ValueIdx

noncomputable section

namespace Cert.Gcn

open Idealize.ShloMosaic Idealize.ShloMosaic.ValueIdx

/-- Row `p` of `x` (12288 × 512) times column `q` of `w` (512 × 32), plus entry `q` of the bias row. -/
def affine1At (x : (⟨2, ![12288, 512]⟩ : Shape).Idx → EReal) (w : (⟨2, ![512, 32]⟩ : Shape).Idx → EReal)
    (b : (⟨2, ![1, 32]⟩ : Shape).Idx → EReal) (p : Fin 12288) (q : Fin 32) : EReal :=
  (∑ k : Fin 512, x (ix2 p k) * w (ix2 k q)) + b (ix2 (0 : Fin 1) q)

/-- The hidden layer: the affine map clamped at zero from below. -/
def hidden (x : (⟨2, ![12288, 512]⟩ : Shape).Idx → EReal) (w : (⟨2, ![512, 32]⟩ : Shape).Idx → EReal)
    (b : (⟨2, ![1, 32]⟩ : Shape).Idx → EReal) : (⟨2, ![12288, 32]⟩ : Shape).Idx → EReal :=
  fun i => max (affine1At x w b (i 0) (i 1)) 0

/-- Row `p` of `h` (12288 × 32) times column `q` of `w` (32 × 16), plus entry `q` of the bias row. -/
def affine2At (h : (⟨2, ![12288, 32]⟩ : Shape).Idx → EReal) (w : (⟨2, ![32, 16]⟩ : Shape).Idx → EReal)
    (b : (⟨2, ![1, 16]⟩ : Shape).Idx → EReal) (p : Fin 12288) (q : Fin 16) : EReal :=
  (∑ k : Fin 32, h (ix2 p k) * w (ix2 k q)) + b (ix2 (0 : Fin 1) q)

/-- A head of the second layer (the mean, or the log-variance): the affine map, no clamp. -/
def head (h : (⟨2, ![12288, 32]⟩ : Shape).Idx → EReal) (w : (⟨2, ![32, 16]⟩ : Shape).Idx → EReal)
    (b : (⟨2, ![1, 16]⟩ : Shape).Idx → EReal) : (⟨2, ![12288, 16]⟩ : Shape).Idx → EReal :=
  fun i => affine2At h w b (i 0) (i 1)

/-- Inner product of rows `p` and `q` of `z` (12288 × 16). -/
def gramAt (z : (⟨2, ![12288, 16]⟩ : Shape).Idx → EReal) (p q : Fin 12288) : EReal :=
  ∑ k : Fin 16, z (ix2 p k) * z (ix2 q k)

/-- The decoder's logits: the Gram matrix of the rows. -/
def gram (z : (⟨2, ![12288, 16]⟩ : Shape).Idx → EReal) : (⟨2, ![12288, 12288]⟩ : Shape).Idx → EReal :=
  fun i => gramAt z (i 0) (i 1)

end Cert.Gcn

end
-- ==== Proof.KI.Layer0Value.lean ====
/-
  The value of the first dense layer's region at the extended reals: after the six tiles have run, the output array
  is the hidden layer h = max (a · W₁ + b₁) 0 of the arrays the region was entered with, as one function of whole arrays.

  Entry (p, q) of a tile's result is the sum over k of (rows tile)(p, k) · W₁(k, q), plus b₁(q), clamped at zero from
  below; the changes of number format on the way are the identity on extended reals. Tile t holds rows
  2048 t … 2048 t + 2047 of the left operand and all of the weight and bias, so what tile t writes back is rows
  2048 t … 2048 t + 2047 of h. Row r lies in tile r / 2048 and 6 · 2048 = 12288, so the six write-backs fill the array.
-/
import proofs.«110736_j70712341561937_1_alg».proof.Proof.KI.Layer0
import proofs.«110736_j70712341561937_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0Value

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

/-! ## The tile's arithmetic at an entry -/

/-! The matrix product contracts axis 1 of the left operand with axis 0 of the right: at output entry i and contraction
index k it reads the left operand at (i 0, k) and the right at (k, i 1). One lemma per operand axis. -/

theorem lhs_row (i : S2048x32.Idx) (k : dot_S2048x512_S512x32_S2048x32_1_0_0_1_n_n.contr.Idx) :
    (dot_S2048x512_S512x32_S2048x32_1_0_0_1_n_n.lhsIdx i k 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
theorem lhs_col (i : S2048x32.Idx) (k : dot_S2048x512_S512x32_S2048x32_1_0_0_1_n_n.contr.Idx) :
    (dot_S2048x512_S512x32_S2048x32_1_0_0_1_n_n.lhsIdx i k 1).val = (k ⟨0, by decide⟩).val :=
  dot_S2048x512_S512x32_S2048x32_1_0_0_1_n_n.lhsIdx_val_of_single rfl i k
theorem rhs_row (i : S2048x32.Idx) (k : dot_S2048x512_S512x32_S2048x32_1_0_0_1_n_n.contr.Idx) :
    (dot_S2048x512_S512x32_S2048x32_1_0_0_1_n_n.rhsIdx i k 0).val = (k ⟨0, by decide⟩).val :=
  dot_S2048x512_S512x32_S2048x32_1_0_0_1_n_n.rhsIdx_val_of_single rfl i k
theorem rhs_col (i : S2048x32.Idx) (k : dot_S2048x512_S512x32_S2048x32_1_0_0_1_n_n.contr.Idx) :
    (dot_S2048x512_S512x32_S2048x32_1_0_0_1_n_n.rhsIdx i k 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl

/-- The product accumulated into zero, at entry (p, q): row p of the left operand against column q of the right. -/
theorem product_apply {φ₁ φ₂ : FTy} (x : FVec Ideal S2048x512 φ₁) (w : FVec Ideal S512x32 φ₂) (p : Fin 2048) (q : Fin 32) :
    matmul dot_S2048x512_S512x32_S2048x32_1_0_0_1_n_n none x w (constant (F := Ideal) S2048x32 .f32 0x00000000#32) (ix2 p q)
      = ∑ j : Fin 512, x (ix2 p j) * w (ix2 j q) := by
  simp only [matmul]
  rw [Ideal.matmul_constant_zero_apply, ← Equiv.sum_comp (ValueIdx.contrEquiv1 dot_S2048x512_S512x32_S2048x32_1_0_0_1_n_n 512 rfl rfl).symm]
  refine Finset.sum_congr rfl fun k _ => ?_
  have hk := ValueIdx.contrEquiv1_symm_val dot_S2048x512_S512x32_S2048x32_1_0_0_1_n_n 512 rfl rfl k
  have el : dot_S2048x512_S512x32_S2048x32_1_0_0_1_n_n.lhsIdx (ix2 p q) ((ValueIdx.contrEquiv1 dot_S2048x512_S512x32_S2048x32_1_0_0_1_n_n 512 rfl rfl).symm k) = ix2 p k := funext fun a => Fin.ext (by
    match a with
    | ⟨0, _⟩ => exact lhs_row _ _
    | ⟨1, _⟩ => exact (lhs_col _ _).trans hk)
  have er : dot_S2048x512_S512x32_S2048x32_1_0_0_1_n_n.rhsIdx (ix2 p q) ((ValueIdx.contrEquiv1 dot_S2048x512_S512x32_S2048x32_1_0_0_1_n_n 512 rfl rfl).symm k) = ix2 k q := funext fun a => Fin.ext (by
    match a with
    | ⟨0, _⟩ => exact (rhs_row _ _).trans hk
    | ⟨1, _⟩ => exact rhs_col _ _)
  rw [el, er]

/-- The tile's arithmetic at entry (p, q): row p of the rows tile against column q of the weight, plus the bias
    row's entry q, clamped at zero from below. The changes of format are the identity on extended reals. -/
theorem payload_apply (x : Vec Ideal S2048x512 .f32) (w : Vec Ideal S512x32 .f32) (b : Vec Ideal S1x32 .f32) (p : Fin 2048) (q : Fin 32) :
    k0_pay1 x w b (ix2 p q) = max ((∑ j : Fin 512, x (ix2 p j) * w (ix2 j q)) + b (ix2 (0 : Fin 1) q)) 0 := by
  unfold k0_pay1
  rw [shapeCast_self, shapeCast_self]
  refine (congrArg₂ max (congrArg₂ (· + ·) (product_apply _ _ p q) (broadcastTo_1b_ab_apply b broadcasts_S1x32_S2048x32 p q))
    Ideal.ofBits_zero_f32).trans ?_
  rfl

/-- The tile's arithmetic at entry (p, q) is the hidden layer's value at entry (r, s) of the whole arrays, once row p
    of the rows tile is row r of the left operand and the weight's column q and the bias's entry q are the whole
    arrays' column s and entry s. -/
theorem tile_entry (X : S12288x512.Idx → EReal) (W : S512x32.Idx → EReal) (B : S1x32.Idx → EReal)
    (x : Vec Ideal S2048x512 .f32) (w : Vec Ideal S512x32 .f32) (b : Vec Ideal S1x32 .f32)
    (p : Fin 2048) (q : Fin 32) (r : Fin 12288) (s : Fin 32)
    (hx : ∀ j : Fin 512, x (ix2 p j) = X (ix2 r j))
    (hw : ∀ j : Fin 512, w (ix2 j q) = W (ix2 j s))
    (hb : b (ix2 (0 : Fin 1) q) = B (ix2 (0 : Fin 1) s)) :
    k0_pay1 x w b (ix2 p q) = max (Cert.Gcn.affine1At X W B r s) 0 := by
  rw [payload_apply, hb]
  unfold Cert.Gcn.affine1At
  exact congrArg (fun z => max (z + B (ix2 (0 : Fin 1) s)) 0) (Finset.sum_congr rfl fun j _ => by rw [hx j, hw j])

/-! ## From tiles to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the six tiles: the rows window and the output window are at block row t, block
    column 0; the weight and the bias row are at block (0, 0) throughout. -/
theorem index_maps : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What tile t writes back is block t of the hidden layer of the arrays the region was entered with. -/
theorem flushed_eq (c : Dev nD) (t : Fin cfg0.N) :
    (Layer0.dat (F := Ideal) V c).flushed 3 t
      = ((cfg0.win 3).blk t).view.read (Elt Ideal) (Cert.Gcn.hidden (V c main_v34) (V c main_arg3) (V c main_v35)) := by
  show (cfg0.win 3).cut (grid0.coords t) ((Layer0.dat V c).after 3 t) = _
  rw [Layer0.after_out]
  unfold Layer0.outTile
  rw [View.canon_unit_zero zero_offsets]
  simp only [View.ld_unit_zero (S := S2048x512) zero_offsets, View.ld_unit_zero (S := S512x32) zero_offsets,
    View.ld_unit_zero (S := S1x32) zero_offsets]
  obtain ⟨e0, e1, e2, e3, e4, e5, e6, e7⟩ := index_maps t
  funext j
  obtain ⟨p, q, rfl⟩ : ∃ (p : Fin 2048) (q : Fin 32), j = ix2 p q := ⟨j 0, j 1, eq_ix2 j⟩
  refine (tile_entry (V c main_v34) (V c main_arg3) (V c main_v35)
    (Layer0.tile V c 0 t) (Layer0.tile V c 1 t) (Layer0.tile V c 2 t) p q
    ((((cfg0.win 3).blk t).view.emb (ix2 p q)) 0) ((((cfg0.win 3).blk t).view.emb (ix2 p q)) 1)
    (fun j => ?_) (fun j => ?_) ?_).trans ?_
  · show V c main_v34 (((cfg0.win 0).blk t).view.emb (ix2 p j)) = V c main_v34 _
    refine congrArg (V c main_v34) (funext fun a => Fin.ext ?_)
    match a with
    | ⟨0, _⟩ =>
      show win0_0.index t (0 : Fin 2) * 2048 + 1 * p.val = win0_3.index t (0 : Fin 2) * 2048 + 1 * p.val
      rw [e0]
    | ⟨1, _⟩ =>
      show win0_0.index t (1 : Fin 2) * 512 + 1 * j.val = j.val
      rw [e1]; omega
  · show V c main_arg3 (((cfg0.win 1).blk t).view.emb (ix2 j q)) = V c main_arg3 _
    refine congrArg (V c main_arg3) (funext fun a => Fin.ext ?_)
    match a with
    | ⟨0, _⟩ =>
      show win0_1.index t (0 : Fin 2) * 512 + 1 * j.val = j.val
      rw [e2]; omega
    | ⟨1, _⟩ =>
      show win0_1.index t (1 : Fin 2) * 32 + 1 * q.val = win0_3.index t (1 : Fin 2) * 32 + 1 * q.val
      rw [e3, e7]
  · show V c main_v35 (((cfg0.win 2).blk t).view.emb (ix2 (0 : Fin 1) q)) = V c main_v35 _
    refine congrArg (V c main_v35) (funext fun a => Fin.ext ?_)
    match a with
    | ⟨0, _⟩ =>
      show win0_2.index t (0 : Fin 2) * 1 + 1 * 0 = 0
      rw [e4]
    | ⟨1, _⟩ =>
      show win0_2.index t (1 : Fin 2) * 32 + 1 * q.val = win0_3.index t (1 : Fin 2) * 32 + 1 * q.val
      rw [e5, e7]
  · rfl

/-- An index of the output array is in tile t's block iff, on each axis, its coordinate is in the block's range. -/
theorem mem_blk (t : Fin cfg0.N) (i : S12288x32.Idx) :
    i ∈ ((cfg0.win 3).blk t).view.set ↔ ∀ a : Fin 2, win0_3.index t a * S2048x32.size a ≤ (i a).val
      ∧ (i a).val < win0_3.index t a * S2048x32.size a + S2048x32.size a := by
  show i ∈ ((View.whole main_v36).slice (win0_3.rect t)).set ↔ _
  rw [View.set_slice_whole, Rect.mem_set_unit]
  exact Iff.rfl

/-- Row r lies in tile r / 2048, and six tiles of 2048 rows are all 12288 rows: every index is written back by some tile. -/
theorem covered (i : S12288x32.Idx) :
    ∃ t : Fin cfg0.N, (cfg0.win 3).flush t = true ∧ i ∈ ((cfg0.win 3).blk t).view.set := by
  have hi0 : (i 0).val < 12288 := (i 0).isLt
  have hi1 : (i 1).val < 32 := (i 1).isLt
  have hN : grid0.N = 6 := N_0
  obtain ⟨t, ht⟩ : ∃ t : Fin cfg0.N, t.val = (i 0).val / 2048 :=
    ⟨⟨(i 0).val / 2048, by show (i 0).val / 2048 < grid0.N; omega⟩, rfl⟩
  obtain ⟨-, -, -, -, -, -, e6, e7⟩ := index_maps t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 32 ≤ (i 1).val ∧ (i 1).val < win0_3.index t (1 : Fin 2) * 32 + 32
    rw [e7]; omega

/-- The output array after the region's run is the hidden layer of the arrays the region was entered with. -/
theorem array_after (c : Dev nD) :
    (Layer0.dat (F := Ideal) V c).arrAt 3 cfg0.N = Cert.Gcn.hidden (V c main_v34) (V c main_arg3) (V c main_v35) :=
  (Layer0.dat (F := Ideal) V c).arrAt_eq_of_cover 3 (Cert.Gcn.hidden (V c main_v34) (V c main_arg3) (V c main_v35))
    (fun t _ => flushed_eq V c t) covered

end Cert.KernelIdeal.Layer0Value

end
-- ==== Proof.KI.Layer1Value.lean ====
/-
  The value of this dense layer's output array after the pipeline's run. Tile `t` of the output is computed from tile
  `t` of the left operand (rows `2048 t … 2048 t + 2047`) and the whole weight and bias; entry `(p, q)` of the tile is
  row `p` of the left tile against column `q` of the weight, plus entry `q` of the bias row, with no clamp. Row `p` of
  tile `t` is row `2048 t + p` of the array, so every tile written back is its block of ONE whole-array function, the
  affine map `Cert.Gcn.head` of the three arrays the region was entered with; the six tiles cover the 12288 rows, so
  after the last tile the array holds that function.
-/
import proofs.«110736_j70712341561937_1_alg».proof.Proof.KI.Layer1
import proofs.«110736_j70712341561937_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1Value

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The tile's arithmetic at an entry -/

/-- At output entry `i` and contraction index `q` the product reads its left operand in `i`'s row. -/
theorem lhs_row (i : S2048x16.Idx) (q : dot_S2048x32_S32x16_S2048x16_1_0_0_1_n_n.contr.Idx) :
    (dot_S2048x32_S32x16_S2048x16_1_0_0_1_n_n.lhsIdx i q 0).val = (i 0).val := by
  unfold DotDims.lhsIdx
  rw [dif_neg (show ¬(0 : Fin S2048x32.rank) ∈ dot_S2048x32_S32x16_S2048x16_1_0_0_1_n_n.lhsBatch by decide), dif_pos (show (0 : Fin S2048x32.rank) ∈ dot_S2048x32_S32x16_S2048x16_1_0_0_1_n_n.lhsNonContracting by decide)]
  rfl
/-- At output entry `i` and contraction index `q` the product reads its left operand in column `q`. -/
theorem lhs_col (i : S2048x16.Idx) (q : dot_S2048x32_S32x16_S2048x16_1_0_0_1_n_n.contr.Idx) :
    (dot_S2048x32_S32x16_S2048x16_1_0_0_1_n_n.lhsIdx i q 1).val = (q ⟨0, by decide⟩).val :=
  dot_S2048x32_S32x16_S2048x16_1_0_0_1_n_n.lhsIdx_val_of_single rfl i q
/-- At output entry `i` and contraction index `q` the product reads its right operand in row `q`. -/
theorem rhs_row (i : S2048x16.Idx) (q : dot_S2048x32_S32x16_S2048x16_1_0_0_1_n_n.contr.Idx) :
    (dot_S2048x32_S32x16_S2048x16_1_0_0_1_n_n.rhsIdx i q 0).val = (q ⟨0, by decide⟩).val :=
  dot_S2048x32_S32x16_S2048x16_1_0_0_1_n_n.rhsIdx_val_of_single rfl i q
/-- At output entry `i` and contraction index `q` the product reads its right operand in `i`'s column. -/
theorem rhs_col (i : S2048x16.Idx) (q : dot_S2048x32_S32x16_S2048x16_1_0_0_1_n_n.contr.Idx) :
    (dot_S2048x32_S32x16_S2048x16_1_0_0_1_n_n.rhsIdx i q 1).val = (i 1).val := by
  unfold DotDims.rhsIdx
  rw [dif_neg (show ¬(1 : Fin S32x16.rank) ∈ dot_S2048x32_S32x16_S2048x16_1_0_0_1_n_n.rhsBatch by decide), dif_pos (show (1 : Fin S32x16.rank) ∈ dot_S2048x32_S32x16_S2048x16_1_0_0_1_n_n.rhsNonContracting by decide)]
  rfl

/-- The tile product into the zero accumulator, at entry `(p, q)`: row `p` of the left tile against column `q` of the
    weight, summed over the 32 contraction coordinates. -/
theorem product_apply (x : FVec Ideal S2048x32 .bf16) (w : FVec Ideal S32x16 .bf16) (p : Fin 2048) (q : Fin 16) :
    matmul dot_S2048x32_S32x16_S2048x16_1_0_0_1_n_n none x w (constant S2048x16 .f32 0x00000000#32) (ix2 p q)
      = ∑ j : Fin 32, x (ix2 p j) * w (ix2 j q) := by
  simp only [matmul]
  rw [Ideal.matmul_constant_zero_apply, ← Equiv.sum_comp (contrEquiv1 dot_S2048x32_S32x16_S2048x16_1_0_0_1_n_n 32 rfl rfl).symm]
  refine Finset.sum_congr rfl fun k _ => ?_
  have hk := contrEquiv1_symm_val dot_S2048x32_S32x16_S2048x16_1_0_0_1_n_n 32 rfl rfl k
  have el : dot_S2048x32_S32x16_S2048x16_1_0_0_1_n_n.lhsIdx (ix2 p q) ((contrEquiv1 dot_S2048x32_S32x16_S2048x16_1_0_0_1_n_n 32 rfl rfl).symm k) = ix2 p k := funext fun a => Fin.ext (by
    match a with
    | ⟨0, _⟩ => exact lhs_row _ _
    | ⟨1, _⟩ => exact (lhs_col _ _).trans hk)
  have er : dot_S2048x32_S32x16_S2048x16_1_0_0_1_n_n.rhsIdx (ix2 p q) ((contrEquiv1 dot_S2048x32_S32x16_S2048x16_1_0_0_1_n_n 32 rfl rfl).symm k) = ix2 k q := funext fun a => Fin.ext (by
    match a with
    | ⟨0, _⟩ => exact (rhs_row _ _).trans hk
    | ⟨1, _⟩ => exact rhs_col _ _)
  rw [el, er]

/-- The body's arithmetic at entry `(p, q)` of the tile: row `p` of the left tile times column `q` of the weight, plus
    entry `q` of the bias row. The narrowing of the operands and the casts to the same shape are the identity on the
    extended reals; the bias row is broadcast down the rows. -/
theorem k1_pay1_apply (x : Vec Ideal S2048x32 .f32) (w : Vec Ideal S32x16 .f32) (b : Vec Ideal S1x16 .f32) (p : Fin 2048) (q : Fin 16) :
    k1_pay1 x w b (ix2 p q) = (∑ j : Fin 32, x (ix2 p j) * w (ix2 j q)) + b (ix2 (0 : Fin 1) q) := by
  unfold k1_pay1
  rw [addf_apply, product_apply, broadcastTo_1b_ab_apply, shapeCast_self, shapeCast_self]
  rfl

/-- The same at any entry `i` of the tile, against whole arrays `X`, `W`, `B`: if row `i 0` of the left tile is row `r` of
    `X`, and column `i 1` of the weight and bias tiles is column `s` of `W` and `B`, the entry is the affine map of
    `X`, `W`, `B` at `(r, s)`. -/
theorem k1_pay1_entry (x : Vec Ideal S2048x32 .f32) (w : Vec Ideal S32x16 .f32) (b : Vec Ideal S1x16 .f32)
    (X : (⟨2, ![12288, 32]⟩ : Shape).Idx → EReal) (W : (⟨2, ![32, 16]⟩ : Shape).Idx → EReal) (B : (⟨2, ![1, 16]⟩ : Shape).Idx → EReal)
    (i : S2048x16.Idx) (r : Fin 12288) (s : Fin 16)
    (hx : ∀ j : Fin 32, x (ix2 (i 0) j) = X (ix2 r j)) (hw : ∀ j : Fin 32, w (ix2 j (i 1)) = W (ix2 j s))
    (hb : b (ix2 (0 : Fin 1) (i 1)) = B (ix2 (0 : Fin 1) s)) :
    k1_pay1 x w b i = Cert.Gcn.affine2At X W B r s := by
  obtain ⟨p, q, rfl⟩ : ∃ (p : Fin 2048) (q : Fin 16), i = ix2 p q := ⟨i 0, i 1, eq_ix2 i⟩
  rw [k1_pay1_apply]
  unfold Cert.Gcn.affine2At
  rw [show b (ix2 (0 : Fin 1) q) = B (ix2 (0 : Fin 1) s) from hb]
  exact congrArg (· + B (ix2 (0 : Fin 1) s)) (Finset.sum_congr rfl fun j _ => by
    rw [show x (ix2 p j) = X (ix2 r j) from hx j, show w (ix2 j q) = W (ix2 j s) from hw j])

/-! ## What a tile writes back -/

variable (V : (c : Dev nD) → (b : Ref sig .tc) → Buf (Elt Ideal) ((c : Thread nD τ).loc b))

/-- The zero offsets of a whole-tile load or store, as a constant function. -/
theorem hz : (![0, 0] : Fin 2 → Nat) = fun _ => 0 := funext fun a => by fin_cases a <;> rfl

/-- The printed index maps, decided once over the six tiles: the left operand's and the output's block index is
    `(t, 0)`, the weight's and the bias's `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT TILE `t` WRITES BACK is block `t` of the affine map of the three arrays as the region finds them. -/
theorem flushed_eq (c : Dev nD) (t : Fin cfg1.N) :
    (Layer1.dat (F := Ideal) V c).flushed 3 t
      = ((cfg1.win 3).blk t).view.read (Elt Ideal) (Cert.Gcn.head (V c main_v52) (V c main_arg5) (V c main_v53)) := by
  show (cfg1.win 3).cut (grid1.coords t) ((Layer1.dat (F := Ideal) V c).after 3 t) = _
  rw [Layer1.after_out]
  unfold Layer1.outTile
  rw [View.canon_unit_zero hz]
  simp only [View.ld_unit_zero (S := S2048x32) hz, View.ld_unit_zero (S := S32x16) hz, View.ld_unit_zero (S := S1x16) hz]
  obtain ⟨e00, e01, e10, e11, e20, e21, e30, e31⟩ := idx_facts t
  funext j
  show k1_pay1 (Layer1.tile V c 0 t) (Layer1.tile V c 1 t) (Layer1.tile V c 2 t) j
      = Cert.Gcn.affine2At (V c main_v52) (V c main_arg5) (V c main_v53)
          ((((cfg1.win 3).blk t).view.emb j) 0) ((((cfg1.win 3).blk t).view.emb j) 1)
  refine k1_pay1_entry (Layer1.tile V c 0 t) (Layer1.tile V c 1 t) (Layer1.tile V c 2 t)
    (V c main_v52) (V c main_arg5) (V c main_v53) j
    ((((cfg1.win 3).blk t).view.emb j) 0) ((((cfg1.win 3).blk t).view.emb j) 1) (fun k => ?_) (fun k => ?_) ?_
  · show V c main_v52 (((cfg1.win 0).blk t).view.emb (ix2 (j 0) k)) = V c main_v52 (ix2 ((((cfg1.win 3).blk t).view.emb j) 0) k)
    refine congrArg (V c main_v52) (funext fun a => Fin.ext ?_)
    match a with
    | ⟨0, _⟩ =>
      show win1_0.index t (0 : Fin 2) * 2048 + 1 * (j 0).val = win1_3.index t (0 : Fin 2) * 2048 + 1 * (j 0).val
      rw [e00, e30]
    | ⟨1, _⟩ =>
      show win1_0.index t (1 : Fin 2) * 32 + 1 * k.val = k.val
      rw [e01]; omega
  · show V c main_arg5 (((cfg1.win 1).blk t).view.emb (ix2 k (j 1))) = V c main_arg5 (ix2 k ((((cfg1.win 3).blk t).view.emb j) 1))
    refine congrArg (V c main_arg5) (funext fun a => Fin.ext ?_)
    match a with
    | ⟨0, _⟩ =>
      show win1_1.index t (0 : Fin 2) * 32 + 1 * k.val = k.val
      rw [e10]; omega
    | ⟨1, _⟩ =>
      show win1_1.index t (1 : Fin 2) * 16 + 1 * (j 1).val = win1_3.index t (1 : Fin 2) * 16 + 1 * (j 1).val
      rw [e11, e31]
  · show V c main_v53 (((cfg1.win 2).blk t).view.emb (ix2 (0 : Fin 1) (j 1))) = V c main_v53 (ix2 (0 : Fin 1) ((((cfg1.win 3).blk t).view.emb j) 1))
    refine congrArg (V c main_v53) (funext fun a => Fin.ext ?_)
    match a with
    | ⟨0, _⟩ =>
      show win1_2.index t (0 : Fin 2) * 1 + 1 * 0 = 0
      rw [e20]
    | ⟨1, _⟩ =>
      show win1_2.index t (1 : Fin 2) * 16 + 1 * (j 1).val = win1_3.index t (1 : Fin 2) * 16 + 1 * (j 1).val
      rw [e21, e31]

/-! ## From the tiles to the array -/

/-- An index of the array is in tile `t`'s block iff each coordinate is in the block's range on its axis. -/
theorem mem_blk (t : Fin cfg1.N) (i : S12288x16.Idx) :
    i ∈ ((cfg1.win 3).blk t).view.set ↔ ∀ a : Fin 2, win1_3.index t a * S2048x16.size a ≤ (i a).val ∧ (i a).val < win1_3.index t a * S2048x16.size a + S2048x16.size a := by
  show i ∈ ((View.whole main_v54).slice (win1_3.rect t)).set ↔ _
  rw [View.set_slice_whole, Rect.mem_set_unit]
  exact Iff.rfl

/-- Every index of the array is in some tile's block: row `r` is in tile `r / 2048`, and `6 · 2048 = 12288`. -/
theorem cover (i : S12288x16.Idx) :
    ∃ t : Fin cfg1.N, (cfg1.win 3).flush t = true ∧ i ∈ ((cfg1.win 3).blk t).view.set := by
  have hi0 : (i 0).val < 12288 := (i 0).isLt
  have hi1 : (i 1).val < 16 := (i 1).isLt
  have hN : cfg1.N = 6 := N_1
  refine ⟨⟨(i 0).val / 2048, by rw [hN]; omega⟩, flush1_3 _, ?_⟩
  obtain ⟨-, -, -, -, -, -, e30, e31⟩ := idx_facts ⟨(i 0).val / 2048, by rw [hN]; omega⟩
  rw [mem_blk]
  intro a
  match a with
  | ⟨0, _⟩ =>
    show win1_3.index ⟨(i 0).val / 2048, _⟩ (0 : Fin 2) * 2048 ≤ (i 0).val ∧ (i 0).val < win1_3.index ⟨(i 0).val / 2048, _⟩ (0 : Fin 2) * 2048 + 2048
    rw [e30]; show (i 0).val / 2048 * 2048 ≤ (i 0).val ∧ (i 0).val < (i 0).val / 2048 * 2048 + 2048; omega
  | ⟨1, _⟩ =>
    show win1_3.index ⟨(i 0).val / 2048, _⟩ (1 : Fin 2) * 16 ≤ (i 1).val ∧ (i 1).val < win1_3.index ⟨(i 0).val / 2048, _⟩ (1 : Fin 2) * 16 + 16
    rw [e31]; omega

/-- THE ARRAY after the region's run: the affine map of the three arrays the region was entered with. -/
theorem array_after (c : Dev nD) :
    (Layer1.dat (F := Ideal) V c).arrAt 3 cfg1.N = Cert.Gcn.head (V c main_v52) (V c main_arg5) (V c main_v53) :=
  (Layer1.dat (F := Ideal) V c).arrAt_eq_of_cover 3 (Cert.Gcn.head (V c main_v52) (V c main_arg5) (V c main_v53))
    (fun t _ => flushed_eq V c t) cover

end Cert.KernelIdeal.Layer1Value

end
-- ==== Proof.KI.Layer2Value.lean ====
/-
  The value of this dense layer's output array after the pipeline's run. Tile `t` of the output is computed from tile
  `t` of the left operand (rows `2048 t … 2048 t + 2047`) and the whole weight and bias; entry `(p, q)` of the tile is
  row `p` of the left tile against column `q` of the weight, plus entry `q` of the bias row, with no clamp. Row `p` of
  tile `t` is row `2048 t + p` of the array, so every tile written back is its block of ONE whole-array function, the
  affine map `Cert.Gcn.head` of the three arrays the region was entered with; the six tiles cover the 12288 rows, so
  after the last tile the array holds that function.
-/
import proofs.«110736_j70712341561937_1_alg».proof.Proof.KI.Layer2
import proofs.«110736_j70712341561937_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2Value

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The tile's arithmetic at an entry -/

/-- At output entry `i` and contraction index `q` the product reads its left operand in `i`'s row. -/
theorem lhs_row (i : S2048x16.Idx) (q : dot_S2048x32_S32x16_S2048x16_1_0_0_1_n_n.contr.Idx) :
    (dot_S2048x32_S32x16_S2048x16_1_0_0_1_n_n.lhsIdx i q 0).val = (i 0).val := by
  unfold DotDims.lhsIdx
  rw [dif_neg (show ¬(0 : Fin S2048x32.rank) ∈ dot_S2048x32_S32x16_S2048x16_1_0_0_1_n_n.lhsBatch by decide), dif_pos (show (0 : Fin S2048x32.rank) ∈ dot_S2048x32_S32x16_S2048x16_1_0_0_1_n_n.lhsNonContracting by decide)]
  rfl
/-- At output entry `i` and contraction index `q` the product reads its left operand in column `q`. -/
theorem lhs_col (i : S2048x16.Idx) (q : dot_S2048x32_S32x16_S2048x16_1_0_0_1_n_n.contr.Idx) :
    (dot_S2048x32_S32x16_S2048x16_1_0_0_1_n_n.lhsIdx i q 1).val = (q ⟨0, by decide⟩).val :=
  dot_S2048x32_S32x16_S2048x16_1_0_0_1_n_n.lhsIdx_val_of_single rfl i q
/-- At output entry `i` and contraction index `q` the product reads its right operand in row `q`. -/
theorem rhs_row (i : S2048x16.Idx) (q : dot_S2048x32_S32x16_S2048x16_1_0_0_1_n_n.contr.Idx) :
    (dot_S2048x32_S32x16_S2048x16_1_0_0_1_n_n.rhsIdx i q 0).val = (q ⟨0, by decide⟩).val :=
  dot_S2048x32_S32x16_S2048x16_1_0_0_1_n_n.rhsIdx_val_of_single rfl i q
/-- At output entry `i` and contraction index `q` the product reads its right operand in `i`'s column. -/
theorem rhs_col (i : S2048x16.Idx) (q : dot_S2048x32_S32x16_S2048x16_1_0_0_1_n_n.contr.Idx) :
    (dot_S2048x32_S32x16_S2048x16_1_0_0_1_n_n.rhsIdx i q 1).val = (i 1).val := by
  unfold DotDims.rhsIdx
  rw [dif_neg (show ¬(1 : Fin S32x16.rank) ∈ dot_S2048x32_S32x16_S2048x16_1_0_0_1_n_n.rhsBatch by decide), dif_pos (show (1 : Fin S32x16.rank) ∈ dot_S2048x32_S32x16_S2048x16_1_0_0_1_n_n.rhsNonContracting by decide)]
  rfl

/-- The tile product into the zero accumulator, at entry `(p, q)`: row `p` of the left tile against column `q` of the
    weight, summed over the 32 contraction coordinates. -/
theorem product_apply (x : FVec Ideal S2048x32 .bf16) (w : FVec Ideal S32x16 .bf16) (p : Fin 2048) (q : Fin 16) :
    matmul dot_S2048x32_S32x16_S2048x16_1_0_0_1_n_n none x w (constant S2048x16 .f32 0x00000000#32) (ix2 p q)
      = ∑ j : Fin 32, x (ix2 p j) * w (ix2 j q) := by
  simp only [matmul]
  rw [Ideal.matmul_constant_zero_apply, ← Equiv.sum_comp (contrEquiv1 dot_S2048x32_S32x16_S2048x16_1_0_0_1_n_n 32 rfl rfl).symm]
  refine Finset.sum_congr rfl fun k _ => ?_
  have hk := contrEquiv1_symm_val dot_S2048x32_S32x16_S2048x16_1_0_0_1_n_n 32 rfl rfl k
  have el : dot_S2048x32_S32x16_S2048x16_1_0_0_1_n_n.lhsIdx (ix2 p q) ((contrEquiv1 dot_S2048x32_S32x16_S2048x16_1_0_0_1_n_n 32 rfl rfl).symm k) = ix2 p k := funext fun a => Fin.ext (by
    match a with
    | ⟨0, _⟩ => exact lhs_row _ _
    | ⟨1, _⟩ => exact (lhs_col _ _).trans hk)
  have er : dot_S2048x32_S32x16_S2048x16_1_0_0_1_n_n.rhsIdx (ix2 p q) ((contrEquiv1 dot_S2048x32_S32x16_S2048x16_1_0_0_1_n_n 32 rfl rfl).symm k) = ix2 k q := funext fun a => Fin.ext (by
    match a with
    | ⟨0, _⟩ => exact (rhs_row _ _).trans hk
    | ⟨1, _⟩ => exact rhs_col _ _)
  rw [el, er]

/-- The body's arithmetic at entry `(p, q)` of the tile: row `p` of the left tile times column `q` of the weight, plus
    entry `q` of the bias row. The narrowing of the operands and the casts to the same shape are the identity on the
    extended reals; the bias row is broadcast down the rows. -/
theorem k2_pay1_apply (x : Vec Ideal S2048x32 .f32) (w : Vec Ideal S32x16 .f32) (b : Vec Ideal S1x16 .f32) (p : Fin 2048) (q : Fin 16) :
    k2_pay1 x w b (ix2 p q) = (∑ j : Fin 32, x (ix2 p j) * w (ix2 j q)) + b (ix2 (0 : Fin 1) q) := by
  unfold k2_pay1
  rw [addf_apply, product_apply, broadcastTo_1b_ab_apply, shapeCast_self, shapeCast_self]
  rfl

/-- The same at any entry `i` of the tile, against whole arrays `X`, `W`, `B`: if row `i 0` of the left tile is row `r` of
    `X`, and column `i 1` of the weight and bias tiles is column `s` of `W` and `B`, the entry is the affine map of
    `X`, `W`, `B` at `(r, s)`. -/
theorem k2_pay1_entry (x : Vec Ideal S2048x32 .f32) (w : Vec Ideal S32x16 .f32) (b : Vec Ideal S1x16 .f32)
    (X : (⟨2, ![12288, 32]⟩ : Shape).Idx → EReal) (W : (⟨2, ![32, 16]⟩ : Shape).Idx → EReal) (B : (⟨2, ![1, 16]⟩ : Shape).Idx → EReal)
    (i : S2048x16.Idx) (r : Fin 12288) (s : Fin 16)
    (hx : ∀ j : Fin 32, x (ix2 (i 0) j) = X (ix2 r j)) (hw : ∀ j : Fin 32, w (ix2 j (i 1)) = W (ix2 j s))
    (hb : b (ix2 (0 : Fin 1) (i 1)) = B (ix2 (0 : Fin 1) s)) :
    k2_pay1 x w b i = Cert.Gcn.affine2At X W B r s := by
  obtain ⟨p, q, rfl⟩ : ∃ (p : Fin 2048) (q : Fin 16), i = ix2 p q := ⟨i 0, i 1, eq_ix2 i⟩
  rw [k2_pay1_apply]
  unfold Cert.Gcn.affine2At
  rw [show b (ix2 (0 : Fin 1) q) = B (ix2 (0 : Fin 1) s) from hb]
  exact congrArg (· + B (ix2 (0 : Fin 1) s)) (Finset.sum_congr rfl fun j _ => by
    rw [show x (ix2 p j) = X (ix2 r j) from hx j, show w (ix2 j q) = W (ix2 j s) from hw j])

/-! ## What a tile writes back -/

variable (V : (c : Dev nD) → (b : Ref sig .tc) → Buf (Elt Ideal) ((c : Thread nD τ).loc b))

/-- The zero offsets of a whole-tile load or store, as a constant function. -/
theorem hz : (![0, 0] : Fin 2 → Nat) = fun _ => 0 := funext fun a => by fin_cases a <;> rfl

/-- The printed index maps, decided once over the six tiles: the left operand's and the output's block index is
    `(t, 0)`, the weight's and the bias's `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT TILE `t` WRITES BACK is block `t` of the affine map of the three arrays as the region finds them. -/
theorem flushed_eq (c : Dev nD) (t : Fin cfg2.N) :
    (Layer2.dat (F := Ideal) V c).flushed 3 t
      = ((cfg2.win 3).blk t).view.read (Elt Ideal) (Cert.Gcn.head (V c main_v52) (V c main_arg7) (V c main_v55)) := by
  show (cfg2.win 3).cut (grid2.coords t) ((Layer2.dat (F := Ideal) V c).after 3 t) = _
  rw [Layer2.after_out]
  unfold Layer2.outTile
  rw [View.canon_unit_zero hz]
  simp only [View.ld_unit_zero (S := S2048x32) hz, View.ld_unit_zero (S := S32x16) hz, View.ld_unit_zero (S := S1x16) hz]
  obtain ⟨e00, e01, e10, e11, e20, e21, e30, e31⟩ := idx_facts t
  funext j
  show k2_pay1 (Layer2.tile V c 0 t) (Layer2.tile V c 1 t) (Layer2.tile V c 2 t) j
      = Cert.Gcn.affine2At (V c main_v52) (V c main_arg7) (V c main_v55)
          ((((cfg2.win 3).blk t).view.emb j) 0) ((((cfg2.win 3).blk t).view.emb j) 1)
  refine k2_pay1_entry (Layer2.tile V c 0 t) (Layer2.tile V c 1 t) (Layer2.tile V c 2 t)
    (V c main_v52) (V c main_arg7) (V c main_v55) j
    ((((cfg2.win 3).blk t).view.emb j) 0) ((((cfg2.win 3).blk t).view.emb j) 1) (fun k => ?_) (fun k => ?_) ?_
  · show V c main_v52 (((cfg2.win 0).blk t).view.emb (ix2 (j 0) k)) = V c main_v52 (ix2 ((((cfg2.win 3).blk t).view.emb j) 0) k)
    refine congrArg (V c main_v52) (funext fun a => Fin.ext ?_)
    match a with
    | ⟨0, _⟩ =>
      show win2_0.index t (0 : Fin 2) * 2048 + 1 * (j 0).val = win2_3.index t (0 : Fin 2) * 2048 + 1 * (j 0).val
      rw [e00, e30]
    | ⟨1, _⟩ =>
      show win2_0.index t (1 : Fin 2) * 32 + 1 * k.val = k.val
      rw [e01]; omega
  · show V c main_arg7 (((cfg2.win 1).blk t).view.emb (ix2 k (j 1))) = V c main_arg7 (ix2 k ((((cfg2.win 3).blk t).view.emb j) 1))
    refine congrArg (V c main_arg7) (funext fun a => Fin.ext ?_)
    match a with
    | ⟨0, _⟩ =>
      show win2_1.index t (0 : Fin 2) * 32 + 1 * k.val = k.val
      rw [e10]; omega
    | ⟨1, _⟩ =>
      show win2_1.index t (1 : Fin 2) * 16 + 1 * (j 1).val = win2_3.index t (1 : Fin 2) * 16 + 1 * (j 1).val
      rw [e11, e31]
  · show V c main_v55 (((cfg2.win 2).blk t).view.emb (ix2 (0 : Fin 1) (j 1))) = V c main_v55 (ix2 (0 : Fin 1) ((((cfg2.win 3).blk t).view.emb j) 1))
    refine congrArg (V c main_v55) (funext fun a => Fin.ext ?_)
    match a with
    | ⟨0, _⟩ =>
      show win2_2.index t (0 : Fin 2) * 1 + 1 * 0 = 0
      rw [e20]
    | ⟨1, _⟩ =>
      show win2_2.index t (1 : Fin 2) * 16 + 1 * (j 1).val = win2_3.index t (1 : Fin 2) * 16 + 1 * (j 1).val
      rw [e21, e31]

/-! ## From the tiles to the array -/

/-- An index of the array is in tile `t`'s block iff each coordinate is in the block's range on its axis. -/
theorem mem_blk (t : Fin cfg2.N) (i : S12288x16.Idx) :
    i ∈ ((cfg2.win 3).blk t).view.set ↔ ∀ a : Fin 2, win2_3.index t a * S2048x16.size a ≤ (i a).val ∧ (i a).val < win2_3.index t a * S2048x16.size a + S2048x16.size a := by
  show i ∈ ((View.whole main_v56).slice (win2_3.rect t)).set ↔ _
  rw [View.set_slice_whole, Rect.mem_set_unit]
  exact Iff.rfl

/-- Every index of the array is in some tile's block: row `r` is in tile `r / 2048`, and `6 · 2048 = 12288`. -/
theorem cover (i : S12288x16.Idx) :
    ∃ t : Fin cfg2.N, (cfg2.win 3).flush t = true ∧ i ∈ ((cfg2.win 3).blk t).view.set := by
  have hi0 : (i 0).val < 12288 := (i 0).isLt
  have hi1 : (i 1).val < 16 := (i 1).isLt
  have hN : cfg2.N = 6 := N_2
  refine ⟨⟨(i 0).val / 2048, by rw [hN]; omega⟩, flush2_3 _, ?_⟩
  obtain ⟨-, -, -, -, -, -, e30, e31⟩ := idx_facts ⟨(i 0).val / 2048, by rw [hN]; omega⟩
  rw [mem_blk]
  intro a
  match a with
  | ⟨0, _⟩ =>
    show win2_3.index ⟨(i 0).val / 2048, _⟩ (0 : Fin 2) * 2048 ≤ (i 0).val ∧ (i 0).val < win2_3.index ⟨(i 0).val / 2048, _⟩ (0 : Fin 2) * 2048 + 2048
    rw [e30]; show (i 0).val / 2048 * 2048 ≤ (i 0).val ∧ (i 0).val < (i 0).val / 2048 * 2048 + 2048; omega
  | ⟨1, _⟩ =>
    show win2_3.index ⟨(i 0).val / 2048, _⟩ (1 : Fin 2) * 16 ≤ (i 1).val ∧ (i 1).val < win2_3.index ⟨(i 0).val / 2048, _⟩ (1 : Fin 2) * 16 + 16
    rw [e31]; omega

/-- THE ARRAY after the region's run: the affine map of the three arrays the region was entered with. -/
theorem array_after (c : Dev nD) :
    (Layer2.dat (F := Ideal) V c).arrAt 3 cfg2.N = Cert.Gcn.head (V c main_v52) (V c main_arg7) (V c main_v55) :=
  (Layer2.dat (F := Ideal) V c).arrAt_eq_of_cover 3 (Cert.Gcn.head (V c main_v52) (V c main_arg7) (V c main_v55))
    (fun t _ => flushed_eq V c t) cover

end Cert.KernelIdeal.Layer2Value

end
-- ==== Proof.KI.DecoderValue.lean ====
/-
  The value of the decoder, z · zᵀ: after the pipeline's run the result array is the Gram matrix of the rows of the
  array the region was entered with.

  Tile (i, j) of the 8 × 8 grid multiplies row block i of z by the transpose of row block j: entry (p, q) of the
  tile is the inner product of row p of the first block and row q of the second, a sum over the 16 columns. Row p of
  block i is row 1536 · i + p of z, so the tile is the block of the Gram matrix at block index (i, j); the 64 tiles
  cover the 12288 × 12288 result, since 8 · 1536 = 12288.
-/
import proofs.«110736_j70712341561937_1_alg».proof.Proof.KI.Decoder
import proofs.«110736_j70712341561937_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.DecoderValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One entry of a tile: the inner product of a row of each block -/

/-! The product's dimension numbers contract axis 1 of both operands and keep axis 0 of each. -/

/-- The left operand is read at the entry's row … -/
theorem lhs_row (i : S1536x1536.Idx) (k : dot_S1536x16_S1536x16_S1536x1536_1_1_0_0_n_n.contr.Idx) :
    (dot_S1536x16_S1536x16_S1536x1536_1_1_0_0_n_n.lhsIdx i k 0).val = (i 0).val := by
  unfold DotDims.lhsIdx
  rw [dif_neg (show ¬(0 : Fin S1536x16.rank) ∈ dot_S1536x16_S1536x16_S1536x1536_1_1_0_0_n_n.lhsBatch by decide), dif_pos (show (0 : Fin S1536x16.rank) ∈ dot_S1536x16_S1536x16_S1536x1536_1_1_0_0_n_n.lhsNonContracting by decide)]
  rfl
/-- … and at the summation index; -/
theorem lhs_col (i : S1536x1536.Idx) (k : dot_S1536x16_S1536x16_S1536x1536_1_1_0_0_n_n.contr.Idx) :
    (dot_S1536x16_S1536x16_S1536x1536_1_1_0_0_n_n.lhsIdx i k 1).val = (k ⟨0, by decide⟩).val :=
  dot_S1536x16_S1536x16_S1536x1536_1_1_0_0_n_n.lhsIdx_val_of_single rfl i k
/-- the right operand at the entry's column, which is a ROW of the second block, … -/
theorem rhs_row (i : S1536x1536.Idx) (k : dot_S1536x16_S1536x16_S1536x1536_1_1_0_0_n_n.contr.Idx) :
    (dot_S1536x16_S1536x16_S1536x1536_1_1_0_0_n_n.rhsIdx i k 0).val = (i 1).val := by
  unfold DotDims.rhsIdx
  rw [dif_neg (show ¬(0 : Fin S1536x16.rank) ∈ dot_S1536x16_S1536x16_S1536x1536_1_1_0_0_n_n.rhsBatch by decide), dif_pos (show (0 : Fin S1536x16.rank) ∈ dot_S1536x16_S1536x16_S1536x1536_1_1_0_0_n_n.rhsNonContracting by decide)]
  rfl
/-- … and at the summation index. -/
theorem rhs_col (i : S1536x1536.Idx) (k : dot_S1536x16_S1536x16_S1536x1536_1_1_0_0_n_n.contr.Idx) :
    (dot_S1536x16_S1536x16_S1536x1536_1_1_0_0_n_n.rhsIdx i k 1).val = (k ⟨0, by decide⟩).val :=
  dot_S1536x16_S1536x16_S1536x1536_1_1_0_0_n_n.rhsIdx_val_of_single rfl i k

/-- Entry (p, q) of the body's product of two blocks is the inner product of row p of the first and row q of the
    second: the format changes and the casts to the same shape are the identity on the extended reals, and the product
    accumulates into zero. -/
theorem product_apply (a b : Vec Ideal S1536x16 .f32) (p q : Fin 1536) :
    k3_pay1 (F := Ideal) a b (ix2 p q) = ∑ j : Fin 16, a (ix2 p j) * b (ix2 q j) := by
  unfold k3_pay1
  simp only [matmul]
  rw [Ideal.matmul_constant_zero_apply, ← Equiv.sum_comp (contrEquiv1 dot_S1536x16_S1536x16_S1536x1536_1_1_0_0_n_n 16 rfl rfl).symm]
  refine Finset.sum_congr rfl fun j _ => ?_
  have hj := contrEquiv1_symm_val dot_S1536x16_S1536x16_S1536x1536_1_1_0_0_n_n 16 rfl rfl j
  have el : dot_S1536x16_S1536x16_S1536x1536_1_1_0_0_n_n.lhsIdx (ix2 p q) ((contrEquiv1 dot_S1536x16_S1536x16_S1536x1536_1_1_0_0_n_n 16 rfl rfl).symm j) = ix2 p j := funext fun x => Fin.ext (by
    match x with
    | ⟨0, _⟩ => exact lhs_row _ _
    | ⟨1, _⟩ => exact (lhs_col _ _).trans hj)
  have er : dot_S1536x16_S1536x16_S1536x1536_1_1_0_0_n_n.rhsIdx (ix2 p q) ((contrEquiv1 dot_S1536x16_S1536x16_S1536x1536_1_1_0_0_n_n 16 rfl rfl).symm j) = ix2 q j := funext fun x => Fin.ext (by
    match x with
    | ⟨0, _⟩ => exact rhs_row _ _
    | ⟨1, _⟩ => exact (rhs_col _ _).trans hj)
  rw [el, er]
  simp only [truncf_apply, shapeCast_self]

/-- Entry `x` of the product of row block `bi` of `z` (rows `1536 · bi` onwards) by the transpose of row block `bj` is the
    Gram matrix's entry at the two rows that `x`'s coordinates name inside those blocks. -/
theorem block_product (z : S12288x16.Idx → EReal) (a b : Vec Ideal S1536x16 .f32) (bi bj : Nat)
    (ha : ∀ (p : Fin 1536) (k : Fin 16) (r : Fin 12288), r.val = bi * 1536 + p.val → a (ix2 p k) = z (ix2 r k))
    (hb : ∀ (q : Fin 1536) (k : Fin 16) (r : Fin 12288), r.val = bj * 1536 + q.val → b (ix2 q k) = z (ix2 r k))
    (x : S1536x1536.Idx) (i : S12288x12288.Idx)
    (h0 : (i 0).val = bi * 1536 + (x 0).val) (h1 : (i 1).val = bj * 1536 + (x 1).val) :
    k3_pay1 (F := Ideal) a b x = Cert.Gcn.gram z i := by
  obtain ⟨p, q, rfl⟩ : ∃ (p q : Fin 1536), x = ix2 p q := ⟨x 0, x 1, eq_ix2 x⟩
  obtain ⟨r, s, rfl⟩ : ∃ (r s : Fin 12288), i = ix2 r s := ⟨i 0, i 1, eq_ix2 i⟩
  rw [product_apply]
  show _ = ∑ k : Fin 16, z (ix2 r k) * z (ix2 s k)
  exact Finset.sum_congr rfl fun k _ => by rw [ha p k r h0, hb q k s h1]

/-! ## The blocks a tile reads, and the block it writes -/

variable (V : (c : Dev nD) → (b : Ref sig .tc) → Buf (Elt Ideal) ((c : Thread nD τ).loc b))

theorem zeros : (![0, 0] : Fin 2 → Nat) = fun _ => 0 :=
  funext fun a => by match a with | ⟨0, _⟩ => rfl | ⟨1, _⟩ => rfl

/-- The three index maps over the grid: the first input moves with the output's row of tiles, the second with its
    column of tiles, neither moves along the 16 columns of `z`, and the output's block indices stay below 8. -/
theorem index_facts : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 7 ∧ win3_2.index t (1 : Fin 2) ≤ 7 :=
  (by decide +kernel : ∀ t : Fin grid3.N, _)

/-- Row `p` of the first input's block at tile `t` is row `1536 · (block index) + p` of `z`. -/
theorem row_block_read (c : Dev nD) (t : Fin cfg3.N) (p : Fin 1536) (k : Fin 16) (r : Fin 12288)
    (h1 : win3_0.index t (1 : Fin 2) = 0) (hr : r.val = win3_0.index t (0 : Fin 2) * 1536 + p.val) :
    (Decoder.tile (F := Ideal) V c 0 t : Vec Ideal S1536x16 .f32) (ix2 p k) = (V c main_v54 : S12288x16.Idx → EReal) (ix2 r k) := by
  unfold Decoder.tile
  rw [View.read_apply]
  show V c main_v54 _ = V c main_v54 _
  congr 1
  funext a
  apply Fin.ext
  match a with
  | ⟨0, _⟩ => show win3_0.index t (0 : Fin 2) * 1536 + 1 * p.val = r.val; omega
  | ⟨1, _⟩ => show win3_0.index t (1 : Fin 2) * 16 + 1 * k.val = k.val; rw [h1]; omega

/-- Row `q` of the second input's block at tile `t` likewise. -/
theorem col_block_read (c : Dev nD) (t : Fin cfg3.N) (q : Fin 1536) (k : Fin 16) (r : Fin 12288)
    (h1 : win3_1.index t (1 : Fin 2) = 0) (hr : r.val = win3_1.index t (0 : Fin 2) * 1536 + q.val) :
    (Decoder.tile (F := Ideal) V c 1 t : Vec Ideal S1536x16 .f32) (ix2 q k) = (V c main_v54 : S12288x16.Idx → EReal) (ix2 r k) := by
  unfold Decoder.tile
  rw [View.read_apply]
  show V c main_v54 _ = V c main_v54 _
  congr 1
  funext a
  apply Fin.ext
  match a with
  | ⟨0, _⟩ => show win3_1.index t (0 : Fin 2) * 1536 + 1 * q.val = r.val; omega
  | ⟨1, _⟩ => show win3_1.index t (1 : Fin 2) * 16 + 1 * k.val = k.val; rw [h1]; omega

/-- What tile `t` writes back is the block of the Gram matrix at the tile's block index: the body's one store
    overwrites the whole tile with the product of the two blocks it loaded whole, and entry `y` of the output's block
    sits at block index × 1536 + `y` on each axis, where the two input blocks' rows sit in `z`. -/
theorem flushed_eq (c : Dev nD) (t : Fin cfg3.N) :
    (Decoder.dat (F := Ideal) V c).flushed 2 t
      = ((cfg3.win 2).blk t).view.read (Elt Ideal) (Cert.Gcn.gram (V c main_v54)) := by
  show (cfg3.win 2).cut (grid3.coords t) ((Decoder.dat (F := Ideal) V c).after 2 t) = _
  rw [Decoder.after_out]
  unfold Decoder.outTile
  rw [View.canon_unit_zero zeros]
  simp only [View.ld_unit_zero (S := S1536x16) zeros]
  obtain ⟨e0, e1, e2, e3, l0, l1⟩ := index_facts t
  funext y
  show k3_pay1 (F := Ideal) (Decoder.tile V c 0 t) (Decoder.tile V c 1 t) (win3_2.xinj (grid3.coords t) y)
    = Cert.Gcn.gram (V c main_v54) (((cfg3.win 2).blk t).view.emb y)
  refine block_product (V c main_v54) (Decoder.tile V c 0 t) (Decoder.tile V c 1 t)
    (win3_2.index t (0 : Fin 2)) (win3_2.index t (1 : Fin 2))
    (fun p k r hr => row_block_read V c t p k r e1 (by rw [e0]; exact hr))
    (fun q k r hr => col_block_read V c t q k r e3 (by rw [e2]; exact hr))
    (win3_2.xinj (grid3.coords t) y) (((cfg3.win 2).blk t).view.emb y) ?_ ?_
  · show win3_2.index t (0 : Fin 2) * 1536 + 1 * (y 0).val = win3_2.index t (0 : Fin 2) * 1536 + (y 0).val
    omega
  · show win3_2.index t (1 : Fin 2) * 1536 + 1 * (y 1).val = win3_2.index t (1 : Fin 2) * 1536 + (y 1).val
    omega

/-! ## The 64 tiles cover the result -/

/-- An entry of the result is in tile `t`'s block iff each coordinate is in the block's range of 1536 on its axis. -/
theorem mem_blk (t : Fin cfg3.N) (i : S12288x12288.Idx) :
    i ∈ ((cfg3.win 2).blk t).view.set ↔ ∀ a : Fin 2, win3_2.index t a * S1536x1536.size a ≤ (i a).val
      ∧ (i a).val < win3_2.index t a * S1536x1536.size a + S1536x1536.size a := by
  show i ∈ ((View.whole main_v57).slice (win3_2.rect t)).set ↔ _
  rw [View.set_slice_whole, Rect.mem_set_unit]
  exact Iff.rfl

/-- Every one of the 8 × 8 block indices is some tile's. -/
theorem index_onto : ∀ (q0 q1 : Fin 8), ∃ t : Fin cfg3.N, win3_2.index t = ![q0.val, q1.val] :=
  (by decide +kernel : ∀ (q0 q1 : Fin 8), ∃ t : Fin grid3.N, win3_2.index t = ![q0.val, q1.val])

/-- Entry (r, s) lies in the tile with block index (r / 1536, s / 1536), and 8 · 1536 = 12288: every entry is covered,
    by a tile that writes its block back. -/
theorem covered (i : S12288x12288.Idx) :
    ∃ t : Fin cfg3.N, (cfg3.win 2).flush t = true ∧ i ∈ ((cfg3.win 2).blk t).view.set := by
  have hi0 : (i 0).val < 12288 := (i 0).isLt
  have hi1 : (i 1).val < 12288 := (i 1).isLt
  obtain ⟨t, ht⟩ := index_onto ⟨(i 0).val / 1536, by omega⟩ ⟨(i 1).val / 1536, by omega⟩
  have q0 : win3_2.index t (0 : Fin 2) = (i 0).val / 1536 := congrFun ht 0
  have q1 : win3_2.index t (1 : Fin 2) = (i 1).val / 1536 := congrFun ht 1
  refine ⟨t, flush3_2 t, ?_⟩
  rw [mem_blk]
  intro a
  match a with
  | ⟨0, _⟩ =>
    show win3_2.index t (0 : Fin 2) * 1536 ≤ (i 0).val ∧ (i 0).val < win3_2.index t (0 : Fin 2) * 1536 + 1536
    omega
  | ⟨1, _⟩ =>
    show win3_2.index t (1 : Fin 2) * 1536 ≤ (i 1).val ∧ (i 1).val < win3_2.index t (1 : Fin 2) * 1536 + 1536
    omega

/-! ## The result array -/

/-- After the pipeline's run the result array is the Gram matrix of the rows of `z` as the region found it: every
    tile writes back its block of that one matrix, and the tiles cover it. -/
theorem array_after (c : Dev nD) :
    (Decoder.dat (F := Ideal) V c).arrAt 2 cfg3.N = Cert.Gcn.gram (V c main_v54) :=
  (Decoder.dat (F := Ideal) V c).arrAt_eq_of_cover 2 (Cert.Gcn.gram (V c main_v54))
    (fun t _ => flushed_eq V c t) covered

end Cert.KernelIdeal.DecoderValue

end
-- ==== Proof.RefSide.lean ====
/-
  The reference's side of the value claim: each of its three kinds of stage, read at the extended reals over
  arbitrary operand arrays, is the textbook function of the specification.

  A layer of the reference is a matrix product, then the bias row repeated down the rows and added, and in the first
  layer a maximum with the zero array; its decoder is the product of the mean with its own transpose. Read at one entry
  `(p, q)`, a product is the sum over the one contracted coordinate `k` of left `(p, k)` times right `(k, q)`, the
  repeated bias is the row's entry `q`, the zero array is `0`, and the transpose at `(k, q)` is the operand at
  `(q, k)`: entry by entry these are the specification's `affine1At`, `affine2At` and `gramAt`. Only sums and
  products of extended reals at one entry occur, so nothing is assumed of the operands.

  Last, the two ways a bias vector becomes a row: recast to `[1, n]`, or repeated along a new unit axis. They are the
  same row.
-/
import proofs.«110736_j70712341561937_1_alg».proof.Defs
import proofs.«110736_j70712341561937_1_alg».proof.Proof.RefRun
import proofs.«110736_j70712341561937_1_alg».proof.Proof.RefRead
import proofs.«110736_j70712341561937_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefSide

open Cert.ReferenceIdeal Cert.ReferenceIdeal.Gen Idealize.ShloMosaic Idealize.ShloMosaic.ValueIdx

/-! ## The three products at an entry -/

/-- The first layer's product at entry `(p, q)`: row `p` of the left operand against column `q` of the right, over the 512 contracted coordinates. -/
theorem dot1_apply (a : Vec Ideal S12288x512 .f32) (w : Vec Ideal S512x32 .f32) (p : Fin 12288) (q : Fin 32) :
    Host.dotGeneral (F := Ideal) (φ₁ := .f32) (φ₂ := .f32) dot_S12288x512_S512x32_S12288x32_1_0_0_1_n_n none a w (ix2 p q)
      = ∑ k : Fin 512, a (ix2 p k) * w (ix2 k q) := by
  simp only [Host.dotGeneral]
  rw [Ideal.dotGeneral_apply, ← Equiv.sum_comp (contrEquiv1 dot_S12288x512_S512x32_S12288x32_1_0_0_1_n_n 512 rfl rfl).symm]
  refine Finset.sum_congr rfl fun k _ => ?_
  have hk := contrEquiv1_symm_val dot_S12288x512_S512x32_S12288x32_1_0_0_1_n_n 512 rfl rfl k
  have el : dot_S12288x512_S512x32_S12288x32_1_0_0_1_n_n.lhsIdx (ix2 p q) ((contrEquiv1 dot_S12288x512_S512x32_S12288x32_1_0_0_1_n_n 512 rfl rfl).symm k) = ix2 p k := funext fun c => Fin.ext (by
    match c with
    | ⟨0, _⟩ => exact ReadP.lhs_main_v35_0 _ _
    | ⟨1, _⟩ => exact (ReadP.lhs_main_v35_1 _ _).trans hk)
  have er : dot_S12288x512_S512x32_S12288x32_1_0_0_1_n_n.rhsIdx (ix2 p q) ((contrEquiv1 dot_S12288x512_S512x32_S12288x32_1_0_0_1_n_n 512 rfl rfl).symm k) = ix2 k q := funext fun c => Fin.ext (by
    match c with
    | ⟨0, _⟩ => exact (ReadP.rhs_main_v35_0 _ _).trans hk
    | ⟨1, _⟩ => exact ReadP.rhs_main_v35_1 _ _)
  rw [el, er]

/-- The second layer's product at entry `(p, q)`, over the 32 contracted coordinates. -/
theorem dot2_apply (h : Vec Ideal S12288x32 .f32) (w : Vec Ideal S32x16 .f32) (p : Fin 12288) (q : Fin 16) :
    Host.dotGeneral (F := Ideal) (φ₁ := .f32) (φ₂ := .f32) dot_S12288x32_S32x16_S12288x16_1_0_0_1_n_n none h w (ix2 p q)
      = ∑ k : Fin 32, h (ix2 p k) * w (ix2 k q) := by
  simp only [Host.dotGeneral]
  rw [Ideal.dotGeneral_apply, ← Equiv.sum_comp (contrEquiv1 dot_S12288x32_S32x16_S12288x16_1_0_0_1_n_n 32 rfl rfl).symm]
  refine Finset.sum_congr rfl fun k _ => ?_
  have hk := contrEquiv1_symm_val dot_S12288x32_S32x16_S12288x16_1_0_0_1_n_n 32 rfl rfl k
  have el : dot_S12288x32_S32x16_S12288x16_1_0_0_1_n_n.lhsIdx (ix2 p q) ((contrEquiv1 dot_S12288x32_S32x16_S12288x16_1_0_0_1_n_n 32 rfl rfl).symm k) = ix2 p k := funext fun c => Fin.ext (by
    match c with
    | ⟨0, _⟩ => exact ReadP.lhs_main_v56_0 _ _
    | ⟨1, _⟩ => exact (ReadP.lhs_main_v56_1 _ _).trans hk)
  have er : dot_S12288x32_S32x16_S12288x16_1_0_0_1_n_n.rhsIdx (ix2 p q) ((contrEquiv1 dot_S12288x32_S32x16_S12288x16_1_0_0_1_n_n 32 rfl rfl).symm k) = ix2 k q := funext fun c => Fin.ext (by
    match c with
    | ⟨0, _⟩ => exact (ReadP.rhs_main_v56_0 _ _).trans hk
    | ⟨1, _⟩ => exact ReadP.rhs_main_v56_1 _ _)
  rw [el, er]

/-- The decoder's product at entry `(p, q)`, over the 16 contracted coordinates. -/
theorem dot3_apply (z : Vec Ideal S12288x16 .f32) (y : Vec Ideal S16x12288 .f32) (p : Fin 12288) (q : Fin 12288) :
    Host.dotGeneral (F := Ideal) (φ₁ := .f32) (φ₂ := .f32) dot_S12288x16_S16x12288_S12288x12288_1_0_0_1_n_n none z y (ix2 p q)
      = ∑ k : Fin 16, z (ix2 p k) * y (ix2 k q) := by
  simp only [Host.dotGeneral]
  rw [Ideal.dotGeneral_apply, ← Equiv.sum_comp (contrEquiv1 dot_S12288x16_S16x12288_S12288x12288_1_0_0_1_n_n 16 rfl rfl).symm]
  refine Finset.sum_congr rfl fun k _ => ?_
  have hk := contrEquiv1_symm_val dot_S12288x16_S16x12288_S12288x12288_1_0_0_1_n_n 16 rfl rfl k
  have el : dot_S12288x16_S16x12288_S12288x12288_1_0_0_1_n_n.lhsIdx (ix2 p q) ((contrEquiv1 dot_S12288x16_S16x12288_S12288x12288_1_0_0_1_n_n 16 rfl rfl).symm k) = ix2 p k := funext fun c => Fin.ext (by
    match c with
    | ⟨0, _⟩ => exact ReadP.lhs_main_v81_0 _ _
    | ⟨1, _⟩ => exact (ReadP.lhs_main_v81_1 _ _).trans hk)
  have er : dot_S12288x16_S16x12288_S12288x12288_1_0_0_1_n_n.rhsIdx (ix2 p q) ((contrEquiv1 dot_S12288x16_S16x12288_S12288x12288_1_0_0_1_n_n 16 rfl rfl).symm k) = ix2 k q := funext fun c => Fin.ext (by
    match c with
    | ⟨0, _⟩ => exact (ReadP.rhs_main_v81_0 _ _).trans hk
    | ⟨1, _⟩ => exact ReadP.rhs_main_v81_1 _ _)
  rw [el, er]

/-! ## The bias rows and the zero array at an entry -/

/-- A bias row `[1, 32]` repeated down 12288 rows reads, at `(p, q)`, the row's entry `q`. -/
theorem bias32_apply (b : Vec Ideal S1x32 .f32) (p : Fin 12288) (q : Fin 32) :
    broadcastInDim S12288x32 ![0, 1] bcast_S1x32_S12288x32_0_1 b (ix2 p q) = b (ix2 (0 : Fin 1) q) :=
  broadcastInDim_apply _ bcast_S1x32_S12288x32_0_1 b (ix2 p q) (ix2 (0 : Fin 1) q) (fun c => match c with
    | ⟨0, _⟩ => by show 0 = if (1 : Nat) = 1 then 0 else p.val; rw [if_pos rfl]
    | ⟨1, _⟩ => by show q.val = if (32 : Nat) = 1 then 0 else q.val; rw [if_neg (by decide)])

/-- A bias row `[1, 16]` repeated down 12288 rows reads, at `(p, q)`, the row's entry `q`. -/
theorem bias16_apply (b : Vec Ideal S1x16 .f32) (p : Fin 12288) (q : Fin 16) :
    broadcastInDim S12288x16 ![0, 1] bcast_S1x16_S12288x16_0_1 b (ix2 p q) = b (ix2 (0 : Fin 1) q) :=
  broadcastInDim_apply _ bcast_S1x16_S12288x16_0_1 b (ix2 p q) (ix2 (0 : Fin 1) q) (fun c => match c with
    | ⟨0, _⟩ => by show 0 = if (1 : Nat) = 1 then 0 else p.val; rw [if_pos rfl]
    | ⟨1, _⟩ => by show q.val = if (16 : Nat) = 1 then 0 else q.val; rw [if_neg (by decide)])

/-- The zero word repeated over `[12288, 32]` is the extended real `0` at every entry. -/
theorem zero32_apply (i : S12288x32.Idx) :
    broadcastInDim S12288x32 ![] bcast_S_S12288x32 (constant (F := Ideal) S_ .f32 0x00000000#32) i = 0 := by
  refine (broadcastInDim_apply _ bcast_S_S12288x32 (constant (F := Ideal) S_ .f32 0x00000000#32) i ix0 (fun c => c.elim0)).trans ?_
  rw [constant_apply, Ideal.ofBits_zero_f32]

/-! ## The three stages -/

/-- The first layer: product, bias, maximum with zero. Entry `(p, q)` is `max (∑ k, a (p, k) · w (k, q) + b (0, q)) 0`. -/
theorem hidden_eq (a : Vec Ideal S12288x512 .f32) (w : Vec Ideal S512x32 .f32) (b : Vec Ideal S1x32 .f32) :
    maximumf (F := Ideal) (addf (F := Ideal) (Host.dotGeneral (F := Ideal) (φ₁ := .f32) (φ₂ := .f32) dot_S12288x512_S512x32_S12288x32_1_0_0_1_n_n none a w) (broadcastInDim S12288x32 ![0, 1] bcast_S1x32_S12288x32_0_1 b))
        (broadcastInDim S12288x32 ![] bcast_S_S12288x32 (constant (F := Ideal) S_ .f32 0x00000000#32)) = Cert.Gcn.hidden a w b := by
  funext i
  obtain ⟨p, q, rfl⟩ : ∃ (p : Fin 12288) (q : Fin 32), i = ix2 p q := ⟨i 0, i 1, eq_ix2 i⟩
  rw [maximumf_apply, addf_apply, dot1_apply, bias32_apply, zero32_apply]
  rfl

/-- A head of the second layer: product and bias. Entry `(p, q)` is `∑ k, h (p, k) · w (k, q) + b (0, q)`. -/
theorem head_eq (h : Vec Ideal S12288x32 .f32) (w : Vec Ideal S32x16 .f32) (b : Vec Ideal S1x16 .f32) :
    addf (F := Ideal) (Host.dotGeneral (F := Ideal) (φ₁ := .f32) (φ₂ := .f32) dot_S12288x32_S32x16_S12288x16_1_0_0_1_n_n none h w) (broadcastInDim S12288x16 ![0, 1] bcast_S1x16_S12288x16_0_1 b) = Cert.Gcn.head h w b := by
  funext i
  obtain ⟨p, q, rfl⟩ : ∃ (p : Fin 12288) (q : Fin 16), i = ix2 p q := ⟨i 0, i 1, eq_ix2 i⟩
  rw [addf_apply, dot2_apply, bias16_apply]
  rfl

/-- The decoder: the mean times its transpose. Entry `(p, q)` is `∑ k, z (p, k) · z (q, k)`, the inner product of rows
    `p` and `q`. -/
theorem gram_eq (z : Vec Ideal S12288x16 .f32) :
    Host.dotGeneral (F := Ideal) (φ₁ := .f32) (φ₂ := .f32) dot_S12288x16_S16x12288_S12288x12288_1_0_0_1_n_n none z (transpose S16x12288 [1, 0] z transposes_S12288x16_S16x12288_1_0) = Cert.Gcn.gram z := by
  funext i
  obtain ⟨p, q, rfl⟩ : ∃ (p q : Fin 12288), i = ix2 p q := ⟨i 0, i 1, eq_ix2 i⟩
  rw [dot3_apply]
  show _ = ∑ k : Fin 16, z (ix2 p k) * z (ix2 q k)
  refine Finset.sum_congr rfl fun k _ => ?_
  rw [transpose_ix2_apply]

/-! ## A bias vector as a row -/

/-- A vector of 32 entries laid out as one row `[1, 32]`: recast in row-major order, or repeated along a new
    leading axis of extent one, entry `(u, q)` is the vector's entry `q` either way. The equation holds for whatever
    evidence `h` that the two shapes have the same number of elements. -/
theorem row32_eq (b : Vec Ideal S32 .f32) (h : S32.ShapeCasts S1x32) :
    shapeCast S1x32 b h = broadcastInDim S1x32 ![1] bcast_S32_S1x32_1 b := by
  funext i
  obtain ⟨u, q, rfl⟩ : ∃ (u : Fin 1) (q : Fin 32), i = ix2 u q := ⟨i 0, i 1, eq_ix2 i⟩
  rw [shapeCast_a_1a_apply]
  exact (broadcastInDim_apply _ bcast_S32_S1x32_1 b (ix2 u q) (ix1 q) (fun c => match c with
    | ⟨0, _⟩ => by show q.val = if (32 : Nat) = 1 then 0 else q.val; rw [if_neg (by decide)])).symm

/-- A vector of 16 entries laid out as one row `[1, 16]`: recast in row-major order, or repeated along a new
    leading axis of extent one, entry `(u, q)` is the vector's entry `q` either way. The equation holds for whatever
    evidence `h` that the two shapes have the same number of elements. -/
theorem row16_eq (b : Vec Ideal S16 .f32) (h : S16.ShapeCasts S1x16) :
    shapeCast S1x16 b h = broadcastInDim S1x16 ![1] bcast_S16_S1x16_1 b := by
  funext i
  obtain ⟨u, q, rfl⟩ : ∃ (u : Fin 1) (q : Fin 16), i = ix2 u q := ⟨i 0, i 1, eq_ix2 i⟩
  rw [shapeCast_a_1a_apply]
  exact (broadcastInDim_apply _ bcast_S16_S1x16_1 b (ix2 u q) (ix1 q) (fun c => match c with
    | ⟨0, _⟩ => by show q.val = if (16 : Nat) = 1 then 0 else q.val; rw [if_neg (by decide)])).symm

end Cert.ReferenceIdeal.RefSide

end
-- ==== Proof.KI.Results.lean ====
/-
  What the three result buffers hold when @main returns, at the ideal instance, as functions of the arguments.

  The programs share their host operations verbatim (the degree norms, the two aggregations), so each value the
  kernel's program computes on the host is, read off the valuations, the very term the reference computes at the
  same place: those equations hold by unfolding. The only places where the two programs differ are the dense layers
  and the decoder: a kernel region's output array is the textbook affine map (clamped, for the first layer) or Gram
  matrix of its input arrays, and the reference's `dot_general`, broadcast bias (and `maximum`) is the same
  function; the bias row is a reshape on one side and a broadcast on the other, the same row.
  So, going down @main: the hidden activations, the mean, the log-variance and the logits are, one after the other,
  the reference's stages of the same names.
-/
import proofs.«110736_j70712341561937_1_alg».proof.Proof.KI.Segs
import proofs.«110736_j70712341561937_1_alg».proof.Proof.KI.Layer0Value
import proofs.«110736_j70712341561937_1_alg».proof.Proof.KI.Layer1Value
import proofs.«110736_j70712341561937_1_alg».proof.Proof.KI.Layer2Value
import proofs.«110736_j70712341561937_1_alg».proof.Proof.KI.DecoderValue
import proofs.«110736_j70712341561937_1_alg».proof.Proof.RefSide

set_option maxRecDepth 16384

noncomputable section

namespace Cert.KernelIdeal.Results

open Cert.KernelIdeal Cert.KernelIdeal.Gen Cert.KernelIdeal.Segs
open Idealize.ShloMosaic Idealize.ShloMosaic.TcCoe Idealize.SL.Sem Idealize.ShloMosaic.StableHlo

/-! ## The host operations' values, at any float family -/

section AnyFamily

variable {F : FTy → Type} [FloatOps F] (m : (ℓ : Loc nD τ sig) → Buf (Elt F) ℓ)

/-- No host stretch before the first region writes the source indices; -/
theorem arg1_at5 (c : Dev nD) : V5 m c main_arg1 = m ((c.tc : Thread nD τ).loc main_arg1) :=
  (V5_of m c main_arg1 (by decide)).trans <| (V4_of m c main_arg1 (by decide)).trans <| (V3_of m c main_arg1 (by decide)).trans <|
    (V2_of m c main_arg1 (by decide)).trans <| (V1_of m c main_arg1 (by decide)).trans rfl
/-- nor the destination indices; -/
theorem arg2_at5 (c : Dev nD) : V5 m c main_arg2 = m ((c.tc : Thread nD τ).loc main_arg2) :=
  (V5_of m c main_arg2 (by decide)).trans <| (V4_of m c main_arg2 (by decide)).trans <| (V3_of m c main_arg2 (by decide)).trans <|
    (V2_of m c main_arg2 (by decide)).trans <| (V1_of m c main_arg2 (by decide)).trans rfl
/-- nor the first weight; -/
theorem arg3_at5 (c : Dev nD) : V5 m c main_arg3 = m ((c.tc : Thread nD τ).loc main_arg3) :=
  (V5_of m c main_arg3 (by decide)).trans <| (V4_of m c main_arg3 (by decide)).trans <| (V3_of m c main_arg3 (by decide)).trans <|
    (V2_of m c main_arg3 (by decide)).trans <| (V1_of m c main_arg3 (by decide)).trans rfl
/-- nor the second; -/
theorem arg5_at5 (c : Dev nD) : V5 m c main_arg5 = m ((c.tc : Thread nD τ).loc main_arg5) :=
  (V5_of m c main_arg5 (by decide)).trans <| (V4_of m c main_arg5 (by decide)).trans <| (V3_of m c main_arg5 (by decide)).trans <|
    (V2_of m c main_arg5 (by decide)).trans <| (V1_of m c main_arg5 (by decide)).trans rfl
/-- nor its bias; -/
theorem arg6_at5 (c : Dev nD) : V5 m c main_arg6 = m ((c.tc : Thread nD τ).loc main_arg6) :=
  (V5_of m c main_arg6 (by decide)).trans <| (V4_of m c main_arg6 (by decide)).trans <| (V3_of m c main_arg6 (by decide)).trans <|
    (V2_of m c main_arg6 (by decide)).trans <| (V1_of m c main_arg6 (by decide)).trans rfl
/-- nor the third; -/
theorem arg7_at5 (c : Dev nD) : V5 m c main_arg7 = m ((c.tc : Thread nD τ).loc main_arg7) :=
  (V5_of m c main_arg7 (by decide)).trans <| (V4_of m c main_arg7 (by decide)).trans <| (V3_of m c main_arg7 (by decide)).trans <|
    (V2_of m c main_arg7 (by decide)).trans <| (V1_of m c main_arg7 (by decide)).trans rfl
/-- nor its bias. -/
theorem arg8_at5 (c : Dev nD) : V5 m c main_arg8 = m ((c.tc : Thread nD τ).loc main_arg8) :=
  (V5_of m c main_arg8 (by decide)).trans <| (V4_of m c main_arg8 (by decide)).trans <| (V3_of m c main_arg8 (by decide)).trans <|
    (V2_of m c main_arg8 (by decide)).trans <| (V1_of m c main_arg8 (by decide)).trans rfl

/-- The out-degree norm is the reference's. -/
theorem nsrc_eq (c : Dev nD) : V5 m c main_v12 = Cert.ReferenceIdeal.ReadP.val_main_v12 (F := F) (m ((c.tc : Thread nD τ).loc main_arg1)) := by
  rw [V5_of m c main_v12 (by decide), V4_of m c main_v12 (by decide), V3_of m c main_v12 (by decide)]
  show StableHlo.after hostOps0_1 (StableHlo.after hostOps0 (V0 m c)) (Proc.devRef .tc main_v12) = _
  after_results
  rfl

set_option maxHeartbeats 4000000 in
/-- The in-degree norm is the reference's. -/
theorem ndst_eq (c : Dev nD) : V5 m c main_v18 = Cert.ReferenceIdeal.ReadP.val_main_v18 (F := F) (m ((c.tc : Thread nD τ).loc main_arg2)) := by
  rw [V5_of m c main_v18 (by decide)]
  show StableHlo.after hostOps0_3 (StableHlo.after hostOps0_2 (StableHlo.after hostOps0_1 (StableHlo.after hostOps0 (V0 m c)))) (Proc.devRef .tc main_v18) = _
  after_results_simp
  rfl

set_option maxHeartbeats 4000000 in
/-- The first aggregation, normalised on both sides, is the reference's. -/
theorem agg1_eq (c : Dev nD) : V5 m c main_v34 = Cert.ReferenceIdeal.ReadP.val_main_v34 (F := F) (m ((c.tc : Thread nD τ).loc main_arg0)) (m ((c.tc : Thread nD τ).loc main_arg1)) (m ((c.tc : Thread nD τ).loc main_arg2)) := by
  show StableHlo.after hostOps0_4 (StableHlo.after hostOps0_3 (StableHlo.after hostOps0_2 (StableHlo.after hostOps0_1 (StableHlo.after hostOps0 (V0 m c))))) (Proc.devRef .tc main_v34) = _
  after_results_simp
  rfl

/-- The first bias, as a row. -/
theorem bias1_eq (c : Dev nD) : V5 m c main_v35 = shapeCast S1x32 (m ((c.tc : Thread nD τ).loc main_arg4)) shapeCasts_S32_S1x32 := by
  show StableHlo.after hostOps0_4 (StableHlo.after hostOps0_3 (StableHlo.after hostOps0_2 (StableHlo.after hostOps0_1 (StableHlo.after hostOps0 (V0 m c))))) (Proc.devRef .tc main_v35) = _
  after_results
  rfl

set_option maxHeartbeats 4000000 in
/-- The second aggregation of the hidden activations is the reference's, once the hidden activations are. -/
theorem agg2_eq (c : Dev nD) (hh : W6 m c main_v36 = Cert.ReferenceIdeal.ReadP.val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    X7 m c main_v52 = Cert.ReferenceIdeal.ReadP.val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W6 m c) (Proc.devRef .tc main_v52) = _
  after_results_simp
  rw [hh, W6_of m c main_v12 (by decide), nsrc_eq, W6_of m c main_v18 (by decide), ndst_eq,
    W6_of m c main_arg1 (by decide), arg1_at5, W6_of m c main_arg2 (by decide), arg2_at5]
  rfl

/-- The second bias, as a row; the second weight. -/
theorem bias2_eq (c : Dev nD) : X7 m c main_v53 = shapeCast S1x16 (m ((c.tc : Thread nD τ).loc main_arg6)) shapeCasts_S16_S1x16 := by
  show StableHlo.after hostOps1 (W6 m c) (Proc.devRef .tc main_v53) = _
  after_results
  rw [W6_of m c main_arg6 (by decide), arg6_at5]
  rfl
theorem weight2_eq (c : Dev nD) : X7 m c main_arg5 = (m ((c.tc : Thread nD τ).loc main_arg5)) :=
  (StableHlo.after_of_writes_sub hostOps1 _ hostOps1_writes (by decide)).trans <| (W6_of m c main_arg5 (by decide)).trans (arg5_at5 m c)

/-- Across the mean head and the reshape after it the aggregated activations stay. -/
theorem agg2_at9 (c : Dev nD) : X9 m c main_v52 = X7 m c main_v52 :=
  (StableHlo.after_of_writes_sub hostOps2 _ hostOps2_writes (by decide)).trans (W8_of m c main_v52 (by decide))
/-- The third bias, as a row; the third weight. -/
theorem bias3_eq (c : Dev nD) : X9 m c main_v55 = shapeCast S1x16 (m ((c.tc : Thread nD τ).loc main_arg8)) shapeCasts_S16_S1x16 := by
  show StableHlo.after hostOps2 (W8 m c) (Proc.devRef .tc main_v55) = _
  after_results
  rw [W8_of m c main_arg8 (by decide)]
  show shapeCast S1x16 (StableHlo.after hostOps1 (W6 m c) (Proc.devRef .tc main_arg8)) shapeCasts_S16_S1x16 = _
  rw [StableHlo.after_of_writes_sub hostOps1 _ hostOps1_writes (by decide), W6_of m c main_arg8 (by decide), arg8_at5]
theorem weight3_eq (c : Dev nD) : X9 m c main_arg7 = (m ((c.tc : Thread nD τ).loc main_arg7)) :=
  (StableHlo.after_of_writes_sub hostOps2 _ hostOps2_writes (by decide)).trans <| (W8_of m c main_arg7 (by decide)).trans <|
    (StableHlo.after_of_writes_sub hostOps1 _ hostOps1_writes (by decide)).trans <| (W6_of m c main_arg7 (by decide)).trans (arg7_at5 m c)

/-- The decoder reads the mean as the mean head left it. -/
theorem mean_at10 (c : Dev nD) : W10 m c main_v54 = mean m c :=
  (W10_of m c main_v54 (by decide)).trans <| (StableHlo.after_of_writes_sub hostOps2 _ hostOps2_writes (by decide)).trans <| by
    show Function.update (X7 m c) main_v54 (mean m c) main_v54 = _
    rw [Function.update_self]

/-- The reference aggregates the hidden activations twice, once per head: the same term both times. -/
theorem ref_agg2_twice (x0 : (⟨Cert.ReferenceIdeal.S12288x512, .f32⟩ : BufTy).Contents (Elt F)) (x1 x2 : (⟨Cert.ReferenceIdeal.S405504, .i32⟩ : BufTy).Contents (Elt F))
    (x3 : (⟨Cert.ReferenceIdeal.S512x32, .f32⟩ : BufTy).Contents (Elt F)) (x4 : (⟨Cert.ReferenceIdeal.S32, .f32⟩ : BufTy).Contents (Elt F)) :
    Cert.ReferenceIdeal.ReadP.val_main_v75 (F := F) x0 x1 x2 x3 x4 = Cert.ReferenceIdeal.ReadP.val_main_v55 (F := F) x0 x1 x2 x3 x4 := rfl

/-- The three result buffers at the end are what the decoder, the mean head and the log-variance head left. -/
theorem end_logits (c : Dev nD) : V11 m (outs m) c main_v57 = logits m c := by
  rw [V11_eq]; show Function.update (W10 m c) main_v57 (logits m c) main_v57 = _; rw [Function.update_self]
theorem end_mean (c : Dev nD) : V11 m (outs m) c main_v54 = mean m c := by
  rw [V11_eq, W11_of m c main_v54 (by decide)]; exact mean_at10 m c
theorem end_logvar (c : Dev nD) : V11 m (outs m) c main_v56 = logvar m c := by
  rw [V11_eq, W11_of m c main_v56 (by decide)]; show Function.update (X9 m c) main_v56 (logvar m c) main_v56 = _; rw [Function.update_self]

end AnyFamily

/-! ## The regions' values, at the ideal instance -/

variable (m : (ℓ : Loc nD τ sig) → Buf (Elt Ideal) ℓ)

/-- The hidden activations are the reference's `relu (a₁ · W₁ + b₁)`. -/
theorem hidden_val (c : Dev nD) : Segs.hidden m c = Cert.ReferenceIdeal.ReadP.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Segs.hidden
  rw [Layer0Value.array_after (atTc (V5 m)) c]
  show Cert.Gcn.hidden (V5 m c main_v34) (V5 m c main_arg3) (V5 m c main_v35) = _
  rw [agg1_eq, arg3_at5, bias1_eq, Cert.ReferenceIdeal.RefSide.row32_eq, ← Cert.ReferenceIdeal.RefSide.hidden_eq]
  rfl

/-- The mean is the reference's `a₂ · W₂ + b₂`. -/
theorem mean_val (c : Dev nD) : mean m c = Cert.ReferenceIdeal.ReadP.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold mean
  rw [Layer1Value.array_after (atTc (X7 m)) c]
  show Cert.Gcn.head (X7 m c main_v52) (X7 m c main_arg5) (X7 m c main_v53) = _
  rw [agg2_eq m c (by show Function.update (V5 m c) main_v36 (Segs.hidden m c) main_v36 = _; rw [Function.update_self]; exact hidden_val m c),
    weight2_eq, bias2_eq, Cert.ReferenceIdeal.RefSide.row16_eq, ← Cert.ReferenceIdeal.RefSide.head_eq]
  rfl

/-- The log-variance is the reference's `a₂ · W₃ + b₃`. -/
theorem logvar_val (c : Dev nD) : logvar m c = Cert.ReferenceIdeal.ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  unfold logvar
  rw [Layer2Value.array_after (atTc (X9 m)) c]
  show Cert.Gcn.head (X9 m c main_v52) (X9 m c main_arg7) (X9 m c main_v55) = _
  rw [agg2_at9, agg2_eq m c (by show Function.update (V5 m c) main_v36 (Segs.hidden m c) main_v36 = _; rw [Function.update_self]; exact hidden_val m c),
    weight3_eq, bias3_eq, Cert.ReferenceIdeal.RefSide.row16_eq, ← Cert.ReferenceIdeal.RefSide.head_eq, ← ref_agg2_twice]
  rfl

/-- The logits are the reference's `μ · μᵀ`. -/
theorem logits_val (c : Dev nD) : logits m c = Cert.ReferenceIdeal.ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold logits
  rw [DecoderValue.array_after (atTc (W10 m)) c]
  show Cert.Gcn.gram (W10 m c main_v54) = _
  rw [mean_at10, mean_val, ← Cert.ReferenceIdeal.RefSide.gram_eq]
  rfl

end Cert.KernelIdeal.Results

end
-- ==== Proof.lean ====
/-
  The kernel computes a two-layer graph-convolution encoder and an inner-product decoder: with `a₁` the normalised
  neighbourhood sums of the features, `h = max (a₁ · W₁ + b₁) 0`; with `a₂` those of `h`, the mean `μ = a₂ · W₂ + b₂`
  and the log-variance `a₂ · W₃ + b₃`; and the logits `μ · μᵀ`. The degree norms, the gathers and the scatter-adds run
  on the host in both programs, by the same operations in the same order; the kernel's program runs the three dense
  layers and the decoder as pipelined kernels over row tiles (six tiles of 2048 rows; an 8 × 8 grid of 1536 × 1536
  tiles), the reference as whole-array products.

  Frames: each kernel region is the pipeline's frame around a body that loads its input tiles, multiplies, adds and
  stores the whole output tile; the decoder reads one array through two windows, which hold it half and half.
  Value: at the extended reals a change of number format is the identity, a product accumulated into zero is the
  plain sum over the contracted coordinate, and tiling the rows does not change an entry's sum; so each region's
  output array is the affine map (clamped at zero, for the first layer) or the Gram matrix of the region's input
  arrays, and so are the reference's `dot_general`, broadcast bias (and `maximum`). Only commutativity and
  associativity of the extended reals' sum and product are used: the precondition is never opened. The ideal pass
  rewrote nothing, so there is nothing to preserve.
-/
import proofs.«110736_j70712341561937_1_alg».proof.Defs
import proofs.«110736_j70712341561937_1_alg».proof.Proof.Gen.Kernel
import proofs.«110736_j70712341561937_1_alg».proof.Proof.Gen.KernelIdeal
import proofs.«110736_j70712341561937_1_alg».proof.Proof.Gen.ReferenceIdeal
import proofs.«110736_j70712341561937_1_alg».proof.Proof.Gen.Pre_finite_inputs
import proofs.«110736_j70712341561937_1_alg».proof.Proof.K.Frame
import proofs.«110736_j70712341561937_1_alg».proof.Proof.KI.Frame
import proofs.«110736_j70712341561937_1_alg».proof.Proof.KI.Run
import proofs.«110736_j70712341561937_1_alg».proof.Proof.KI.Results
import proofs.«110736_j70712341561937_1_alg».proof.Proof.RefRun
import proofs.«110736_j70712341561937_1_alg».proof.Proof.RefRead
import Idealize.ShloMosaic.Adequacy
import Idealize.ShloMosaic.Init

noncomputable section

namespace Cert.Proof

open Idealize.ShloMosaic Idealize.SL.Sem

/-- The word-level kernel runs and keeps its arguments. -/
theorem frame_k : @Cert.frame_Kernel Cert.Kernel.Gen.facts Cert.Pre_finite_inputs.Gen.facts :=
  fun m ρ _ => Cert.Kernel.Frame.frame (F := Bits) m ρ

/-- The idealized kernel runs and keeps its arguments. -/
theorem frame_ki : @Cert.frame_KernelIdeal Cert.KernelIdeal.Gen.facts Cert.Pre_finite_inputs.Gen.facts :=
  fun m ρ _ => Cert.KernelIdeal.Frame.frame (F := Ideal) m ρ

/-- The reference runs and keeps its arguments: its run, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.ValueP.run (F := Ideal) m ρ)

/-- From memories that agree on the arguments both programs end with the logits, the mean and the log-variance at
    the reference's stages of the common arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.ReadP.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.ReadP.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Run.run_named (F := Ideal) m ρ)
    obtain ⟨h57, h54, h56, hargs⟩ := h c
    exact ⟨h57.trans ((Cert.KernelIdeal.Results.end_logits m c).trans (Cert.KernelIdeal.Results.logits_val m c)),
      h54.trans ((Cert.KernelIdeal.Results.end_mean m c).trans (Cert.KernelIdeal.Results.mean_val m c)),
      h56.trans ((Cert.KernelIdeal.Results.end_logvar m c).trans (Cert.KernelIdeal.Results.logvar_val m c)), hargs⟩
  · refine (θ_run Cert.ReferenceIdeal.defs _ _).mono (fun r h c => ?_) (Cert.ReferenceIdeal.ValueP.run (F := Ideal) m' ρ')
    obtain ⟨h81, h59, h79, hargs⟩ := h c
    obtain ⟨e0, e1, e2, e3, e4, e5, e6, e7, e8⟩ := hagree c
    refine ⟨h81.trans ((Cert.ReferenceIdeal.ReadP.val_main_v81_eq m' c).trans ?_),
      h59.trans ((Cert.ReferenceIdeal.ReadP.val_main_v59_eq m' c).trans ?_),
      h79.trans ((Cert.ReferenceIdeal.ReadP.val_main_v79_eq m' c).trans ?_), hargs⟩
    · rw [e0, e1, e2, e3, e4, e5, e6]
    · rw [e0, e1, e2, e3, e4, e5, e6]
    · rw [e0, e1, e2, e3, e4, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
